-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x256 : Shape := ⟨3, ![16, 1024, 256]⟩
abbrev S2x16384 : Shape := ⟨2, ![2, 16384]⟩
abbrev S3x256x256 : Shape := ⟨3, ![3, 256, 256]⟩
abbrev S3x256 : Shape := ⟨2, ![3, 256]⟩
abbrev S_ : Shape := ⟨0, ![]⟩
abbrev S1x16384 : Shape := ⟨2, ![1, 16384]⟩
abbrev S16384 : Shape := ⟨1, ![16384]⟩

class Facts : Prop where
  bcast_S_S16x1024x256 : S_.BroadcastsInDim S16x1024x256 (![] : Fin 0 → Fin S16x1024x256.rank)
  reducesTo_S16x1024x256_S_d0_1_2 : S16x1024x256.ReducesTo [0, 1, 2] S_
  h_S_ : 0 < S_.numel
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  slices_S2x16384_S1x16384_0_0 : S2x16384.Slices ![0, 0] S1x16384
  shapeCasts_S1x16384_S16384 : S1x16384.ShapeCasts S16384
  bcast_S_S16384 : S_.BroadcastsInDim S16384 (![] : Fin 0 → Fin S16384.rank)
  reducesTo_S16384_S_d0 : S16384.ReducesTo [0] S_

variable [Facts]

def fn_part3 {F : FTy → Type} [FloatOps F] (main_v43 : IVec S_ 1) (main_v47 : IVec S16384 1) (main_v51 : IVec S16384 1) : IVec S_ 1 :=
  let main_v52 : IVec S16384 1 := andi main_v47 main_v51
  let main_c_18 : IVec S_ 1 := constantI S_ 1 1#1
  let main_v53 : IVec S_ 1 := (fun x v => Host.reduce IntOp.andi x v reducesTo_S16384_S_d0 h_S_) main_v52 main_c_18
  let main_v54 : IVec S_ 1 := andi main_v43 main_v53
  main_v54

def fn_part2 {F : FTy → Type} [FloatOps F] (main_arg1 : IVec S2x16384 32) (main_arg8 : FVec F S3x256 .f32) (main_arg9 : FVec F S3x256 .f32) (main_v33 : IVec S_ 1) : IVec S_ 1 :=
  let main_v34 : FVec F S3x256 .f32 := Host.absf main_arg8
  let main_cst_12 : FVec F S_ .f32 := constant S_ .f32 0x7F800000#32
  let main_v35 : FVec F S3x256 .f32 := broadcastInDim S3x256 ![] bcast_S_S3x256 main_cst_12
  let main_v36 : IVec S3x256 1 := cmpf .olt main_v34 main_v35
  let main_c_13 : IVec S_ 1 := constantI S_ 1 1#1
  let main_v37 : IVec S_ 1 := (fun x v => Host.reduce IntOp.andi x v reducesTo_S3x256_S_d0_1 h_S_) main_v36 main_c_13
  let main_v38 : IVec S_ 1 := andi main_v33 main_v37
  let main_v39 : FVec F S3x256 .f32 := Host.absf main_arg9
  let main_cst_14 : FVec F S_ .f32 := constant S_ .f32 0x7F800000#32
  let main_v40 : FVec F S3x256 .f32 := broadcastInDim S3x256 ![] bcast_S_S3x256 main_cst_14
  let main_v41 : IVec S3x256 1 := cmpf .olt main_v39 main_v40
  let main_c_15 : IVec S_ 1 := constantI S_ 1 1#1
  let main_v42 : IVec S_ 1 := (fun x v => Host.reduce IntOp.andi x v reducesTo_S3x256_S_d0_1 h_S_) main_v41 main_c_15
  let main_v43 : IVec S_ 1 := andi main_v38 main_v42
  let main_v44 : IVec S1x16384 32 := (extractStridedSlice S1x16384 ![0, 0] · slices_S2x16384_S1x16384_0_0) main_arg1
  let main_v45 : IVec S16384 32 := shapeCast S16384 main_v44 shapeCasts_S1x16384_S16384
  let main_c_16 : IVec S_ 32 := constantI S_ 32 4294966272#32
  let main_v46 : IVec S16384 32 := broadcastInDim S16384 ![] bcast_S_S16384 main_c_16
  let main_v47 : IVec S16384 1 := cmpi .sge main_v45 main_v46
  let main_v48 : IVec S1x16384 32 := (extractStridedSlice S1x16384 ![0, 0] · slices_S2x16384_S1x16384_0_0) main_arg1
  let main_v49 : IVec S16384 32 := shapeCast S16384 main_v48 shapeCasts_S1x16384_S16384
  let main_c_17 : IVec S_ 32 := constantI S_ 32 1024#32
  let main_v50 : IVec S16384 32 := broadcastInDim S16384 ![] bcast_S_S16384 main_c_17
  let main_v51 : IVec S16384 1 := cmpi .slt main_v49 main_v50
  fn_part3 (F := F) main_v43 main_v47 main_v51

def fn_part1 {F : FTy → Type} [FloatOps F] (main_arg1 : IVec S2x16384 32) (main_arg5 : FVec F S3x256 .f32) (main_arg6 : FVec F S3x256 .f32) (main_arg7 : FVec F S3x256 .f32) (main_arg8 : FVec F S3x256 .f32) (main_arg9 : FVec F S3x256 .f32) (main_v13 : IVec S_ 1) (main_v16 : IVec S3x256x256 1) : IVec S_ 1 :=
  let main_c_5 : IVec S_ 1 := constantI S_ 1 1#1
  let main_v17 : IVec S_ 1 := (fun x v => Host.reduce IntOp.andi x v reducesTo_S3x256x256_S_d0_1_2 h_S_) main_v16 main_c_5
  let main_v18 : IVec S_ 1 := andi main_v13 main_v17
  let main_v19 : FVec F S3x256 .f32 := Host.absf main_arg5
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  let main_v24 : FVec F S3x256 .f32 := Host.absf main_arg6
  let main_cst_8 : FVec F S_ .f32 := constant S_ .f32 0x7F800000#32
  let main_v25 : FVec F S3x256 .f32 := broadcastInDim S3x256 ![] bcast_S_S3x256 main_cst_8
  let main_v26 : IVec S3x256 1 := cmpf .olt main_v24 main_v25
  let main_c_9 : IVec S_ 1 := constantI S_ 1 1#1
  let main_v27 : IVec S_ 1 := (fun x v => Host.reduce IntOp.andi x v reducesTo_S3x256_S_d0_1 h_S_) main_v26 main_c_9
  let main_v28 : IVec S_ 1 := andi main_v23 main_v27
  let main_v29 : FVec F S3x256 .f32 := Host.absf main_arg7
  let main_cst_10 : FVec F S_ .f32 := constant S_ .f32 0x7F800000#32
  let main_v30 : FVec F S3x256 .f32 := broadcastInDim S3x256 ![] bcast_S_S3x256 main_cst_10
  let main_v31 : IVec S3x256 1 := cmpf .olt main_v29 main_v30
  let main_c_11 : IVec S_ 1 := constantI S_ 1 1#1
  let main_v32 : IVec S_ 1 := (fun x v => Host.reduce IntOp.andi x v reducesTo_S3x256_S_d0_1 h_S_) main_v31 main_c_11
  let main_v33 : IVec S_ 1 := andi main_v28 main_v32
  fn_part2 (F := F) main_arg1 main_arg8 main_arg9 main_v33

def fn {F : FTy → Type} [FloatOps F] (main_arg0 : FVec F S16x1024x256 .f32) (main_arg1 : IVec S2x16384 32) (main_arg2 : FVec F S3x256x256 .f32) (main_arg3 : FVec F S3x256 .f32) (main_arg4 : FVec F S3x256x256 .f32) (main_arg5 : FVec F S3x256 .f32) (main_arg6 : FVec F S3x256 .f32) (main_arg7 : FVec F S3x256 .f32) (main_arg8 : FVec F S3x256 .f32) (main_arg9 : FVec F S3x256 .f32) : IVec S_ 1 :=
  let main_v0 : FVec F S16x1024x256 .f32 := Host.absf main_arg0
  let main_cst : FVec F S_ .f32 := constant S_ .f32 0x7F800000#32
  let main_v1 : FVec F S16x1024x256 .f32 := broadcastInDim S16x1024x256 ![] bcast_S_S16x1024x256 main_cst
  let main_v2 : IVec S16x1024x256 1 := cmpf .olt main_v0 main_v1
  let main_c : IVec S_ 1 := constantI S_ 1 1#1
  let main_v3 : IVec S_ 1 := (fun x v => Host.reduce IntOp.andi x v reducesTo_S16x1024x256_S_d0_1_2 h_S_) main_v2 main_c
  let main_v4 : FVec F S3x256x256 .f32 := Host.absf main_arg2
  let main_cst_0 : FVec F S_ .f32 := constant S_ .f32 0x7F800000#32
  let main_v5 : FVec F S3x256x256 .f32 := broadcastInDim S3x256x256 ![] bcast_S_S3x256x256 main_cst_0
  let main_v6 : IVec S3x256x256 1 := cmpf .olt main_v4 main_v5
  let main_c_1 : IVec S_ 1 := constantI S_ 1 1#1
  let main_v7 : IVec S_ 1 := (fun x v => Host.reduce IntOp.andi x v reducesTo_S3x256x256_S_d0_1_2 h_S_) main_v6 main_c_1
  let main_v8 : IVec S_ 1 := andi main_v3 main_v7
  let main_v9 : FVec F S3x256 .f32 := Host.absf main_arg3
  let main_cst_2 : FVec F S_ .f32 := constant S_ .f32 0x7F800000#32
  let main_v10 : FVec F S3x256 .f32 := broadcastInDim S3x256 ![] bcast_S_S3x256 main_cst_2
  let main_v11 : IVec S3x256 1 := cmpf .olt main_v9 main_v10
  let main_c_3 : IVec S_ 1 := constantI S_ 1 1#1
  let main_v12 : IVec S_ 1 := (fun x v => Host.reduce IntOp.andi x v reducesTo_S3x256_S_d0_1 h_S_) main_v11 main_c_3
  let main_v13 : IVec S_ 1 := andi main_v8 main_v12
  let main_v14 : FVec F S3x256x256 .f32 := Host.absf main_arg4
  let main_cst_4 : FVec F S_ .f32 := constant S_ .f32 0x7F800000#32
  let main_v15 : FVec F S3x256x256 .f32 := broadcastInDim S3x256x256 ![] bcast_S_S3x256x256 main_cst_4
  let main_v16 : IVec S3x256x256 1 := cmpf .olt main_v14 main_v15
  fn_part1 (F := F) main_arg1 main_arg5 main_arg6 main_arg7 main_arg8 main_arg9 main_v13 main_v16
-- ==== Kernel.lean ====
abbrev S16x1024x256 : Shape := ⟨3, ![16, 1024, 256]⟩
abbrev S2x16384 : Shape := ⟨2, ![2, 16384]⟩
abbrev S3x256x256 : Shape := ⟨3, ![3, 256, 256]⟩
abbrev S3x256 : Shape := ⟨2, ![3, 256]⟩
abbrev S1x16384 : Shape := ⟨2, ![1, 16384]⟩
abbrev S16384 : Shape := ⟨1, ![16384]⟩
abbrev S_ : Shape := ⟨0, ![]⟩
abbrev S1024x1024 : Shape := ⟨2, ![1024, 1024]⟩
abbrev S16384x1 : Shape := ⟨2, ![16384, 1]⟩
abbrev S16384x2 : Shape := ⟨2, ![16384, 2]⟩
abbrev S3x1x256 : Shape := ⟨3, ![3, 1, 256]⟩
abbrev S3x16x1024x256 : Shape := ⟨4, ![3, 16, 1024, 256]⟩
abbrev S1x1024x256 : Shape := ⟨3, ![1, 1024, 256]⟩
abbrev S3x1x1024x256 : Shape := ⟨4, ![3, 1, 1024, 256]⟩
abbrev S1024x256 : Shape := ⟨2, ![1024, 256]⟩
abbrev S1x256x256 : Shape := ⟨3, ![1, 256, 256]⟩
abbrev S256x256 : Shape := ⟨2, ![256, 256]⟩
abbrev S1x1x256 : Shape := ⟨3, ![1, 1, 256]⟩
abbrev S1x256 : Shape := ⟨2, ![1, 256]⟩
abbrev S1x1x1024x256 : Shape := ⟨4, ![1, 1, 1024, 256]⟩

abbrev nBuf : Space → Nat
  | .hbm => 54
  | .vmem => 13
  | .smem => 0
  | _ => 0

abbrev bufTy : (tb : Table) → Fin (tcTables nBuf tb) → BufTy
  | .hbm, ⟨0, _⟩ => ⟨S16x1024x256, .f32⟩
  | .hbm, ⟨1, _⟩ => ⟨S2x16384, .i32⟩
  | .hbm, ⟨2, _⟩ => ⟨S3x256x256, .f32⟩
  | .hbm, ⟨3, _⟩ => ⟨S3x256, .f32⟩
  | .hbm, ⟨4, _⟩ => ⟨S3x256x256, .f32⟩
  | .hbm, ⟨5, _⟩ => ⟨S3x256, .f32⟩
  | .hbm, ⟨6, _⟩ => ⟨S3x256, .f32⟩
  | .hbm, ⟨7, _⟩ => ⟨S3x256, .f32⟩
  | .hbm, ⟨8, _⟩ => ⟨S3x256, .f32⟩
  | .hbm, ⟨9, _⟩ => ⟨S3x256, .f32⟩
  | .hbm, ⟨10, _⟩ => ⟨S1x16384, .i32⟩
  | .hbm, ⟨11, _⟩ => ⟨S16384, .i32⟩
  | .hbm, ⟨12, _⟩ => ⟨S1x16384, .i32⟩
  | .hbm, ⟨13, _⟩ => ⟨S16384, .i32⟩
  | .hbm, ⟨14, _⟩ => ⟨S_, .f32⟩
  | .hbm, ⟨15, _⟩ => ⟨S1024x1024, .f32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S_, .i32⟩
  | .hbm, ⟨20, _⟩ => ⟨S16384, .i32⟩
  | .hbm, ⟨21, _⟩ => ⟨S16384, .i32⟩
  | .hbm, ⟨22, _⟩ => ⟨S16384, .i32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S16384x1, .i32⟩
  | .hbm, ⟨31, _⟩ => ⟨S16384x1, .i32⟩
  | .hbm, ⟨32, _⟩ => ⟨S16384x2, .i32⟩
  | .hbm, ⟨33, _⟩ => ⟨S_, .f32⟩
  | .hbm, ⟨34, _⟩ => ⟨S16384, .f32⟩
  | .hbm, ⟨35, _⟩ => ⟨S1024x1024, .f32⟩
  | .hbm, ⟨36, _⟩ => ⟨S1024x1024, .i32⟩
  | .hbm, ⟨37, _⟩ => ⟨S1024x1024, .i32⟩
  | .hbm, ⟨38, _⟩ => ⟨S_, .i32⟩
  | .hbm, ⟨39, _⟩ => ⟨S1024x1024, .i32⟩
  | .hbm, ⟨40, _⟩ => ⟨S1024x1024, .i32⟩
  | .hbm, ⟨41, _⟩ => ⟨S1024x1024, .i1⟩
  | .hbm, ⟨42, _⟩ => ⟨S1024x1024, .f32⟩
  | .hbm, ⟨43, _⟩ => ⟨S1024x1024, .f32⟩
  | .hbm, ⟨44, _⟩ => ⟨S1024x1024, .bf16⟩
  | .hbm, ⟨45, _⟩ => ⟨S3x256x256, .bf16⟩
  | .hbm, ⟨46, _⟩ => ⟨S3x256x256, .bf16⟩
  | .hbm, ⟨47, _⟩ => ⟨S3x1x256, .f32⟩
  | .hbm, ⟨48, _⟩ => ⟨S3x1x256, .f32⟩
  | .hbm, ⟨49, _⟩ => ⟨S3x1x256, .f32⟩
  | .hbm, ⟨50, _⟩ => ⟨S3x1x256, .f32⟩
  | .hbm, ⟨51, _⟩ => ⟨S3x1x256, .f32⟩
  | .hbm, ⟨52, _⟩ => ⟨S3x1x256, .f32⟩
  | .hbm, ⟨53, _⟩ => ⟨S3x16x1024x256, .f32⟩
  | .local _ .vmem, ⟨0, _⟩ => ⟨S1x1024x256, .f32⟩
  | .local _ .vmem, ⟨1, _⟩ => ⟨S1x1024x256, .f32⟩
  | .local _ .vmem, ⟨2, _⟩ => ⟨S1024x1024, .bf16⟩
  | .local _ .vmem, ⟨3, _⟩ => ⟨S3x256x256, .bf16⟩
  | .local _ .vmem, ⟨4, _⟩ => ⟨S3x256x256, .bf16⟩
  | .local _ .vmem, ⟨5, _⟩ => ⟨S3x1x256, .f32⟩
  | .local _ .vmem, ⟨6, _⟩ => ⟨S3x1x256, .f32⟩
  | .local _ .vmem, ⟨7, _⟩ => ⟨S3x1x256, .f32⟩
  | .local _ .vmem, ⟨8, _⟩ => ⟨S3x1x256, .f32⟩
  | .local _ .vmem, ⟨9, _⟩ => ⟨S3x1x256, .f32⟩
  | .local _ .vmem, ⟨10, _⟩ => ⟨S3x1x256, .f32⟩
  | .local _ .vmem, ⟨11, _⟩ => ⟨S3x1x1024x256, .f32⟩
  | .local _ .vmem, ⟨12, _⟩ => ⟨S3x1x1024x256, .f32⟩
  | _, _ => ⟨S16x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S3x1x1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x16384_S1x16384_0_0 : S2x16384.Slices ![0, 0] S1x16384
  shapeCasts_S1x16384_S16384 : S1x16384.ShapeCasts S16384
  slices_S2x16384_S1x16384_1_0 : S2x16384.Slices ![1, 0] S1x16384
  bcast_S_S1024x1024 : S_.BroadcastsInDim S1024x1024 (![] : Fin 0 → Fin S1024x1024.rank)
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  bitsLt_bf16_f32 : FTy.bits .bf16 < FTy.bits .f32
  shapeCasts_S3x256_S3x1x256 : S3x256.ShapeCasts S3x1x256
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S3x256x256_S1x256x256_0_0_0 : ∀ a, (![0, 0, 0] : Fin 3 → Nat) a + S1x256x256.size a ≤ S3x256x256.size a
  h_S1x256x256 : 0 < S1x256x256.numel
  shapeCasts_S1x256x256_S256x256 : S1x256x256.ShapeCasts S256x256
  inb_S3x1x256_S1x1x256_0_0_0 : ∀ a, (![0, 0, 0] : Fin 3 → Nat) a + S1x1x256.size a ≤ S3x1x256.size a
  h_S1x1x256 : 0 < S1x1x256.numel
  shapeCasts_S1x1x256_S1x256 : S1x1x256.ShapeCasts S1x256
  broadcasts_S1x256_S1024x256 : S1x256.Broadcasts S1024x256
  inb_S3x1x1024x256_S1x1x1024x256_0_0_0_0 : ∀ a, (![0, 0, 0, 0] : Fin 4 → Nat) a + S1x1x1024x256.size a ≤ S3x1x1024x256.size a
  h_S1x1x1024x256 : 0 < S1x1x1024x256.numel
  shapeCasts_S1x1x1024x256_S1024x256 : S1x1x1024x256.ShapeCasts S1024x256
  shapeCasts_S1024x256_S1x1x1024x256 : S1024x256.ShapeCasts S1x1x1024x256
  inb_S3x256x256_S1x256x256_1_0_0 : ∀ a, (![1, 0, 0] : Fin 3 → Nat) a + S1x256x256.size a ≤ S3x256x256.size a
  inb_S3x1x256_S1x1x256_1_0_0 : ∀ a, (![1, 0, 0] : Fin 3 → Nat) a + S1x1x256.size a ≤ S3x1x256.size a
  inb_S3x1x1024x256_S1x1x1024x256_1_0_0_0 : ∀ a, (![1, 0, 0, 0] : Fin 4 → Nat) a + S1x1x1024x256.size a ≤ S3x1x1024x256.size a
  inb_S3x256x256_S1x256x256_2_0_0 : ∀ a, (![2, 0, 0] : Fin 3 → Nat) a + S1x256x256.size a ≤ S3x256x256.size a
  inb_S3x1x256_S1x1x256_2_0_0 : ∀ a, (![2, 0, 0] : Fin 3 → Nat) a + S1x1x256.size a ≤ S3x1x256.size a
  inb_S3x1x1024x256_S1x1x1024x256_2_0_0_0 : ∀ a, (![2, 0, 0, 0] : Fin 4 → Nat) a + S1x1x1024x256.size a ≤ S3x1x1024x256.size a
  scatter_S1024x1024_S16384x2_S16384_n_01_01_1_wf : ScatterDims.WF S1024x1024 S16384x2 S16384 [] [0, 1] [0, 1] 1
  dot_S1024x1024_S1024x256_S1024x256_1_0_0_1_n_n_wf : DotDims.WF S1024x1024 S1024x256 S1024x256 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S16x1024x256.size a
  hwx0_0 : ∀ i : grid0.Coords, EltTy.bits .f32 = 32 ∨ (Rect.block (s := S16x1024x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x256x256.size a ≤ S3x256x256.size a
  hwx0_2 : ∀ i : grid0.Coords, EltTy.bits .bf16 = 32 ∨ (Rect.block (s := S3x256x256) S3x256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x256x256.size a ≤ S3x256x256.size a
  hwx0_3 : ∀ i : grid0.Coords, EltTy.bits .bf16 = 32 ∨ (Rect.block (s := S3x256x256) S3x256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x1x256.size a ≤ S3x1x256.size a
  hwx0_4 : ∀ i : grid0.Coords, EltTy.bits .f32 = 32 ∨ (Rect.block (s := S3x1x256) S3x1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x1x256.size a ≤ S3x1x256.size a
  hwx0_5 : ∀ i : grid0.Coords, EltTy.bits .f32 = 32 ∨ (Rect.block (s := S3x1x256) S3x1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x1x256.size a ≤ S3x1x256.size a
  hwx0_6 : ∀ i : grid0.Coords, EltTy.bits .f32 = 32 ∨ (Rect.block (s := S3x1x256) S3x1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x1x256.size a ≤ S3x1x256.size a
  hwx0_7 : ∀ i : grid0.Coords, EltTy.bits .f32 = 32 ∨ (Rect.block (s := S3x1x256) S3x1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x1x256.size a ≤ S3x1x256.size a
  hwx0_8 : ∀ i : grid0.Coords, EltTy.bits .f32 = 32 ∨ (Rect.block (s := S3x1x256) S3x1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x1x256.size a ≤ S3x1x256.size a
  hwx0_9 : ∀ i : grid0.Coords, EltTy.bits .f32 = 32 ∨ (Rect.block (s := S3x1x256) S3x1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S3x1x1024x256.size a ≤ S3x16x1024x256.size a
  hwx0_10 : ∀ i : grid0.Coords, EltTy.bits .f32 = 32 ∨ (Rect.block (s := S3x16x1024x256) S3x1x1024x256.size (cc0_transform_10 i) (hinb0_10 i)).WholeWords (EltTy.packing .f32)

variable [Facts₀]

def scatter_S1024x1024_S16384x2_S16384_n_01_01_1 : ScatterDims S1024x1024 S16384x2 S16384 where
  updateWindowDims := []
  insertedWindowDims := [0, 1]
  scatterDimsToOperandDims := [0, 1]
  indexVectorDim := 1
  wf := scatter_S1024x1024_S16384x2_S16384_n_01_01_1_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S3x256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S3x256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S3x1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S3x1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S3x1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v33) S3x1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v34) S3x1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v35) S3x1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v36) S3x1x1024x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16x1024x256 : Shape := ⟨3, ![16, 1024, 256]⟩
abbrev S2x16384 : Shape := ⟨2, ![2, 16384]⟩
abbrev S3x256x256 : Shape := ⟨3, ![3, 256, 256]⟩
abbrev S3x256 : Shape := ⟨2, ![3, 256]⟩
abbrev S1x16384 : Shape := ⟨2, ![1, 16384]⟩
abbrev S16384 : Shape := ⟨1, ![16384]⟩
abbrev S_ : Shape := ⟨0, ![]⟩
abbrev S16384x1 : Shape := ⟨2, ![16384, 1]⟩
abbrev S16x16384x256 : Shape := ⟨3, ![16, 16384, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x1x256 : Shape := ⟨3, ![1, 1, 256]⟩
abbrev S1x16x1024x256 : Shape := ⟨4, ![1, 16, 1024, 256]⟩
abbrev S3x16x1024x256 : Shape := ⟨4, ![3, 16, 1024, 256]⟩

abbrev nBuf : Space → Nat
  | .hbm => 210
  | .vmem => 0
  | .smem => 0
  | _ => 0

abbrev hbmTy0_0 (i : Nat) : BufTy := match i % 128 with
  | 0 => ⟨S16x1024x256, .f32⟩
  | 1 => ⟨S2x16384, .i32⟩
  | 2 => ⟨S3x256x256, .f32⟩
  | 3 => ⟨S3x256, .f32⟩
  | 4 => ⟨S3x256x256, .f32⟩
  | 5 => ⟨S3x256, .f32⟩
  | 6 => ⟨S3x256, .f32⟩
  | 7 => ⟨S3x256, .f32⟩
  | 8 => ⟨S3x256, .f32⟩
  | 9 => ⟨S3x256, .f32⟩
  | 10 => ⟨S1x16384, .i32⟩
  | 11 => ⟨S16384, .i32⟩
  | 12 => ⟨S1x16384, .i32⟩
  | 13 => ⟨S16384, .i32⟩
  | 14 => ⟨S_, .f32⟩
  | 15 => ⟨S16x1024x256, .f32⟩
  | 16 => ⟨S_, .i32⟩
  | 17 => ⟨S16384, .i32⟩
  | 18 => ⟨S16384, .i1⟩
  | 19 => ⟨S_, .i32⟩
  | 20 => ⟨S16384, .i32⟩
  | 21 => ⟨S16384, .i32⟩
  | 22 => ⟨S16384, .i32⟩
  | 23 => ⟨S16384x1, .i32⟩
  | 24 => ⟨S16x16384x256, .f32⟩
  | 25 => ⟨S_, .i32⟩
  | 26 => ⟨S16384, .i32⟩
  | 27 => ⟨S16384, .i1⟩
  | 28 => ⟨S_, .i32⟩
  | 29 => ⟨S16384, .i32⟩
  | 30 => ⟨S16384, .i32⟩
  | 31 => ⟨S16384, .i32⟩
  | 32 => ⟨S16384x1, .i32⟩
  | 33 => ⟨S16x1024x256, .f32⟩
  | 34 => ⟨S16x1024x256, .f32⟩
  | 35 => ⟨S1x256x256, .f32⟩
  | 36 => ⟨S256x256, .f32⟩
  | 37 => ⟨S16x1024x256, .f32⟩
  | 38 => ⟨S1x256, .f32⟩
  | 39 => ⟨S256, .f32⟩
  | 40 => ⟨S1x1x256, .f32⟩
  | 41 => ⟨S16x1024x256, .f32⟩
  | 42 => ⟨S16x1024x256, .f32⟩
  | 43 => ⟨S_, .f32⟩
  | 44 => ⟨S16x1024x256, .f32⟩
  | 45 => ⟨S16x1024x256, .f32⟩
  | 46 => ⟨S1x256x256, .f32⟩
  | 47 => ⟨S256x256, .f32⟩
  | 48 => ⟨S16x1024x256, .f32⟩
  | 49 => ⟨S1x256, .f32⟩
  | 50 => ⟨S256, .f32⟩
  | 51 => ⟨S1x1x256, .f32⟩
  | 52 => ⟨S16x1024x256, .f32⟩
  | 53 => ⟨S16x1024x256, .f32⟩
  | 54 => ⟨S1x256, .f32⟩
  | 55 => ⟨S256, .f32⟩
  | 56 => ⟨S1x256, .f32⟩
  | 57 => ⟨S256, .f32⟩
  | 58 => ⟨S_, .f32⟩
  | 59 => ⟨S256, .f32⟩
  | 60 => ⟨S256, .f32⟩
  | 61 => ⟨S256, .f32⟩
  | 62 => ⟨S256, .f32⟩
  | 63 => ⟨S1x1x256, .f32⟩
  | 64 => ⟨S16x1024x256, .f32⟩
  | 65 => ⟨S16x1024x256, .f32⟩
  | 66 => ⟨S1x256, .f32⟩
  | 67 => ⟨S256, .f32⟩
  | 68 => ⟨S1x256, .f32⟩
  | 69 => ⟨S256, .f32⟩
  | 70 => ⟨S256, .f32⟩
  | 71 => ⟨S256, .f32⟩
  | 72 => ⟨S1x1x256, .f32⟩
  | 73 => ⟨S16x1024x256, .f32⟩
  | 74 => ⟨S16x1024x256, .f32⟩
  | 75 => ⟨S_, .f32⟩
  | 76 => ⟨S16x1024x256, .f32⟩
  | 77 => ⟨S16x1024x256, .f32⟩
  | 78 => ⟨S_, .f32⟩
  | 79 => ⟨S16x1024x256, .f32⟩
  | 80 => ⟨S_, .i32⟩
  | 81 => ⟨S16384, .i32⟩
  | 82 => ⟨S16384, .i1⟩
  | 83 => ⟨S_, .i32⟩
  | 84 => ⟨S16384, .i32⟩
  | 85 => ⟨S16384, .i32⟩
  | 86 => ⟨S16384, .i32⟩
  | 87 => ⟨S16384x1, .i32⟩
  | 88 => ⟨S16x16384x256, .f32⟩
  | 89 => ⟨S_, .i32⟩
  | 90 => ⟨S16384, .i32⟩
  | 91 => ⟨S16384, .i1⟩
  | 92 => ⟨S_, .i32⟩
  | 93 => ⟨S16384, .i32⟩
  | 94 => ⟨S16384, .i32⟩
  | 95 => ⟨S16384, .i32⟩
  | 96 => ⟨S16384x1, .i32⟩
  | 97 => ⟨S16x1024x256, .f32⟩
  | 98 => ⟨S16x1024x256, .f32⟩
  | 99 => ⟨S1x256x256, .f32⟩
  | 100 => ⟨S256x256, .f32⟩
  | 101 => ⟨S16x1024x256, .f32⟩
  | 102 => ⟨S1x256, .f32⟩
  | 103 => ⟨S256, .f32⟩
  | 104 => ⟨S1x1x256, .f32⟩
  | 105 => ⟨S16x1024x256, .f32⟩
  | 106 => ⟨S16x1024x256, .f32⟩
  | 107 => ⟨S_, .f32⟩
  | 108 => ⟨S16x1024x256, .f32⟩
  | 109 => ⟨S16x1024x256, .f32⟩
  | 110 => ⟨S1x256x256, .f32⟩
  | 111 => ⟨S256x256, .f32⟩
  | 112 => ⟨S16x1024x256, .f32⟩
  | 113 => ⟨S1x256, .f32⟩
  | 114 => ⟨S256, .f32⟩
  | 115 => ⟨S1x1x256, .f32⟩
  | 116 => ⟨S16x1024x256, .f32⟩
  | 117 => ⟨S16x1024x256, .f32⟩
  | 118 => ⟨S1x256, .f32⟩
  | 119 => ⟨S256, .f32⟩
  | 120 => ⟨S1x256, .f32⟩
  | 121 => ⟨S256, .f32⟩
  | 122 => ⟨S_, .f32⟩
  | 123 => ⟨S256, .f32⟩
  | 124 => ⟨S256, .f32⟩
  | 125 => ⟨S256, .f32⟩
  | 126 => ⟨S256, .f32⟩
  | 127 => ⟨S1x1x256, .f32⟩
  | _ => ⟨S16x1024x256, .f32⟩

abbrev hbmTy0_1 (i : Nat) : BufTy := match i % 128 with
  | 0 => ⟨S16x1024x256, .f32⟩
  | 1 => ⟨S16x1024x256, .f32⟩
  | 2 => ⟨S1x256, .f32⟩
  | 3 => ⟨S256, .f32⟩
  | 4 => ⟨S1x256, .f32⟩
  | 5 => ⟨S256, .f32⟩
  | 6 => ⟨S256, .f32⟩
  | 7 => ⟨S256, .f32⟩
  | 8 => ⟨S1x1x256, .f32⟩
  | 9 => ⟨S16x1024x256, .f32⟩
  | 10 => ⟨S16x1024x256, .f32⟩
  | 11 => ⟨S_, .f32⟩
  | 12 => ⟨S16x1024x256, .f32⟩
  | 13 => ⟨S16x1024x256, .f32⟩
  | 14 => ⟨S_, .f32⟩
  | 15 => ⟨S16x1024x256, .f32⟩
  | 16 => ⟨S_, .i32⟩
  | 17 => ⟨S16384, .i32⟩
  | 18 => ⟨S16384, .i1⟩
  | 19 => ⟨S_, .i32⟩
  | 20 => ⟨S16384, .i32⟩
  | 21 => ⟨S16384, .i32⟩
  | 22 => ⟨S16384, .i32⟩
  | 23 => ⟨S16384x1, .i32⟩
  | 24 => ⟨S16x16384x256, .f32⟩
  | 25 => ⟨S_, .i32⟩
  | 26 => ⟨S16384, .i32⟩
  | 27 => ⟨S16384, .i1⟩
  | 28 => ⟨S_, .i32⟩
  | 29 => ⟨S16384, .i32⟩
  | 30 => ⟨S16384, .i32⟩
  | 31 => ⟨S16384, .i32⟩
  | 32 => ⟨S16384x1, .i32⟩
  | 33 => ⟨S16x1024x256, .f32⟩
  | 34 => ⟨S16x1024x256, .f32⟩
  | 35 => ⟨S1x256x256, .f32⟩
  | 36 => ⟨S256x256, .f32⟩
  | 37 => ⟨S16x1024x256, .f32⟩
  | 38 => ⟨S1x256, .f32⟩
  | 39 => ⟨S256, .f32⟩
  | 40 => ⟨S1x1x256, .f32⟩
  | 41 => ⟨S16x1024x256, .f32⟩
  | 42 => ⟨S16x1024x256, .f32⟩
  | 43 => ⟨S_, .f32⟩
  | 44 => ⟨S16x1024x256, .f32⟩
  | 45 => ⟨S16x1024x256, .f32⟩
  | 46 => ⟨S1x256x256, .f32⟩
  | 47 => ⟨S256x256, .f32⟩
  | 48 => ⟨S16x1024x256, .f32⟩
  | 49 => ⟨S1x256, .f32⟩
  | 50 => ⟨S256, .f32⟩
  | 51 => ⟨S1x1x256, .f32⟩
  | 52 => ⟨S16x1024x256, .f32⟩
  | 53 => ⟨S16x1024x256, .f32⟩
  | 54 => ⟨S1x256, .f32⟩
  | 55 => ⟨S256, .f32⟩
  | 56 => ⟨S1x256, .f32⟩
  | 57 => ⟨S256, .f32⟩
  | 58 => ⟨S_, .f32⟩
  | 59 => ⟨S256, .f32⟩
  | 60 => ⟨S256, .f32⟩
  | 61 => ⟨S256, .f32⟩
  | 62 => ⟨S256, .f32⟩
  | 63 => ⟨S1x1x256, .f32⟩
  | 64 => ⟨S16x1024x256, .f32⟩
  | 65 => ⟨S16x1024x256, .f32⟩
  | 66 => ⟨S1x256, .f32⟩
  | 67 => ⟨S256, .f32⟩
  | 68 => ⟨S1x256, .f32⟩
  | 69 => ⟨S256, .f32⟩
  | 70 => ⟨S256, .f32⟩
  | 71 => ⟨S256, .f32⟩
  | 72 => ⟨S1x1x256, .f32⟩
  | 73 => ⟨S16x1024x256, .f32⟩
  | 74 => ⟨S16x1024x256, .f32⟩
  | 75 => ⟨S_, .f32⟩
  | 76 => ⟨S16x1024x256, .f32⟩
  | 77 => ⟨S16x1024x256, .f32⟩
  | 78 => ⟨S1x16x1024x256, .f32⟩
  | 79 => ⟨S1x16x1024x256, .f32⟩
  | 80 => ⟨S1x16x1024x256, .f32⟩
  | 81 => ⟨S3x16x1024x256, .f32⟩
  | _ => ⟨S16x1024x256, .f32⟩

abbrev hbmTy (i : Nat) : BufTy := match i / 128 with
  | 0 => hbmTy0_0 i
  | 1 => hbmTy0_1 i
  | _ => ⟨S16x1024x256, .f32⟩

abbrev bufTy : (tb : Table) → Fin (tcTables nBuf tb) → BufTy
  | .hbm, ⟨i, _⟩ => hbmTy i
  | _, _ => ⟨S16x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_cst : Ref sig .tc := ⟨.hbm, 43, rfl⟩
abbrev main_call0_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_3 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_call1_cst : Ref sig .tc := ⟨.hbm, 75, rfl⟩
abbrev main_call1_v0 : Ref sig .tc := ⟨.hbm, 76, rfl⟩
abbrev main_v57 : Ref sig .tc := ⟨.hbm, 77, rfl⟩
abbrev main_cst_4 : Ref sig .tc := ⟨.hbm, 78, rfl⟩
abbrev main_v58 : Ref sig .tc := ⟨.hbm, 79, rfl⟩
abbrev main_c_5 : Ref sig .tc := ⟨.hbm, 80, rfl⟩
abbrev main_v59 : Ref sig .tc := ⟨.hbm, 81, rfl⟩
abbrev main_v60 : Ref sig .tc := ⟨.hbm, 82, rfl⟩
abbrev main_c_6 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_7 : Ref sig .tc := ⟨.hbm, 89, rfl⟩
abbrev main_v66 : Ref sig .tc := ⟨.hbm, 90, rfl⟩
abbrev main_v67 : Ref sig .tc := ⟨.hbm, 91, rfl⟩
abbrev main_c_8 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_call2_cst : Ref sig .tc := ⟨.hbm, 107, rfl⟩
abbrev main_call2_v0 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_9 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_call3_cst : Ref sig .tc := ⟨.hbm, 139, rfl⟩
abbrev main_call3_v0 : Ref sig .tc := ⟨.hbm, 140, rfl⟩
abbrev main_v111 : Ref sig .tc := ⟨.hbm, 141, rfl⟩
abbrev main_cst_10 : Ref sig .tc := ⟨.hbm, 142, rfl⟩
abbrev main_v112 : Ref sig .tc := ⟨.hbm, 143, rfl⟩
abbrev main_c_11 : Ref sig .tc := ⟨.hbm, 144, rfl⟩
abbrev main_v113 : Ref sig .tc := ⟨.hbm, 145, rfl⟩
abbrev main_v114 : Ref sig .tc := ⟨.hbm, 146, rfl⟩
abbrev main_c_12 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_c_13 : Ref sig .tc := ⟨.hbm, 153, rfl⟩
abbrev main_v120 : Ref sig .tc := ⟨.hbm, 154, rfl⟩
abbrev main_v121 : Ref sig .tc := ⟨.hbm, 155, rfl⟩
abbrev main_c_14 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_call4_cst : Ref sig .tc := ⟨.hbm, 171, rfl⟩
abbrev main_call4_v0 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_cst_15 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_call5_cst : Ref sig .tc := ⟨.hbm, 203, rfl⟩
abbrev main_call5_v0 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩

abbrev nD : Nat := 1
abbrev τ : Topo := Topo.v7x

variable {F : FTy → Type} [FloatOps F]

class Facts₀ : Prop where
  slices_S2x16384_S1x16384_0_0 : S2x16384.Slices ![0, 0] S1x16384
  shapeCasts_S1x16384_S16384 : S1x16384.ShapeCasts S16384
  slices_S2x16384_S1x16384_1_0 : S2x16384.Slices ![1, 0] S1x16384
  bcast_S_S16x1024x256 : S_.BroadcastsInDim S16x1024x256 (![] : Fin 0 → Fin S16x1024x256.rank)
  bcast_S_S16384 : S_.BroadcastsInDim S16384 (![] : Fin 0 → Fin S16384.rank)
  bcast_S16384_S16384x1_0 : S16384.BroadcastsInDim S16384x1 (![0] : Fin 1 → Fin S16384x1.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  bcast_S256_S1x1x256_2 : S256.BroadcastsInDim S1x1x256 (![2] : Fin 1 → Fin S1x1x256.rank)
  bcast_S1x1x256_S16x1024x256_0_1_2 : S1x1x256.BroadcastsInDim S16x1024x256 (![0, 1, 2] : Fin 3 → Fin S16x1024x256.rank)
  bcast_S_S256 : S_.BroadcastsInDim S256 (![] : Fin 0 → Fin S256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S16x1024x256_S1x16x1024x256_1_2_3 : S16x1024x256.BroadcastsInDim S1x16x1024x256 (![1, 2, 3] : Fin 3 → Fin S1x16x1024x256.rank)
  concatenates_S1x16x1024x256_S1x16x1024x256_S1x16x1024x256_S3x16x1024x256_d0 : Shape.Concatenates [S1x16x1024x256, S1x16x1024x256, S1x16x1024x256] S3x16x1024x256 0
  gather_S16x1024x256_S16384x1_S16x16384x256_02_1_n_n_1_1_161256_wf : GatherDims.WF S16x1024x256 S16384x1 S16x16384x256 [0, 2] [1] [] [1] [] 1 ![16, 1, 256]
  scatter_S16x1024x256_S16384x1_S16x16384x256_02_1_1_1_wf : ScatterDims.WF S16x1024x256 S16384x1 S16x16384x256 [0, 2] [1] [1] 1
  dot_S16x1024x256_S256x256_S16x1024x256_2_0_01_1_n_n_wf : DotDims.WF S16x1024x256 S256x256 S16x1024x256 [2] [0] [0, 1] [1] [] []

variable [Facts₀]

def gather_S16x1024x256_S16384x1_S16x16384x256_02_1_n_n_1_1_161256 : GatherDims S16x1024x256 S16384x1 S16x16384x256 where
  offsetDims := [0, 2]
  collapsedSliceDims := [1]
  operandBatchingDims := []
  startIndicesBatchingDims := []
  startIndexMap := [1]
  indexVectorDim := 1
  sliceSizes := ![16, 1, 256]
  wf := gather_S16x1024x256_S16384x1_S16x16384x256_02_1_n_n_1_1_161256_wf
def scatter_S16x1024x256_S16384x1_S16x16384x256_02_1_1_1 : ScatterDims S16x1024x256 S16384x1 S16x16384x256 where
  updateWindowDims := [0, 2]
  insertedWindowDims := [1]
  scatterDimsToOperandDims := [1]
  indexVectorDim := 1
  wf := scatter_S16x1024x256_S16384x1_S16x16384x256_02_1_1_1_wf
def dot_S16x1024x256_S256x256_S16x1024x256_2_0_01_1_n_n : DotDims S16x1024x256 S256x256 S16x1024x256 where
  lhsContracting := [2]
  rhsContracting := [0]
  lhsNonContracting := [0, 1]
  rhsNonContracting := [1]
  lhsBatch := []
  rhsBatch := []
  wf := dot_S16x1024x256_S256x256_S16x1024x256_2_0_01_1_n_n_wf

class Facts : Prop extends Facts₀ where

variable [Facts]
-- ==== Proof.Spec.lean ====
/-
  The mathematics of the certificate, with no program in sight.

  A graph-isomorphism layer on one batch element: a node's features are replaced by an MLP of (its own
  features + the sum of the features of the sources of its incoming edges), followed by an affine
  normalisation by fixed statistics and a ReLU. Three such layers are chained and all three outputs returned.

  The edge list is two rows of 32-bit words. A negative word counts from the end (`wrap`). The edge's source
  row is READ (a start index that is clamped into the node range, `node`), its destination row is WRITTEN TO
  (an edge whose destination is outside the node range contributes nothing).

  The aggregation step is a parameter `M` of the layer, so that its two presentations share everything else:
  `mix` sums over the edges that arrive at a node; `mixA` multiplies by a node-by-node matrix. With the
  matrix `adj` (edge multiplicities plus the identity) the two agree when every source is a node
  (AggLaw.lean).
-/
import Idealize.ShloMosaic.PureOps.Ideal
import Idealize.ShloMosaic.Lib.ValueIdx

noncomputable section

namespace Cert.Gin

open Idealize.ShloMosaic Idealize.ShloMosaic.ValueIdx

/-- A negative index counts from the end of the 1024 nodes. -/
def wrap (w : BitVec 32) : BitVec 32 :=
  Scalar.select (IntOp.cmpi .slt w 0#32) (IntOp.addi w 1024#32) w

/-- The node a read at start index `w` lands on: `w` as a signed integer, clamped into `[0, 1023]`. -/
def node (w : BitVec 32) : Fin 1024 := ⟨min w.toInt.toNat 1023, by omega⟩

/-- The source and destination rows of the edge list, wrapped. -/
def srcOf (ei : (⟨2, ![2, 16384]⟩ : Shape).Idx → BitVec 32) (e : Fin 16384) : BitVec 32 := wrap (ei (ix2 0 e))
def dstOf (ei : (⟨2, ![2, 16384]⟩ : Shape).Idx → BitVec 32) (e : Fin 16384) : BitVec 32 := wrap (ei (ix2 1 e))

/-- Every source is a node: the hypothesis under which a clamped read and a dropped write agree. -/
def SrcInRange (src : Fin 16384 → BitVec 32) : Prop := ∀ e, 0 ≤ (src e).toInt ∧ (src e).toInt < 1024

abbrev Feat := Fin 1024 → Fin 256 → EReal

/-- Own features plus the features of the sources of the edges that arrive at node `n`. -/
def mix (src dst : Fin 16384 → BitVec 32) (x : Feat) : Feat := fun n f =>
  x n f + ∑ e ∈ Finset.univ.filter (fun e : Fin 16384 => (dst e).toInt = (n.val : ℤ)), x (node (src e)) f

/-- The same step as a product with a node-by-node matrix. -/
def mixA (A : Fin 1024 → Fin 1024 → EReal) (x : Feat) : Feat := fun n f => ∑ j : Fin 1024, A n j * x j f

/-- Edge multiplicities plus the identity: entry `(n, j)` counts the edges from `j` to `n`, and one more on the diagonal. -/
def adj (src dst : Fin 16384 → BitVec 32) (n j : Fin 1024) : EReal :=
  (∑ _e ∈ Finset.univ.filter (fun e : Fin 16384 => (dst e).toInt = (n.val : ℤ) ∧ (src e).toInt = (j.val : ℤ)), (1 : EReal))
    + (if n = j then 1 else 0)

/-- A dense layer: `y · W + b`. -/
def dense (W : Fin 256 → Fin 256 → EReal) (b : Fin 256 → EReal) (y : Feat) : Feat := fun n g =>
  (∑ k : Fin 256, y n k * W k g) + b g

def relu (y : Feat) : Feat := fun n g => max (y n g) 0

/-- The normalisation's scale `γ · rsqrt(v + ε)`, `ε` the binary32 word both programs carry. -/
def scaleOf (γ v : Fin 256 → EReal) (g : Fin 256) : EReal := γ g * Ideal.rsqrt (v g + Ideal.ofBits .f32 0x3727C5AC#32)

/-- Normalisation by fixed statistics, then ReLU: `max (y · s + (β − μ · s)) 0`. -/
def normRelu (γ β μ v : Fin 256 → EReal) (y : Feat) : Feat := fun n g =>
  max (y n g * scaleOf γ v g + (β g - μ g * scaleOf γ v g)) 0

/-- One layer over an aggregation step `M`. -/
def layerOf (M : Feat → Feat) (W1 : Fin 256 → Fin 256 → EReal) (b1 : Fin 256 → EReal) (W2 : Fin 256 → Fin 256 → EReal)
    (b2 γ β μ v : Fin 256 → EReal) (x : Feat) : Feat :=
  normRelu γ β μ v (dense W2 b2 (relu (dense W1 b1 (M x))))

/-- The three chained layers' outputs, for one batch element `h`, over an aggregation step `M`. -/
def stackOf (M : Feat → Feat) (W1 : Fin 3 → Fin 256 → Fin 256 → EReal) (b1 : Fin 3 → Fin 256 → EReal)
    (W2 : Fin 3 → Fin 256 → Fin 256 → EReal) (b2 γ β μ v : Fin 3 → Fin 256 → EReal) (h : Feat) : Fin 3 → Feat :=
  let x1 := layerOf M (W1 0) (b1 0) (W2 0) (b2 0) (γ 0) (β 0) (μ 0) (v 0) h
  let x2 := layerOf M (W1 1) (b1 1) (W2 1) (b2 1) (γ 1) (β 1) (μ 1) (v 1) x1
  let x3 := layerOf M (W1 2) (b1 2) (W2 2) (b2 2) (γ 2) (β 2) (μ 2) (v 2) x2
  fun l => match l with
    | 0 => x1
    | 1 => x2
    | 2 => x3

abbrev AH := (⟨3, ![16, 1024, 256]⟩ : Shape).Idx → EReal
abbrev AE := (⟨2, ![2, 16384]⟩ : Shape).Idx → BitVec 32
abbrev AW := (⟨3, ![3, 256, 256]⟩ : Shape).Idx → EReal
abbrev AV := (⟨2, ![3, 256]⟩ : Shape).Idx → EReal

/-- The stack over `M`, from the ten argument arrays, as the result array `[3, 16, 1024, 256]`. -/
def GarrOf (M : AE → Feat → Feat) (a0 : AH) (a1 : AE) (a2 : AW) (a3 : AV) (a4 : AW) (a5 a6 a7 a8 a9 : AV) :
    (⟨4, ![3, 16, 1024, 256]⟩ : Shape).Idx → EReal := fun i =>
  stackOf (M a1) (fun l k g => a2 (ix3 l k g)) (fun l g => a3 (ix2 l g)) (fun l k g => a4 (ix3 l k g))
    (fun l g => a5 (ix2 l g)) (fun l g => a6 (ix2 l g)) (fun l g => a7 (ix2 l g)) (fun l g => a8 (ix2 l g))
    (fun l g => a9 (ix2 l g)) (fun n f => a0 (ix3 (i 1) n f)) (i 0) (i 2) (i 3)

/-- The result array, aggregation as the sum over arriving edges. -/
def Garr : AH → AE → AW → AV → AW → AV → AV → AV → AV → AV → (⟨4, ![3, 16, 1024, 256]⟩ : Shape).Idx → EReal :=
  GarrOf (fun a1 => mix (srcOf a1) (dstOf a1))

/-- The result array, aggregation as the product with the adjacency matrix. -/
def GarrA : AH → AE → AW → AV → AW → AV → AV → AV → AV → AV → (⟨4, ![3, 16, 1024, 256]⟩ : Shape).Idx → EReal :=
  GarrOf (fun a1 => mixA (adj (srcOf a1) (dstOf a1)))

end Cert.Gin

end
-- ==== Proof.KLayer.lean ====
/-
  The kernel body's arithmetic. Its three stores hold, at row n and column g of the stored [1, 1, 1024, 256] value,
  the first, second and third layer's output for the loaded batch element: each layer is a product with the loaded
  adjacency matrix, two dense layers with a ReLU between them, and the normalisation with its ReLU. The changes
  of float format in the body are the identity on extended reals, and a matrix product into a zero accumulator
  is the plain sum of products.
-/
import proofs.«402477_j13365938225809_3_alg».proof.Proof.Gen.KernelIdeal.Skeleton
import proofs.«402477_j13365938225809_3_alg».proof.Proof.Spec
import Idealize.ShloMosaic.PureOps.Ideal.Laws
import Idealize.ShloMosaic.Lib.Pipeline.Value
import Idealize.ShloMosaic.Lib.ValueLayout

noncomputable section

namespace Cert.Gin.KLayer

open Idealize.ShloMosaic Idealize.ShloMosaic.ValueIdx Cert.KernelIdeal Cert.KernelIdeal.Gen Cert.Gin

/-! ## The two matrix products read at an entry -/

private theorem lhsA_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
private theorem lhsA_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
private theorem rhsA_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
private theorem rhsA_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The product with the adjacency matrix into a zero accumulator, at row n and column g. -/
private theorem mmA_apply (A : FVec Ideal S1024x1024 .bf16) (x : FVec Ideal S1024x256 .bf16) (n : Fin 1024) (g : Fin 256) :
    matmul dot_S1024x1024_S1024x256_S1024x256_1_0_0_1_n_n none A x (constant (F := Ideal) S1024x256 .f32 0x00000000#32) (ix2 n g)
      = ∑ j : Fin 1024, A (ix2 n j) * x (ix2 j g) := by
  simp only [matmul]
  rw [Ideal.matmul_constant_zero_apply, ← Equiv.sum_comp (ValueIdx.contrEquiv1 dot_S1024x1024_S1024x256_S1024x256_1_0_0_1_n_n 1024 rfl rfl).symm]
  refine Finset.sum_congr rfl fun k _ => ?_
  have hk := ValueIdx.contrEquiv1_symm_val dot_S1024x1024_S1024x256_S1024x256_1_0_0_1_n_n 1024 rfl rfl k
  have el : dot_S1024x1024_S1024x256_S1024x256_1_0_0_1_n_n.lhsIdx (ix2 n g) ((ValueIdx.contrEquiv1 dot_S1024x1024_S1024x256_S1024x256_1_0_0_1_n_n 1024 rfl rfl).symm k) = ix2 n k := funext fun a => Fin.ext (by
    match a with
    | ⟨0, _⟩ => exact lhsA_0 _ _
    | ⟨1, _⟩ => exact (lhsA_1 _ _).trans hk)
  have er : dot_S1024x1024_S1024x256_S1024x256_1_0_0_1_n_n.rhsIdx (ix2 n g) ((ValueIdx.contrEquiv1 dot_S1024x1024_S1024x256_S1024x256_1_0_0_1_n_n 1024 rfl rfl).symm k) = ix2 k g := funext fun a => Fin.ext (by
    match a with
    | ⟨0, _⟩ => exact (rhsA_0 _ _).trans hk
    | ⟨1, _⟩ => exact rhsA_1 _ _)
  rw [el, er]

private theorem lhsW_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
private theorem lhsW_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
private theorem rhsW_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
private theorem rhsW_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The product with a weight matrix into a zero accumulator, at row n and column g. -/
private theorem mmW_apply (A : FVec Ideal S1024x256 .bf16) (x : FVec Ideal S256x256 .bf16) (n : Fin 1024) (g : Fin 256) :
    matmul dot_S1024x256_S256x256_S1024x256_1_0_0_1_n_n none A x (constant (F := Ideal) S1024x256 .f32 0x00000000#32) (ix2 n g)
      = ∑ j : Fin 256, A (ix2 n j) * x (ix2 j g) := by
  simp only [matmul]
  rw [Ideal.matmul_constant_zero_apply, ← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 n g) ((ValueIdx.contrEquiv1 dot_S1024x256_S256x256_S1024x256_1_0_0_1_n_n 256 rfl rfl).symm k) = ix2 n k := funext fun a => Fin.ext (by
    match a with
    | ⟨0, _⟩ => exact lhsW_0 _ _
    | ⟨1, _⟩ => exact (lhsW_1 _ _).trans hk)
  have er : dot_S1024x256_S256x256_S1024x256_1_0_0_1_n_n.rhsIdx (ix2 n g) ((ValueIdx.contrEquiv1 dot_S1024x256_S256x256_S1024x256_1_0_0_1_n_n 256 rfl rfl).symm k) = ix2 k g := funext fun a => Fin.ext (by
    match a with
    | ⟨0, _⟩ => exact (rhsW_0 _ _).trans hk
    | ⟨1, _⟩ => exact rhsW_1 _ _)
  rw [el, er]

/-! ## Layout operations and constants read at an entry -/

/-- A matrix stored with two leading unit axes reads, at (0, 0, n, g), its own entry (n, g). -/
private theorem cast4_apply (v : FVec Ideal S1024x256 .f32) (n : Fin 1024) (g : Fin 256) :
    shapeCast S1x1x1024x256 v shapeCasts_S1024x256_S1x1x1024x256 (ix4 0 0 n g) = v (ix2 n g) :=
  shapeCast_apply v shapeCasts_S1024x256_S1x1x1024x256 _ _ (by
    rw [Shape.rowMajor_val_four, Shape.rowMajor_val_two]
    show n.val * 256 + g.val = ((0 * 1 + 0) * 1024 + n.val) * 256 + g.val
    omega)

/-- A loaded row vector, as one row, repeated over the 1024 rows: entry (n, g) is its g-th word. -/
private theorem row_apply (b : Vec Ideal S1x1x256 .f32) (n : Fin 1024) (g : Fin 256) :
    broadcastTo S1024x256 (shapeCast S1x256 b shapeCasts_S1x1x256_S1x256 : FVec Ideal S1x256 .f32) broadcasts_S1x256_S1024x256 (ix2 n g) = b (ix3 0 0 g) := by
  rw [broadcastTo_1b_ab_apply, shapeCast_1ab_ab_apply]

/-- The reciprocal square root of an array is taken entry by entry. -/
private theorem rsqrt_apply {s : Shape} {φ : FTy} (x : FVec Ideal s φ) (i : s.Idx) : rsqrt x i = Ideal.rsqrt (x i) := rfl

/-- First layer before its normalisation: the product with the adjacency matrix, a dense layer, a ReLU, a dense layer. -/
private theorem pay3_apply (a : Vec Ideal S1024x1024 .bf16) (xb : Vec Ideal S1x1024x256 .f32) (w1 w2 : Vec Ideal S1x256x256 .bf16)
    (b1 b2 : Vec Ideal S1x1x256 .f32) (n : Fin 1024) (g : Fin 256) :
    k0_pay3 (F := Ideal) a xb w1 b1 w2 b2 (ix2 n g)
      = dense (fun k g => w2 (ix3 0 k g)) (fun g => b2 (ix3 0 0 g)) (relu (dense (fun k g => w1 (ix3 0 k g)) (fun g => b1 (ix3 0 0 g))
          (mixA (fun n j => a (ix2 n j)) (fun n f => xb (ix3 0 n f))))) n g := by
  unfold k0_pay3 k0_pay2
  simp only [addf_apply, mmW_apply, mmA_apply, row_apply, truncf_apply, maximumf_apply, broadcast_apply, shapeCast_1ab_ab_apply,
    shapeCast_self, Ideal.ofBits_def, Ideal.ofBits_zero_f32, dense, relu, mixA]

/-- The normalisation and its ReLU, applied to any matrix `y`. -/
private theorem pay6_apply (y : FVec Ideal S1024x256 .f32) (ga be mu va : Vec Ideal S1x1x256 .f32) (n : Fin 1024) (g : Fin 256) :
    k0_pay6 (F := Ideal) y (k0_pay4 ga) (k0_pay5 be) mu va (ix2 n g)
      = normRelu (fun g => ga (ix3 0 0 g)) (fun g => be (ix3 0 0 g)) (fun g => mu (ix3 0 0 g)) (fun g => va (ix3 0 0 g))
          (fun n g => y (ix2 n g)) n g := by
  unfold k0_pay6 k0_pay4 k0_pay5
  simp only [addf_apply, mulf_apply, subf_apply, maximumf_apply, rsqrt_apply, broadcast_apply, broadcastTo_1b_ab_apply,
    shapeCast_1ab_ab_apply, Ideal.ofBits_def, Ideal.ofBits_zero_f32, normRelu, scaleOf]

/-- Second layer, up to its first ReLU: the product with the adjacency matrix, a dense layer, a ReLU. -/
private theorem pay10_apply (a : Vec Ideal S1024x1024 .bf16) (y : FVec Ideal S1024x256 .f32) (v25 v27 : FVec Ideal S1x256 .f32)
    (v28 v30 : Vec Ideal S1x1x256 .f32) (w1 : Vec Ideal S1x256x256 .bf16) (b1 : Vec Ideal S1x1x256 .f32) (n : Fin 1024) (g : Fin 256) :
    k0_pay10 (F := Ideal) (k0_pay2 a) y v25 v27 v28 v30 w1 b1 (ix2 n g)
      = relu (dense (fun k g => w1 (ix3 0 k g)) (fun g => b1 (ix3 0 0 g))
          (mixA (fun n j => a (ix2 n j)) (fun n f => k0_pay6 (F := Ideal) y v25 v27 v28 v30 (ix2 n f)))) n g := by
  unfold k0_pay10 k0_pay2
  simp only [addf_apply, mmW_apply, mmA_apply, row_apply, truncf_apply, maximumf_apply, broadcast_apply, shapeCast_1ab_ab_apply,
    shapeCast_self, Ideal.ofBits_def, Ideal.ofBits_zero_f32, dense, relu, mixA]

/-- Second layer, from its second dense layer on. -/
private theorem pay11_apply (w2 : Vec Ideal S1x256x256 .bf16) (b2 : Vec Ideal S1x1x256 .f32) (y : FVec Ideal S1024x256 .bf16)
    (ga be mu va : Vec Ideal S1x1x256 .f32) (n : Fin 1024) (g : Fin 256) :
    k0_pay11 (F := Ideal) (k0_pay8 w2) (k0_pay9 b2) y ga be mu va (ix2 n g)
      = normRelu (fun g => ga (ix3 0 0 g)) (fun g => be (ix3 0 0 g)) (fun g => mu (ix3 0 0 g)) (fun g => va (ix3 0 0 g))
          (dense (fun k g => w2 (ix3 0 k g)) (fun g => b2 (ix3 0 0 g)) (fun n k => y (ix2 n k))) n g := by
  unfold k0_pay11 k0_pay8 k0_pay9
  simp only [addf_apply, mulf_apply, subf_apply, maximumf_apply, rsqrt_apply, broadcast_apply, broadcastTo_1b_ab_apply,
    mmW_apply, row_apply, shapeCast_1ab_ab_apply, Ideal.ofBits_def, Ideal.ofBits_zero_f32, normRelu, scaleOf, dense]

/-- Third layer's product with the adjacency matrix. -/
private theorem pay15_apply (a : Vec Ideal S1024x1024 .bf16) (v60 : FVec Ideal S256x256 .bf16) (v62 : FVec Ideal S1x256 .f32)
    (v63 : FVec Ideal S1024x256 .bf16) (v67 v69 v71 v73 : Vec Ideal S1x1x256 .f32) (n : Fin 1024) (g : Fin 256) :
    k0_pay15 (F := Ideal) (k0_pay2 a) v60 v62 v63 v67 v69 v71 v73 (ix2 n g)
      = mixA (fun n j => a (ix2 n j)) (fun n f => k0_pay11 (F := Ideal) v60 v62 v63 v67 v69 v71 v73 (ix2 n f)) n g := by
  unfold k0_pay15 k0_pay2
  simp only [mmA_apply, truncf_apply, shapeCast_self, mixA]

/-- Third layer after that product. -/
private theorem pay16_apply (w1 : Vec Ideal S1x256x256 .bf16) (b1 : Vec Ideal S1x1x256 .f32) (y : FVec Ideal S1024x256 .bf16)
    (w2 : Vec Ideal S1x256x256 .bf16) (b2 ga be mu va : Vec Ideal S1x1x256 .f32) (n : Fin 1024) (g : Fin 256) :
    k0_pay16 (F := Ideal) (k0_pay13 w1) (k0_pay14 b1) y w2 b2 ga be mu va (ix2 n g)
      = normRelu (fun g => ga (ix3 0 0 g)) (fun g => be (ix3 0 0 g)) (fun g => mu (ix3 0 0 g)) (fun g => va (ix3 0 0 g))
          (dense (fun k g => w2 (ix3 0 k g)) (fun g => b2 (ix3 0 0 g)) (relu (dense (fun k g => w1 (ix3 0 k g)) (fun g => b1 (ix3 0 0 g))
            (fun n k => y (ix2 n k))))) n g := by
  unfold k0_pay16 k0_pay13 k0_pay14
  simp only [addf_apply, mulf_apply, subf_apply, maximumf_apply, rsqrt_apply, truncf_apply, broadcast_apply, broadcastTo_1b_ab_apply,
    mmW_apply, row_apply, shapeCast_1ab_ab_apply, Ideal.ofBits_def, Ideal.ofBits_zero_f32, normRelu, scaleOf, dense, relu]

variable (a : Vec Ideal S1024x1024 .bf16) (xb : Vec Ideal S1x1024x256 .f32)
    (w1_0 w2_0 w1_1 w2_1 w1_2 w2_2 : Vec Ideal S1x256x256 .bf16)
    (b1_0 b2_0 ga_0 be_0 mu_0 va_0 b1_1 b2_1 ga_1 be_1 mu_1 va_1 b1_2 b2_2 ga_2 be_2 mu_2 va_2 : Vec Ideal S1x1x256 .f32)

/-- The loaded batch element and adjacency matrix as functions of coordinates. -/
abbrev hfeat (xb : Vec Ideal S1x1024x256 .f32) : Feat := fun n f => xb (ix3 0 n f)
abbrev amat (a : Vec Ideal S1024x1024 .bf16) : Fin 1024 → Fin 1024 → EReal := fun n j => a (ix2 n j)

/-- First store: the first layer's output. -/
theorem piece0 (n : Fin 1024) (g : Fin 256) :
    k0_pay7 (k0_pay3 a xb w1_0 b1_0 w2_0 b2_0) (k0_pay4 ga_0) (k0_pay5 be_0) mu_0 va_0 (ix4 0 0 n g)
      = layerOf (mixA (amat a)) (fun k g => w1_0 (ix3 0 k g)) (fun g => b1_0 (ix3 0 0 g)) (fun k g => w2_0 (ix3 0 k g)) (fun g => b2_0 (ix3 0 0 g)) (fun g => ga_0 (ix3 0 0 g)) (fun g => be_0 (ix3 0 0 g)) (fun g => mu_0 (ix3 0 0 g)) (fun g => va_0 (ix3 0 0 g)) (hfeat xb) n g := by
  unfold k0_pay7
  refine (cast4_apply _ n g).trans ?_
  rw [pay6_apply]
  simp only [pay3_apply]
  rfl

/-- Second store: the second layer's output, of the first's. -/
theorem piece1 (n : Fin 1024) (g : Fin 256) :
    k0_pay12 (k0_pay8 w2_1) (k0_pay9 b2_1) (k0_pay10 (k0_pay2 a) (k0_pay3 a xb w1_0 b1_0 w2_0 b2_0) (k0_pay4 ga_0) (k0_pay5 be_0) mu_0 va_0 w1_1 b1_1) ga_1 be_1 mu_1 va_1 (ix4 0 0 n g)
      = layerOf (mixA (amat a)) (fun k g => w1_1 (ix3 0 k g)) (fun g => b1_1 (ix3 0 0 g)) (fun k g => w2_1 (ix3 0 k g)) (fun g => b2_1 (ix3 0 0 g)) (fun g => ga_1 (ix3 0 0 g)) (fun g => be_1 (ix3 0 0 g)) (fun g => mu_1 (ix3 0 0 g)) (fun g => va_1 (ix3 0 0 g))
          (layerOf (mixA (amat a)) (fun k g => w1_0 (ix3 0 k g)) (fun g => b1_0 (ix3 0 0 g)) (fun k g => w2_0 (ix3 0 k g)) (fun g => b2_0 (ix3 0 0 g)) (fun g => ga_0 (ix3 0 0 g)) (fun g => be_0 (ix3 0 0 g)) (fun g => mu_0 (ix3 0 0 g)) (fun g => va_0 (ix3 0 0 g)) (hfeat xb)) n g := by
  unfold k0_pay12
  refine (cast4_apply _ n g).trans ?_
  rw [pay11_apply]
  simp only [pay10_apply, pay6_apply, pay3_apply]
  rfl

/-- Third store: the third layer's output, of the second's. -/
theorem piece2 (n : Fin 1024) (g : Fin 256) :
    k0_pay1 (k0_pay16 (k0_pay13 w1_2) (k0_pay14 b1_2) (k0_pay15 (k0_pay2 a) (k0_pay8 w2_1) (k0_pay9 b2_1) (k0_pay10 (k0_pay2 a) (k0_pay3 a xb w1_0 b1_0 w2_0 b2_0) (k0_pay4 ga_0) (k0_pay5 be_0) mu_0 va_0 w1_1 b1_1) ga_1 be_1 mu_1 va_1) w2_2 b2_2 ga_2 be_2 mu_2 va_2) (ix4 0 0 n g)
      = layerOf (mixA (amat a)) (fun k g => w1_2 (ix3 0 k g)) (fun g => b1_2 (ix3 0 0 g)) (fun k g => w2_2 (ix3 0 k g)) (fun g => b2_2 (ix3 0 0 g)) (fun g => ga_2 (ix3 0 0 g)) (fun g => be_2 (ix3 0 0 g)) (fun g => mu_2 (ix3 0 0 g)) (fun g => va_2 (ix3 0 0 g))
          (layerOf (mixA (amat a)) (fun k g => w1_1 (ix3 0 k g)) (fun g => b1_1 (ix3 0 0 g)) (fun k g => w2_1 (ix3 0 k g)) (fun g => b2_1 (ix3 0 0 g)) (fun g => ga_1 (ix3 0 0 g)) (fun g => be_1 (ix3 0 0 g)) (fun g => mu_1 (ix3 0 0 g)) (fun g => va_1 (ix3 0 0 g))
            (layerOf (mixA (amat a)) (fun k g => w1_0 (ix3 0 k g)) (fun g => b1_0 (ix3 0 0 g)) (fun k g => w2_0 (ix3 0 k g)) (fun g => b2_0 (ix3 0 0 g)) (fun g => ga_0 (ix3 0 0 g)) (fun g => be_0 (ix3 0 0 g)) (fun g => mu_0 (ix3 0 0 g)) (fun g => va_0 (ix3 0 0 g)) (hfeat xb))) n g := by
  unfold k0_pay1
  refine (cast4_apply _ n g).trans ?_
  rw [pay16_apply]
  simp only [pay15_apply, pay11_apply, pay10_apply, pay6_apply, pay3_apply]
  rfl

end Cert.Gin.KLayer

end
-- ==== Proof.KIndexing.lean ====
/-
  The kernel program's accumulating scatter read at an index: into entry (n, j) go the updates of the edges whose
  index pair is (n, j); a pair with either component outside the matrix is dropped.
-/
import proofs.«402477_j13365938225809_3_alg».proof.KernelIdeal
import proofs.«402477_j13365938225809_3_alg».proof.Proof.Gen.KernelIdeal
import proofs.«402477_j13365938225809_3_alg».proof.Proof.Spec
import Idealize.ShloMosaic.PureOps.Ideal

noncomputable section

namespace Cert.Gin.KIx

open Idealize.ShloMosaic Idealize.ShloMosaic.ValueIdx Cert.KernelIdeal Cert.Gin

/-- The scatter's dimension numbers: both matrix axes are inserted (no window), and component `c` of an edge's
    index pair is the start on matrix axis `c`. -/
private abbrev sd := scatter_S1024x1024_S16384x2_S16384_n_01_01_1

private theorem mem0 : (0 : Fin 2) ∈ sd.scatterDimsToOperandDims := by decide
private theorem mem1 : (1 : Fin 2) ∈ sd.scatterDimsToOperandDims := by decide

/-- On matrix axis 0 the start of edge `e` is the first component of its index pair, read signed. -/
private theorem start_zero (idx : IVec S16384x2 32) (e : Fin 16384) :
    sd.start (ix1 e) idx (0 : Fin 2) = (idx (ix2 e 0)).toInt := by
  unfold ScatterDims.start
  rw [dif_pos mem0]
  have hsi : sd.siIdx (ix1 e) ⟨List.idxOf (0 : Fin 2) sd.scatterDimsToOperandDims,
      List.idxOf_lt_length_iff.2 mem0⟩ = ix2 e 0 := by
    funext b; refine Fin.ext ?_
    match b with
    | ⟨0, _⟩ => rfl
    | ⟨1, _⟩ => rfl
  rw [hsi]

/-- On matrix axis 1 the start of edge `e` is the second component of its index pair, read signed. -/
private theorem start_one (idx : IVec S16384x2 32) (e : Fin 16384) :
    sd.start (ix1 e) idx (1 : Fin 2) = (idx (ix2 e 1)).toInt := by
  unfold ScatterDims.start
  rw [dif_pos mem1]
  have hsi : sd.siIdx (ix1 e) ⟨List.idxOf (1 : Fin 2) sd.scatterDimsToOperandDims,
      List.idxOf_lt_length_iff.2 mem1⟩ = ix2 e 1 := by
    funext b; refine Fin.ext ?_
    match b with
    | ⟨0, _⟩ => rfl
    | ⟨1, _⟩ => rfl
  rw [hsi]

/-- Both matrix axes are inserted, so the window coordinate is 0 on each. -/
private theorem window_eq (e : Fin 16384) (a : Fin 2) : sd.window (ix1 e) a = 0 := by
  have h : ∀ b : Fin 2, b ∉ sd.sKept := by decide
  unfold ScatterDims.window
  rw [dif_neg (h a)]

/-- Edge `e` lands on entry `(n, j)` exactly when its index pair, read signed, is `(n, j)`: equality with
    `n, j < 1024` already says the pair is inside the matrix, and a pair outside lands nowhere. -/
private theorem resultIdx_iff (idx : IVec S16384x2 32) (e : Fin 16384) (n j : Fin 1024) :
    sd.resultIdx? (ix1 e) idx = some (ix2 n j)
      ↔ (idx (ix2 e 0)).toInt = (n.val : ℤ) ∧ (idx (ix2 e 1)).toInt = (j.val : ℤ) := by
  have hn : (n.val : ℤ) < 1024 := by exact_mod_cast n.isLt
  have hj : (j.val : ℤ) < 1024 := by exact_mod_cast j.isLt
  have s0 := start_zero idx e
  have s1 := start_one idx e
  have w0 := window_eq e 0
  have w1 := window_eq e 1
  unfold ScatterDims.resultIdx?
  split_ifs with h
  · rw [Option.some.injEq]
    have h0 := h (0 : Fin 2)
    have h1 := h (1 : Fin 2)
    rw [s0, w0] at h0
    rw [s1, w1] at h1
    constructor
    · intro heq
      have e0 := congrArg Fin.val (congrFun heq (0 : Fin 2))
      have e1 := congrArg Fin.val (congrFun heq (1 : Fin 2))
      simp only [s0, s1, w0, w1] at e0 e1
      change ((idx (ix2 e 0)).toInt + ((0 : Nat) : ℤ)).toNat = n.val at e0
      change ((idx (ix2 e 1)).toInt + ((0 : Nat) : ℤ)).toNat = j.val at e1
      omega
    · rintro ⟨e0, e1⟩
      funext a
      refine Fin.ext ?_
      match a with
      | ⟨0, _⟩ =>
        show (sd.start (ix1 e) idx (0 : Fin 2) + (sd.window (ix1 e) (0 : Fin 2) : ℤ)).toNat = n.val
        rw [s0, w0]; omega
      | ⟨1, _⟩ =>
        show (sd.start (ix1 e) idx (1 : Fin 2) + (sd.window (ix1 e) (1 : Fin 2) : ℤ)).toNat = j.val
        rw [s1, w1]; omega
  · constructor
    · intro heq; cases heq
    · rintro ⟨e0, e1⟩
      exfalso; apply h
      intro a
      match a with
      | ⟨0, _⟩ =>
        show 0 ≤ sd.start (ix1 e) idx (0 : Fin 2) + (sd.window (ix1 e) (0 : Fin 2) : ℤ)
          ∧ sd.start (ix1 e) idx (0 : Fin 2) + (sd.window (ix1 e) (0 : Fin 2) : ℤ) < (1024 : Nat)
        rw [s0, w0]; omega
      | ⟨1, _⟩ =>
        show 0 ≤ sd.start (ix1 e) idx (1 : Fin 2) + (sd.window (ix1 e) (1 : Fin 2) : ℤ)
          ∧ sd.start (ix1 e) idx (1 : Fin 2) + (sd.window (ix1 e) (1 : Fin 2) : ℤ) < (1024 : Nat)
        rw [s1, w1]; omega

theorem scatterAdd_apply (X : FVec Ideal S1024x1024 .f32) (idx : IVec S16384x2 32) (U : FVec Ideal S16384 .f32) (n j : Fin 1024) :
    Host.scatterAdd (F := Ideal) scatter_S1024x1024_S16384x2_S16384_n_01_01_1 X idx U (ix2 n j)
      = X (ix2 n j) + ∑ e ∈ Finset.univ.filter (fun e : Fin 16384 =>
          (idx (ix2 e 0)).toInt = (n.val : ℤ) ∧ (idx (ix2 e 1)).toInt = (j.val : ℤ)), U (ix1 e) := by
  simp only [Host.scatterAdd, Ideal.hostScatterAdd_def]
  unfold Ideal.hostScatterAdd
  refine congrArg (fun t => X (ix2 n j) + t) ?_
  refine Finset.sum_nbij' (fun u : S16384.Idx => (u 0 : Fin 16384)) (fun e : Fin 16384 => (ix1 e : S16384.Idx))
    ?_ ?_ ?_ ?_ ?_
  · intro u hu
    have hu2 := (Finset.mem_filter.1 hu).2
    rw [eq_ix1 u] at hu2
    exact Finset.mem_filter.2 ⟨Finset.mem_univ _, (resultIdx_iff idx _ n j).1 hu2⟩
  · intro e he
    exact Finset.mem_filter.2 ⟨Finset.mem_univ _, (resultIdx_iff idx e n j).2 (Finset.mem_filter.1 he).2⟩
  · intro u _
    exact (eq_ix1 u).symm
  · intro e _
    rfl
  · intro u _
    exact congrArg U (eq_ix1 u)

end Cert.Gin.KIx

end
-- ==== Proof.KHost.lean ====
/-
  What the region finds in the arrays the host operations before it wrote: the adjacency matrix (edge
  multiplicities plus the identity), the weights unchanged by the change of format, and the per-layer vectors with
  a unit axis inserted.
-/
import proofs.«402477_j13365938225809_3_alg».proof.Proof.Gen.KernelIdeal.Frame
import proofs.«402477_j13365938225809_3_alg».proof.Proof.KIndexing
import proofs.«402477_j13365938225809_3_alg».proof.Proof.Spec
import Idealize.ShloMosaic.Lib.ValueLayout
import Idealize.ShloMosaic.Lib.IdealHost

noncomputable section

namespace Cert.Gin.KHost

open Idealize.ShloMosaic Idealize.ShloMosaic.TcCoe Idealize.ShloMosaic.ValueIdx Idealize.SL.Sem
open Cert.KernelIdeal Cert.KernelIdeal.Gen Cert.Gin

variable (m : (ℓ : Loc nD τ sig) → Buf (Elt Ideal) ℓ)

/-! ### The index array: one wrapped row of the edge list per column -/

/-- Row `r` of the edge list, as a vector. -/
private abbrev rowOf (a1 : IVec S2x16384 32) (r : Nat) (h : S2x16384.Slices ![r, 0] S1x16384) : IVec S16384 32 :=
  shapeCast S16384 (extractStridedSlice S1x16384 ![r, 0] a1 h) shapeCasts_S1x16384_S16384

/-- A vector of words with every negative one moved up by the number of nodes. -/
private abbrev wrapV (R : IVec S16384 32) : IVec S16384 32 :=
  select (cmpi .slt R (broadcastInDim S16384 ![] bcast_S_S16384 (constantI S_ 32 0#32)))
    (addi R (broadcastInDim S16384 ![] bcast_S_S16384 (constantI S_ 32 1024#32))) R

/-- The pairs (destination, source), one per edge. -/
private abbrev idxOf (a1 : IVec S2x16384 32) : IVec S16384x2 32 :=
  concatenate S16384x2 1
    [⟨S16384x1, broadcastInDim S16384x1 ![0] bcast_S16384_S16384x1_0 (wrapV (rowOf a1 1 slices_S2x16384_S1x16384_1_0))⟩,
     ⟨S16384x1, broadcastInDim S16384x1 ![0] bcast_S16384_S16384x1_0 (wrapV (rowOf a1 0 slices_S2x16384_S1x16384_0_0))⟩]
    concatenates_S16384x1_S16384x1_S16384x2_d1

private theorem rowOf_apply (a1 : IVec S2x16384 32) (r : Fin 2) (h : S2x16384.Slices ![r.val, 0] S1x16384) (e : Fin 16384) :
    rowOf a1 r.val h (ix1 e) = a1 (ix2 r e) := by
  show shapeCast S16384 (extractStridedSlice S1x16384 ![r.val, 0] a1 h) shapeCasts_S1x16384_S16384 (ix1 e) = _
  rw [shapeCast_1a_a_apply]
  exact slice2_axis0_apply r.val a1 h 0 e r rfl

private theorem wrapV_apply (R : IVec S16384 32) (i : S16384.Idx) : wrapV R i = wrap (R i) := rfl

private theorem col_apply (W : IVec S16384 32) (e : Fin 16384) (u : Fin 1) :
    broadcastInDim S16384x1 ![0] bcast_S16384_S16384x1_0 W (ix2 e u) = W (ix1 e) :=
  broadcastInDim_apply _ _ W _ (ix1 e) (fun a => by
    match a with
    | ⟨0, _⟩ =>
      show e.val = if (16384 : Nat) = 1 then 0 else e.val
      rw [if_neg (by decide)])

private theorem idxOf_dst (a1 : IVec S2x16384 32) (e : Fin 16384) : idxOf a1 (ix2 e 0) = dstOf a1 e := by
  refine (concatenate_pair_apply_left (t := S16384x2) (s₁ := S16384x1) (s₂ := S16384x1) (1 : Fin 2) _ _
    concatenates_S16384x1_S16384x1_S16384x2_d1 (ix2 e (0 : Fin 2)) rfl (ix2 e (0 : Fin 1))
    (fun b => by match b with | ⟨0, _⟩ => rfl | ⟨1, _⟩ => rfl)).trans ?_
  rw [col_apply, wrapV_apply]
  exact congrArg wrap (rowOf_apply a1 1 slices_S2x16384_S1x16384_1_0 e)

private theorem idxOf_src (a1 : IVec S2x16384 32) (e : Fin 16384) : idxOf a1 (ix2 e 1) = srcOf a1 e := by
  refine (concatenate_pair_apply_right (t := S16384x2) (s₁ := S16384x1) (s₂ := S16384x1) (1 : Fin 2) _ _
    concatenates_S16384x1_S16384x1_S16384x2_d1 (ix2 e (1 : Fin 2)) rfl rfl (ix2 e (0 : Fin 1))
    (fun b hb => by
      match b with
      | ⟨0, _⟩ => rfl
      | ⟨1, _⟩ => exact absurd rfl hb)
    rfl).trans ?_
  rw [col_apply, wrapV_apply]
  exact congrArg wrap (rowOf_apply a1 0 slices_S2x16384_S1x16384_0_0 e)

/-! ### The matrix: multiplicities scattered into zeros, plus the identity -/

private abbrev zerosM : FVec Ideal S1024x1024 .f32 :=
  broadcastInDim S1024x1024 ![] bcast_S_S1024x1024 (constant (F := Ideal) S_ .f32 0x00000000#32)

private abbrev onesV : FVec Ideal S16384 .f32 :=
  broadcastInDim S16384 ![] bcast_S_S16384 (constant (F := Ideal) S_ .f32 0x3F800000#32)

/-- The identity as the comparison of the row number with the column number, converted to a float. -/
private abbrev eyeM : FVec Ideal S1024x1024 .f32 :=
  uitofp .f32
    (cmpi .eq (addi (iotaInDim S1024x1024 32 0) (broadcastInDim S1024x1024 ![] bcast_S_S1024x1024 (constantI S_ 32 0#32)))
      (iotaInDim S1024x1024 32 1))

private abbrev adjTerm (a1 : IVec S2x16384 32) : FVec Ideal S1024x1024 .bf16 :=
  truncf .bf16
    (addf (Host.scatterAdd (F := Ideal) scatter_S1024x1024_S16384x2_S16384_n_01_01_1 zerosM (idxOf a1) onesV) eyeM)
    bitsLt_bf16_f32

private theorem zerosM_apply (i : S1024x1024.Idx) : zerosM i = 0 := Ideal.ofBits_zero_f32

private theorem onesV_apply (i : S16384.Idx) : onesV i = 1 := Ideal.ofBits_one_f32

/-- Two node numbers are the same word exactly when they are the same node: nothing wraps below 2³². -/
private theorem word_eq_iff (n j : Fin 1024) : BitVec.ofNat 32 n.val = BitVec.ofNat 32 j.val ↔ n = j := by
  constructor
  · intro h
    have h' := congrArg BitVec.toNat h
    rw [BitVec.toNat_ofNat, BitVec.toNat_ofNat] at h'
    have hn := n.isLt
    have hj := j.isLt
    exact Fin.ext (by omega)
  · rintro rfl; rfl

private theorem eyeM_apply (n j : Fin 1024) : eyeM (ix2 n j) = if n = j then 1 else 0 := by
  show (((IntOp.cmpi .eq (IntOp.addi (BitVec.ofNat 32 n.val) 0#32) (BitVec.ofNat 32 j.val)).toNat : ℝ) : EReal) = _
  have h0 : IntOp.addi (BitVec.ofNat 32 n.val) 0#32 = BitVec.ofNat 32 n.val := BitVec.add_zero _
  rw [h0]
  by_cases h : n = j
  · have hb : IntOp.cmpi .eq (BitVec.ofNat 32 n.val) (BitVec.ofNat 32 j.val) = 1#1 := by
      subst h; simp [IntOp.cmpi]
    rw [hb, if_pos h]; simp
  · have hne : ¬ BitVec.ofNat 32 n.val = BitVec.ofNat 32 j.val := fun hh => h ((word_eq_iff n j).1 hh)
    have hb : IntOp.cmpi .eq (BitVec.ofNat 32 n.val) (BitVec.ofNat 32 j.val) = 0#1 := by
      show BitVec.ofBool (BitVec.ofNat 32 n.val == BitVec.ofNat 32 j.val) = 0#1
      rw [beq_eq_false_iff_ne.2 hne]; rfl
    rw [hb, if_neg h]; simp

private theorem adjTerm_apply (a1 : IVec S2x16384 32) (n j : Fin 1024) :
    adjTerm a1 (ix2 n j) = adj (srcOf a1) (dstOf a1) n j := by
  show Host.scatterAdd (F := Ideal) scatter_S1024x1024_S16384x2_S16384_n_01_01_1 zerosM (idxOf a1) onesV (ix2 n j)
      + eyeM (ix2 n j) = _
  rw [KIx.scatterAdd_apply, eyeM_apply, zerosM_apply, zero_add]
  unfold adj
  refine congrArg (· + (if n = j then (1 : EReal) else 0)) ?_
  exact Finset.sum_congr (Finset.filter_congr fun e _ => by rw [idxOf_dst, idxOf_src]) (fun e _ => onesV_apply _)

set_option maxHeartbeats 1000000 in
theorem V_adj (c : Dev nD) (n j : Fin 1024) :
    (V m c main_v27 : S1024x1024.Idx → EReal) (ix2 n j)
      = adj (srcOf (m ((c : Thread nD τ).loc main_arg1))) (dstOf (m ((c : Thread nD τ).loc main_arg1))) n j := by
  have e : (V m c main_v27 : S1024x1024.Idx → EReal) = adjTerm (m ((c : Thread nD τ).loc main_arg1)) := by
    dsimp only [Gen.V, Gen.hostOps0]; after_results; rfl
  exact (congrFun e (ix2 n j)).trans (adjTerm_apply _ n j)

/-! ### A unit axis inserted between the layer and the feature -/

/-- A `[3, 256]` array recast as `[3, 1, 256]` reads, at `(l, 0, g)`, the operand at `(l, g)`: the two indices have
    the same row-major position `256 l + g`. -/
private theorem cast_unit_mid {α : Type} (x : S3x256.Idx → α) (h : S3x256.ShapeCasts S3x1x256) (l : Fin 3) (g : Fin 256) :
    shapeCast S3x1x256 x h (ix3 l 0 g) = x (ix2 l g) :=
  shapeCast_apply x h _ _ (by
    rw [Shape.rowMajor_val_three, Shape.rowMajor_val_two]
    show l.val * 256 + g.val = (l.val * 1 + 0) * 256 + g.val
    omega)

/-! ### The weights and the per-layer vectors -/

theorem V_w1 (c : Dev nD) (l : Fin 3) (k g : Fin 256) :
    (V m c main_v28 : S3x256x256.Idx → EReal) (ix3 l k g) = m ((c : Thread nD τ).loc main_arg2) (ix3 l k g) := by
  have e : (V m c main_v28 : S3x256x256.Idx → EReal)
      = (truncf .bf16 (m ((c : Thread nD τ).loc main_arg2) : FVec Ideal S3x256x256 .f32) bitsLt_bf16_f32
          : FVec Ideal S3x256x256 .bf16) := by
    dsimp only [Gen.V, Gen.hostOps0]; after_results
  rw [e]; rfl

theorem V_w2 (c : Dev nD) (l : Fin 3) (k g : Fin 256) :
    (V m c main_v29 : S3x256x256.Idx → EReal) (ix3 l k g) = m ((c : Thread nD τ).loc main_arg4) (ix3 l k g) := by
  have e : (V m c main_v29 : S3x256x256.Idx → EReal)
      = (truncf .bf16 (m ((c : Thread nD τ).loc main_arg4) : FVec Ideal S3x256x256 .f32) bitsLt_bf16_f32
          : FVec Ideal S3x256x256 .bf16) := by
    dsimp only [Gen.V, Gen.hostOps0]; after_results
  rw [e]; rfl

theorem V_b1 (c : Dev nD) (l : Fin 3) (g : Fin 256) :
    (V m c main_v30 : S3x1x256.Idx → EReal) (ix3 l 0 g) = m ((c : Thread nD τ).loc main_arg3) (ix2 l g) := by
  have e : (V m c main_v30 : S3x1x256.Idx → EReal)
      = shapeCast S3x1x256 (m ((c : Thread nD τ).loc main_arg3) : S3x256.Idx → EReal) shapeCasts_S3x256_S3x1x256 := by
    dsimp only [Gen.V, Gen.hostOps0]; after_results; rfl
  rw [e]
  exact cast_unit_mid _ _ l g

theorem V_b2 (c : Dev nD) (l : Fin 3) (g : Fin 256) :
    (V m c main_v31 : S3x1x256.Idx → EReal) (ix3 l 0 g) = m ((c : Thread nD τ).loc main_arg5) (ix2 l g) := by
  have e : (V m c main_v31 : S3x1x256.Idx → EReal)
      = shapeCast S3x1x256 (m ((c : Thread nD τ).loc main_arg5) : S3x256.Idx → EReal) shapeCasts_S3x256_S3x1x256 := by
    dsimp only [Gen.V, Gen.hostOps0]; after_results; rfl
  rw [e]
  exact cast_unit_mid _ _ l g

theorem V_gamma (c : Dev nD) (l : Fin 3) (g : Fin 256) :
    (V m c main_v32 : S3x1x256.Idx → EReal) (ix3 l 0 g) = m ((c : Thread nD τ).loc main_arg6) (ix2 l g) := by
  have e : (V m c main_v32 : S3x1x256.Idx → EReal)
      = shapeCast S3x1x256 (m ((c : Thread nD τ).loc main_arg6) : S3x256.Idx → EReal) shapeCasts_S3x256_S3x1x256 := by
    dsimp only [Gen.V, Gen.hostOps0]; after_results; rfl
  rw [e]
  exact cast_unit_mid _ _ l g

theorem V_beta (c : Dev nD) (l : Fin 3) (g : Fin 256) :
    (V m c main_v33 : S3x1x256.Idx → EReal) (ix3 l 0 g) = m ((c : Thread nD τ).loc main_arg7) (ix2 l g) := by
  have e : (V m c main_v33 : S3x1x256.Idx → EReal)
      = shapeCast S3x1x256 (m ((c : Thread nD τ).loc main_arg7) : S3x256.Idx → EReal) shapeCasts_S3x256_S3x1x256 := by
    dsimp only [Gen.V, Gen.hostOps0]; after_results; rfl
  rw [e]
  exact cast_unit_mid _ _ l g

theorem V_mean (c : Dev nD) (l : Fin 3) (g : Fin 256) :
    (V m c main_v34 : S3x1x256.Idx → EReal) (ix3 l 0 g) = m ((c : Thread nD τ).loc main_arg8) (ix2 l g) := by
  have e : (V m c main_v34 : S3x1x256.Idx → EReal)
      = shapeCast S3x1x256 (m ((c : Thread nD τ).loc main_arg8) : S3x256.Idx → EReal) shapeCasts_S3x256_S3x1x256 := by
    dsimp only [Gen.V, Gen.hostOps0]; after_results; rfl
  rw [e]
  exact cast_unit_mid _ _ l g

theorem V_var (c : Dev nD) (l : Fin 3) (g : Fin 256) :
    (V m c main_v35 : S3x1x256.Idx → EReal) (ix3 l 0 g) = m ((c : Thread nD τ).loc main_arg9) (ix2 l g) := by
  have e : (V m c main_v35 : S3x1x256.Idx → EReal)
      = shapeCast S3x1x256 (m ((c : Thread nD τ).loc main_arg9) : S3x256.Idx → EReal) shapeCasts_S3x256_S3x1x256 := by
    dsimp only [Gen.V, Gen.hostOps0]; after_results; rfl
  rw [e]
  exact cast_unit_mid _ _ l g

end Cert.Gin.KHost

end
-- ==== Proof.AggLaw.lean ====
/-
  The aggregation step's two presentations agree: multiplying by the adjacency matrix (edge multiplicities plus
  the identity) is adding, to a node's own features, the features of the sources of the edges that arrive at it —
  when every source is a node. Only sums of non-negative multiples are re-associated, so no finiteness of the
  features is needed: the law holds at infinite features too.
-/
import proofs.«402477_j13365938225809_3_alg».proof.Proof.Spec

noncomputable section

namespace Cert.Gin

open Idealize.ShloMosaic Idealize.ShloMosaic.ValueIdx

/-- When `t` is a node, the clamped read lands on `t` itself. -/
private theorem node_eq_iff (t : BitVec 32) (h : 0 ≤ t.toInt ∧ t.toInt < 1024) (j : Fin 1024) :
    node t = j ↔ t.toInt = (j.val : ℤ) := by
  unfold node
  rw [Fin.ext_iff]
  show min t.toInt.toNat 1023 = j.val ↔ _
  omega

/-- A count times `c` is `c` added that many times; the count is non-negative, so this holds at infinite `c` too. -/
private theorem sum_one_mul {ι : Type} (S : Finset ι) (c : EReal) :
    (∑ _e ∈ S, (1 : EReal)) * c = ∑ _e ∈ S, c := by
  rw [Finset.sum_const, Finset.sum_const, EReal.nsmul_eq_mul, EReal.nsmul_eq_mul, mul_one]

theorem mixA_adj_eq_mix (src dst : Fin 16384 → BitVec 32) (hsrc : SrcInRange src) (x : Feat) :
    mixA (adj src dst) x = mix src dst x := by
  funext n f
  unfold mixA adj mix
  have h1 : ∀ j : Fin 1024,
      ((∑ _e ∈ Finset.univ.filter (fun e : Fin 16384 => (dst e).toInt = (n.val : ℤ) ∧ (src e).toInt = (j.val : ℤ)), (1 : EReal))
        + (if n = j then 1 else 0)) * x j f
      = (∑ _e ∈ Finset.univ.filter (fun e : Fin 16384 => (dst e).toInt = (n.val : ℤ) ∧ (src e).toInt = (j.val : ℤ)), x j f)
        + (if n = j then x j f else 0) := by
    intro j
    rw [EReal.right_distrib_of_nonneg (Finset.sum_nonneg (fun _ _ => zero_le_one)) (by split_ifs <;> simp),
      sum_one_mul, ite_mul, one_mul, zero_mul]
  have h2 : ∀ j : Fin 1024,
      (∑ _e ∈ Finset.univ.filter (fun e : Fin 16384 => (dst e).toInt = (n.val : ℤ) ∧ (src e).toInt = (j.val : ℤ)), x j f)
      = ∑ e ∈ (Finset.univ.filter (fun e : Fin 16384 => (dst e).toInt = (n.val : ℤ))).filter (fun e => node (src e) = j),
          x (node (src e)) f := by
    intro j
    rw [Finset.filter_filter]
    refine Finset.sum_congr ?_ ?_
    · ext e
      simp only [Finset.mem_filter, Finset.mem_univ, true_and]
      rw [node_eq_iff _ (hsrc e)]
    · intro e he
      rw [Finset.mem_filter] at he
      rw [he.2.2]
  have h3 : (∑ j : Fin 1024, ∑ e ∈ (Finset.univ.filter (fun e : Fin 16384 => (dst e).toInt = (n.val : ℤ))).filter (fun e => node (src e) = j),
          x (node (src e)) f)
      = ∑ e ∈ Finset.univ.filter (fun e : Fin 16384 => (dst e).toInt = (n.val : ℤ)), x (node (src e)) f :=
    Finset.sum_fiberwise_of_maps_to (fun _ _ => Finset.mem_univ _) _
  calc (∑ j : Fin 1024, ((∑ _e ∈ Finset.univ.filter (fun e : Fin 16384 => (dst e).toInt = (n.val : ℤ) ∧ (src e).toInt = (j.val : ℤ)), (1 : EReal))
        + (if n = j then 1 else 0)) * x j f)
      = ∑ j : Fin 1024, ((∑ e ∈ (Finset.univ.filter (fun e : Fin 16384 => (dst e).toInt = (n.val : ℤ))).filter (fun e => node (src e) = j),
          x (node (src e)) f) + (if n = j then x j f else 0)) :=
        Finset.sum_congr rfl (fun j _ => by rw [h1 j, h2 j])
    _ = x n f + ∑ e ∈ Finset.univ.filter (fun e : Fin 16384 => (dst e).toInt = (n.val : ℤ)), x (node (src e)) f := by
        rw [Finset.sum_add_distrib, h3, Finset.sum_ite_eq, if_pos (Finset.mem_univ n), add_comm]

theorem GarrA_eq_Garr (a0 : AH) (a1 : AE) (a2 : AW) (a3 : AV) (a4 : AW) (a5 a6 a7 a8 a9 : AV) (hsrc : SrcInRange (srcOf a1)) :
    GarrA a0 a1 a2 a3 a4 a5 a6 a7 a8 a9 = Garr a0 a1 a2 a3 a4 a5 a6 a7 a8 a9 := by
  have e : mixA (adj (srcOf a1) (dstOf a1)) = mix (srcOf a1) (dstOf a1) :=
    funext fun x => mixA_adj_eq_mix _ _ hsrc x
  unfold GarrA Garr GarrOf
  dsimp only
  rw [e]

end Cert.Gin

end
-- ==== Proof.KBlock.lean ====
/-
  From blocks to the array. Grid point t stages batch element t of the input and the whole of every other operand,
  and writes back block (·, t, ·, ·) of the result; the body's three stores tile that block's buffer, one layer
  each. So what point t writes back is the stack of batch element t, the blocks cover the result array, and the
  array after the run is the stack — with the aggregation as the adjacency product, which is the sum over arriving
  edges when every source is a node.
-/
import proofs.«402477_j13365938225809_3_alg».proof.Proof.Gen.KernelIdeal.Value
import proofs.«402477_j13365938225809_3_alg».proof.Proof.KLayer
import proofs.«402477_j13365938225809_3_alg».proof.Proof.KHost
import proofs.«402477_j13365938225809_3_alg».proof.Proof.AggLaw
import proofs.«402477_j13365938225809_3_alg».proof.Proof.Spec

noncomputable section

namespace Cert.Gin.KBlock

open Idealize.ShloMosaic Idealize.ShloMosaic.TcCoe Idealize.ShloMosaic.ValueIdx Idealize.SL.Sem
open Cert.KernelIdeal Cert.KernelIdeal.Gen Cert.Gin

variable (m : (ℓ : Loc nD τ sig) → Buf (Elt Ideal) ℓ) (ρ : Dev nD → PrngReg)

/-- The result array of core c as the adjacency-product stack of the argument arrays. -/
abbrev GA (c : Dev nD) : S3x16x1024x256.Idx → EReal :=
  GarrA (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-! ## Index bookkeeping -/

private theorem hz2 : (![0, 0] : Fin 2 → Nat) = fun _ => 0 := funext fun a => by fin_cases a <;> rfl
private theorem hz3 : (![0, 0, 0] : Fin 3 → Nat) = fun _ => 0 := funext fun a => by fin_cases a <;> rfl

/-- A load of layer 0's slab of a per-layer matrix stack reads the stack at layer 0, -/
private theorem ld_mat0 (X : Vec Ideal S3x256x256 .bf16) (k g : Fin 256) : View.ld X r0_2 (ix3 0 k g) = X (ix3 0 k g) := by
  show X _ = X _
  congr 1; funext a; apply Fin.ext
  match a with
  | ⟨0, _⟩ => rfl
  | ⟨1, _⟩ => show 0 + 1 * k.val = k.val; omega
  | ⟨2, _⟩ => show 0 + 1 * g.val = g.val; omega
/-- layer 1's at layer 1, -/
private theorem ld_mat1 (X : Vec Ideal S3x256x256 .bf16) (k g : Fin 256) : View.ld X r0_5 (ix3 0 k g) = X (ix3 1 k g) := by
  show X _ = X _
  congr 1; funext a; apply Fin.ext
  match a with
  | ⟨0, _⟩ => rfl
  | ⟨1, _⟩ => show 0 + 1 * k.val = k.val; omega
  | ⟨2, _⟩ => show 0 + 1 * g.val = g.val; omega
/-- layer 2's at layer 2. -/
private theorem ld_mat2 (X : Vec Ideal S3x256x256 .bf16) (k g : Fin 256) : View.ld X r0_8 (ix3 0 k g) = X (ix3 2 k g) := by
  show X _ = X _
  congr 1; funext a; apply Fin.ext
  match a with
  | ⟨0, _⟩ => rfl
  | ⟨1, _⟩ => show 0 + 1 * k.val = k.val; omega
  | ⟨2, _⟩ => show 0 + 1 * g.val = g.val; omega
/-- The same for a per-layer vector stack. -/
private theorem ld_vec0 (X : Vec Ideal S3x1x256 .f32) (g : Fin 256) : View.ld X r0_3 (ix3 0 0 g) = X (ix3 0 0 g) := by
  show X _ = X _
  congr 1; funext a; apply Fin.ext
  match a with
  | ⟨0, _⟩ => rfl
  | ⟨1, _⟩ => rfl
  | ⟨2, _⟩ => show 0 + 1 * g.val = g.val; omega
private theorem ld_vec1 (X : Vec Ideal S3x1x256 .f32) (g : Fin 256) : View.ld X r0_6 (ix3 0 0 g) = X (ix3 1 0 g) := by
  show X _ = X _
  congr 1; funext a; apply Fin.ext
  match a with
  | ⟨0, _⟩ => rfl
  | ⟨1, _⟩ => rfl
  | ⟨2, _⟩ => show 0 + 1 * g.val = g.val; omega
private theorem ld_vec2 (X : Vec Ideal S3x1x256 .f32) (g : Fin 256) : View.ld X r0_9 (ix3 0 0 g) = X (ix3 2 0 g) := by
  show X _ = X _
  congr 1; funext a; apply Fin.ext
  match a with
  | ⟨0, _⟩ => rfl
  | ⟨1, _⟩ => rfl
  | ⟨2, _⟩ => show 0 + 1 * g.val = g.val; omega

/-- Where the three stores land in the buffer: layer l's at slab l. -/
private theorem emb_out0 (n : Fin 1024) (g : Fin 256) : r0_4.emb (ix4 0 0 n g) = (ix4 0 0 n g : S3x1x1024x256.Idx) := by
  funext a; apply Fin.ext
  match a with
  | ⟨0, _⟩ => rfl
  | ⟨1, _⟩ => rfl
  | ⟨2, _⟩ => show 0 + 1 * n.val = n.val; omega
  | ⟨3, _⟩ => show 0 + 1 * g.val = g.val; omega
private theorem emb_out1 (n : Fin 1024) (g : Fin 256) : r0_7.emb (ix4 0 0 n g) = (ix4 1 0 n g : S3x1x1024x256.Idx) := by
  funext a; apply Fin.ext
  match a with
  | ⟨0, _⟩ => rfl
  | ⟨1, _⟩ => rfl
  | ⟨2, _⟩ => show 0 + 1 * n.val = n.val; omega
  | ⟨3, _⟩ => show 0 + 1 * g.val = g.val; omega
private theorem emb_out2 (n : Fin 1024) (g : Fin 256) : r0_10.emb (ix4 0 0 n g) = (ix4 2 0 n g : S3x1x1024x256.Idx) := by
  funext a; apply Fin.ext
  match a with
  | ⟨0, _⟩ => rfl
  | ⟨1, _⟩ => rfl
  | ⟨2, _⟩ => show 0 + 1 * n.val = n.val; omega
  | ⟨3, _⟩ => show 0 + 1 * g.val = g.val; omega

/-! ## The three stores as one function of the buffer index -/

/-- The stack's three layers, unfolded. -/
private theorem stackOf_zero (M : Feat → Feat) (W1 : Fin 3 → Fin 256 → Fin 256 → EReal) (b1 : Fin 3 → Fin 256 → EReal)
    (W2 : Fin 3 → Fin 256 → Fin 256 → EReal) (b2 γ β μ v : Fin 3 → Fin 256 → EReal) (h : Feat) :
    stackOf M W1 b1 W2 b2 γ β μ v h 0 = layerOf M (W1 0) (b1 0) (W2 0) (b2 0) (γ 0) (β 0) (μ 0) (v 0) h := rfl
private theorem stackOf_one (M : Feat → Feat) (W1 : Fin 3 → Fin 256 → Fin 256 → EReal) (b1 : Fin 3 → Fin 256 → EReal)
    (W2 : Fin 3 → Fin 256 → Fin 256 → EReal) (b2 γ β μ v : Fin 3 → Fin 256 → EReal) (h : Feat) :
    stackOf M W1 b1 W2 b2 γ β μ v h 1 = layerOf M (W1 1) (b1 1) (W2 1) (b2 1) (γ 1) (β 1) (μ 1) (v 1)
      (layerOf M (W1 0) (b1 0) (W2 0) (b2 0) (γ 0) (β 0) (μ 0) (v 0) h) := rfl
private theorem stackOf_two (M : Feat → Feat) (W1 : Fin 3 → Fin 256 → Fin 256 → EReal) (b1 : Fin 3 → Fin 256 → EReal)
    (W2 : Fin 3 → Fin 256 → Fin 256 → EReal) (b2 γ β μ v : Fin 3 → Fin 256 → EReal) (h : Feat) :
    stackOf M W1 b1 W2 b2 γ β μ v h 2 = layerOf M (W1 2) (b1 2) (W2 2) (b2 2) (γ 2) (β 2) (μ 2) (v 2)
      (layerOf M (W1 1) (b1 1) (W2 1) (b2 1) (γ 1) (β 1) (μ 1) (v 1)
        (layerOf M (W1 0) (b1 0) (W2 0) (b2 0) (γ 0) (β 0) (μ 0) (v 0) h)) := rfl

/-- A layer of equal operands is the same layer. -/
private theorem layerOf_congr {M M' : Feat → Feat} {W1 W1' W2 W2' : Fin 256 → Fin 256 → EReal} {b1 b1' b2 b2' γ γ' β β' μ μ' v v' : Fin 256 → EReal}
    {x x' : Feat} (hM : M = M') (h1 : W1 = W1') (hb1 : b1 = b1') (h2 : W2 = W2') (hb2 : b2 = b2') (hγ : γ = γ') (hβ : β = β')
    (hμ : μ = μ') (hv : v = v') (hx : x = x') :
    layerOf M W1 b1 W2 b2 γ β μ v x = layerOf M' W1' b1' W2' b2' γ' β' μ' v' x' := by
  subst hM h1 hb1 h2 hb2 hγ hβ hμ hv hx; rfl

section Buffer

variable (x0 : Vec Ideal S1x1024x256 .f32) (x1 : Vec Ideal S1024x1024 .bf16) (x2 x3 : Vec Ideal S3x256x256 .bf16)
  (x4 x5 x6 x7 x8 x9 : Vec Ideal S3x1x256 .f32)

/-- The stack of the staged batch element over the staged operands, as a function of the result buffer's index. -/
private abbrev Gbuf : S3x1x1024x256.Idx → EReal := fun y =>
  stackOf (mixA (KLayer.amat x1)) (fun l k g => x2 (ix3 l k g)) (fun l g => x4 (ix3 l 0 g)) (fun l k g => x3 (ix3 l k g))
    (fun l g => x5 (ix3 l 0 g)) (fun l g => x6 (ix3 l 0 g)) (fun l g => x7 (ix3 l 0 g)) (fun l g => x8 (ix3 l 0 g))
    (fun l g => x9 (ix3 l 0 g)) (KLayer.hfeat x0) (y 0) (y 2) (y 3)

/-- The loaded batch element is the staged one. -/
private theorem hfeat_ld : KLayer.hfeat (View.ld x0 r0_1) = KLayer.hfeat x0 := by rw [View.ld_unit_zero (S := S1x1024x256) hz3]

/-- A layer over layer 0's loaded slabs is the stack's layer 0, -/
private theorem layer0_eq {x x' : Feat} (hx : x = x') :
    layerOf (mixA (KLayer.amat (View.ld x1 r0_0))) (fun k g => View.ld x2 r0_2 (ix3 0 k g)) (fun g => View.ld x4 r0_3 (ix3 0 0 g))
        (fun k g => View.ld x3 r0_2 (ix3 0 k g)) (fun g => View.ld x5 r0_3 (ix3 0 0 g)) (fun g => View.ld x6 r0_3 (ix3 0 0 g))
        (fun g => View.ld x7 r0_3 (ix3 0 0 g)) (fun g => View.ld x8 r0_3 (ix3 0 0 g)) (fun g => View.ld x9 r0_3 (ix3 0 0 g)) x
      = layerOf (mixA (KLayer.amat x1)) (fun k g => x2 (ix3 0 k g)) (fun g => x4 (ix3 0 0 g)) (fun k g => x3 (ix3 0 k g))
        (fun g => x5 (ix3 0 0 g)) (fun g => x6 (ix3 0 0 g)) (fun g => x7 (ix3 0 0 g)) (fun g => x8 (ix3 0 0 g))
        (fun g => x9 (ix3 0 0 g)) x' :=
  layerOf_congr (by rw [View.ld_unit_zero (S := S1024x1024) hz2]) (funext fun k => funext fun g => ld_mat0 x2 k g)
    (funext fun g => ld_vec0 x4 g) (funext fun k => funext fun g => ld_mat0 x3 k g) (funext fun g => ld_vec0 x5 g)
    (funext fun g => ld_vec0 x6 g) (funext fun g => ld_vec0 x7 g) (funext fun g => ld_vec0 x8 g) (funext fun g => ld_vec0 x9 g) hx
/-- over layer 1's the stack's layer 1, -/
private theorem layer1_eq {x x' : Feat} (hx : x = x') :
    layerOf (mixA (KLayer.amat (View.ld x1 r0_0))) (fun k g => View.ld x2 r0_5 (ix3 0 k g)) (fun g => View.ld x4 r0_6 (ix3 0 0 g))
        (fun k g => View.ld x3 r0_5 (ix3 0 k g)) (fun g => View.ld x5 r0_6 (ix3 0 0 g)) (fun g => View.ld x6 r0_6 (ix3 0 0 g))
        (fun g => View.ld x7 r0_6 (ix3 0 0 g)) (fun g => View.ld x8 r0_6 (ix3 0 0 g)) (fun g => View.ld x9 r0_6 (ix3 0 0 g)) x
      = layerOf (mixA (KLayer.amat x1)) (fun k g => x2 (ix3 1 k g)) (fun g => x4 (ix3 1 0 g)) (fun k g => x3 (ix3 1 k g))
        (fun g => x5 (ix3 1 0 g)) (fun g => x6 (ix3 1 0 g)) (fun g => x7 (ix3 1 0 g)) (fun g => x8 (ix3 1 0 g))
        (fun g => x9 (ix3 1 0 g)) x' :=
  layerOf_congr (by rw [View.ld_unit_zero (S := S1024x1024) hz2]) (funext fun k => funext fun g => ld_mat1 x2 k g)
    (funext fun g => ld_vec1 x4 g) (funext fun k => funext fun g => ld_mat1 x3 k g) (funext fun g => ld_vec1 x5 g)
    (funext fun g => ld_vec1 x6 g) (funext fun g => ld_vec1 x7 g) (funext fun g => ld_vec1 x8 g) (funext fun g => ld_vec1 x9 g) hx
/-- over layer 2's the stack's layer 2. -/
private theorem layer2_eq {x x' : Feat} (hx : x = x') :
    layerOf (mixA (KLayer.amat (View.ld x1 r0_0))) (fun k g => View.ld x2 r0_8 (ix3 0 k g)) (fun g => View.ld x4 r0_9 (ix3 0 0 g))
        (fun k g => View.ld x3 r0_8 (ix3 0 k g)) (fun g => View.ld x5 r0_9 (ix3 0 0 g)) (fun g => View.ld x6 r0_9 (ix3 0 0 g))
        (fun g => View.ld x7 r0_9 (ix3 0 0 g)) (fun g => View.ld x8 r0_9 (ix3 0 0 g)) (fun g => View.ld x9 r0_9 (ix3 0 0 g)) x
      = layerOf (mixA (KLayer.amat x1)) (fun k g => x2 (ix3 2 k g)) (fun g => x4 (ix3 2 0 g)) (fun k g => x3 (ix3 2 k g))
        (fun g => x5 (ix3 2 0 g)) (fun g => x6 (ix3 2 0 g)) (fun g => x7 (ix3 2 0 g)) (fun g => x8 (ix3 2 0 g))
        (fun g => x9 (ix3 2 0 g)) x' :=
  layerOf_congr (by rw [View.ld_unit_zero (S := S1024x1024) hz2]) (funext fun k => funext fun g => ld_mat2 x2 k g)
    (funext fun g => ld_vec2 x4 g) (funext fun k => funext fun g => ld_mat2 x3 k g) (funext fun g => ld_vec2 x5 g)
    (funext fun g => ld_vec2 x6 g) (funext fun g => ld_vec2 x7 g) (funext fun g => ld_vec2 x8 g) (funext fun g => ld_vec2 x9 g) hx

/-- The first store's payload is slab 0 of the stack, -/
private theorem store0_eq (x : r0_4.shape.Idx) :
    k0_pay7 (k0_pay3 (View.ld x1 r0_0) (View.ld x0 r0_1) (View.ld x2 r0_2) (View.ld x4 r0_3) (View.ld x3 r0_2) (View.ld x5 r0_3)) (k0_pay4 (View.ld x6 r0_3)) (k0_pay5 (View.ld x7 r0_3)) (View.ld x8 r0_3) (View.ld x9 r0_3) x
      = Gbuf x0 x1 x2 x3 x4 x5 x6 x7 x8 x9 (r0_4.emb x) := by
  obtain ⟨a, b, n, g, rfl⟩ : ∃ (a : Fin 1) (b : Fin 1) (n : Fin 1024) (g : Fin 256), x = ix4 a b n g := ⟨x 0, x 1, x 2, x 3, eq_ix4 x⟩
  obtain rfl : a = 0 := Subsingleton.elim _ _
  obtain rfl : b = 0 := Subsingleton.elim _ _
  rw [emb_out0]
  refine (KLayer.piece0 ..).trans ?_
  show _ = stackOf _ _ _ _ _ _ _ _ _ _ 0 n g
  rw [stackOf_zero]
  exact congrFun (congrFun (layer0_eq x1 x2 x3 x4 x5 x6 x7 x8 x9 (hfeat_ld x0)) n) g

/-- the second's slab 1, -/
private theorem store1_eq (x : r0_7.shape.Idx) :
    k0_pay12 (k0_pay8 (View.ld x3 r0_5)) (k0_pay9 (View.ld x5 r0_6)) (k0_pay10 (k0_pay2 (View.ld x1 r0_0)) (k0_pay3 (View.ld x1 r0_0) (View.ld x0 r0_1) (View.ld x2 r0_2) (View.ld x4 r0_3) (View.ld x3 r0_2) (View.ld x5 r0_3)) (k0_pay4 (View.ld x6 r0_3)) (k0_pay5 (View.ld x7 r0_3)) (View.ld x8 r0_3) (View.ld x9 r0_3) (View.ld x2 r0_5) (View.ld x4 r0_6)) (View.ld x6 r0_6) (View.ld x7 r0_6) (View.ld x8 r0_6) (View.ld x9 r0_6) x
      = Gbuf x0 x1 x2 x3 x4 x5 x6 x7 x8 x9 (r0_7.emb x) := by
  obtain ⟨a, b, n, g, rfl⟩ : ∃ (a : Fin 1) (b : Fin 1) (n : Fin 1024) (g : Fin 256), x = ix4 a b n g := ⟨x 0, x 1, x 2, x 3, eq_ix4 x⟩
  obtain rfl : a = 0 := Subsingleton.elim _ _
  obtain rfl : b = 0 := Subsingleton.elim _ _
  rw [emb_out1]
  refine (KLayer.piece1 ..).trans ?_
  show _ = stackOf _ _ _ _ _ _ _ _ _ _ 1 n g
  rw [stackOf_one]
  exact congrFun (congrFun (layer1_eq x1 x2 x3 x4 x5 x6 x7 x8 x9 (layer0_eq x1 x2 x3 x4 x5 x6 x7 x8 x9 (hfeat_ld x0))) n) g

/-- the third's slab 2. -/
private theorem store2_eq (x : r0_10.shape.Idx) :
    k0_pay1 (k0_pay16 (k0_pay13 (View.ld x2 r0_8)) (k0_pay14 (View.ld x4 r0_9)) (k0_pay15 (k0_pay2 (View.ld x1 r0_0)) (k0_pay8 (View.ld x3 r0_5)) (k0_pay9 (View.ld x5 r0_6)) (k0_pay10 (k0_pay2 (View.ld x1 r0_0)) (k0_pay3 (View.ld x1 r0_0) (View.ld x0 r0_1) (View.ld x2 r0_2) (View.ld x4 r0_3) (View.ld x3 r0_2) (View.ld x5 r0_3)) (k0_pay4 (View.ld x6 r0_3)) (k0_pay5 (View.ld x7 r0_3)) (View.ld x8 r0_3) (View.ld x9 r0_3) (View.ld x2 r0_5) (View.ld x4 r0_6)) (View.ld x6 r0_6) (View.ld x7 r0_6) (View.ld x8 r0_6) (View.ld x9 r0_6)) (View.ld x3 r0_8) (View.ld x5 r0_9) (View.ld x6 r0_9) (View.ld x7 r0_9) (View.ld x8 r0_9) (View.ld x9 r0_9)) x
      = Gbuf x0 x1 x2 x3 x4 x5 x6 x7 x8 x9 (r0_10.emb x) := by
  obtain ⟨a, b, n, g, rfl⟩ : ∃ (a : Fin 1) (b : Fin 1) (n : Fin 1024) (g : Fin 256), x = ix4 a b n g := ⟨x 0, x 1, x 2, x 3, eq_ix4 x⟩
  obtain rfl : a = 0 := Subsingleton.elim _ _
  obtain rfl : b = 0 := Subsingleton.elim _ _
  rw [emb_out2]
  refine (KLayer.piece2 ..).trans ?_
  show _ = stackOf _ _ _ _ _ _ _ _ _ _ 2 n g
  rw [stackOf_two]
  exact congrFun (congrFun (layer2_eq x1 x2 x3 x4 x5 x6 x7 x8 x9 (layer1_eq x1 x2 x3 x4 x5 x6 x7 x8 x9
    (layer0_eq x1 x2 x3 x4 x5 x6 x7 x8 x9 (hfeat_ld x0)))) n) g

/-- So the buffer after the body holds the stack of the staged batch element. -/
private theorem out_eq (y : S3x1x1024x256.Idx) :
    out0_10 x0 x1 x2 x3 x4 x5 x6 x7 x8 x9 y = Gbuf x0 x1 x2 x3 x4 x5 x6 x7 x8 x9 y := by
  unfold out0_10
  refine View.canon_apply_of_pieces (Val := Elt Ideal) (S := S3x1x1024x256) (e := .f32) (Gbuf x0 x1 x2 x3 x4 x5 x6 x7 x8 x9) _ ?_ y (cover0_10 _ _ _ y)
  exact List.forall_mem_cons.2 ⟨store2_eq x0 x1 x2 x3 x4 x5 x6 x7 x8 x9, List.forall_mem_cons.2 ⟨store1_eq x0 x1 x2 x3 x4 x5 x6 x7 x8 x9,
    List.forall_mem_cons.2 ⟨store0_eq x0 x1 x2 x3 x4 x5 x6 x7 x8 x9, fun _ h => absurd h List.not_mem_nil⟩⟩⟩

end Buffer

/-! ## The staged blocks, read from the arrays -/

/-- The printed index maps, decided over the sixteen points: the input window follows the batch axis, -/
private theorem idx_in : ∀ t : Fin cfg0.N,
    win0_0.index t (0 : Fin 3) = t.val ∧ win0_0.index t (1 : Fin 3) = 0 ∧ win0_0.index t (2 : Fin 3) = 0 :=
  (by decide +kernel : ∀ t : Fin grid0.N, _)
/-- the adjacency matrix and the weight stacks are staged whole, -/
private theorem idx_mat : ∀ t : Fin cfg0.N,
    (win0_1.index t (0 : Fin 2) = 0 ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0) :=
  (by decide +kernel : ∀ t : Fin grid0.N, _)
/-- so are the six per-layer vector stacks, -/
private theorem idx_vec : ∀ t : Fin cfg0.N,
    (win0_4.index t (0 : Fin 3) = 0 ∧ win0_4.index t (1 : Fin 3) = 0 ∧ win0_4.index t (2 : Fin 3) = 0)
    ∧ (win0_5.index t (0 : Fin 3) = 0 ∧ win0_5.index t (1 : Fin 3) = 0 ∧ win0_5.index t (2 : Fin 3) = 0)
    ∧ (win0_6.index t (0 : Fin 3) = 0 ∧ win0_6.index t (1 : Fin 3) = 0 ∧ win0_6.index t (2 : Fin 3) = 0)
    ∧ (win0_7.index t (0 : Fin 3) = 0 ∧ win0_7.index t (1 : Fin 3) = 0 ∧ win0_7.index t (2 : Fin 3) = 0)
    ∧ (win0_8.index t (0 : Fin 3) = 0 ∧ win0_8.index t (1 : Fin 3) = 0 ∧ win0_8.index t (2 : Fin 3) = 0)
    ∧ (win0_9.index t (0 : Fin 3) = 0 ∧ win0_9.index t (1 : Fin 3) = 0 ∧ win0_9.index t (2 : Fin 3) = 0) :=
  (by decide +kernel : ∀ t : Fin grid0.N, _)
/-- and the result window follows the result's batch axis. -/
private theorem idx_out : ∀ t : Fin cfg0.N,
    win0_10.index t (0 : Fin 4) = 0 ∧ win0_10.index t (1 : Fin 4) = t.val ∧ win0_10.index t (2 : Fin 4) = 0 ∧ win0_10.index t (3 : Fin 4) = 0 :=
  (by decide +kernel : ∀ t : Fin grid0.N, _)

/-- Point t's input block is batch element t of the features. -/
private theorem iblk0_apply (c : Dev nD) (t : Fin cfg0.N) (n : Fin 1024) (f : Fin 256) (b : Fin 16) (hb : b.val = t.val) :
    (iblk m c 0 t : Vec Ideal S1x1024x256 .f32) (ix3 0 n f) = m ((c : Thread nD τ).loc main_arg0) (ix3 b n f) := by
  obtain ⟨e0, e1, e2⟩ := idx_in t
  unfold iblk
  rw [View.read_apply]
  show V m c main_arg0 _ = _
  rw [V_main_arg0]
  congr 1
  funext a
  apply Fin.ext
  match a with
  | ⟨0, _⟩ => show win0_0.index t (0 : Fin 3) * 1 + 1 * 0 = b.val; rw [e0, hb]; omega
  | ⟨1, _⟩ => show win0_0.index t (1 : Fin 3) * 1024 + 1 * n.val = n.val; rw [e1]; omega
  | ⟨2, _⟩ => show win0_0.index t (2 : Fin 3) * 256 + 1 * f.val = f.val; rw [e2]; omega

/-- Every other block is the whole of its array. -/
private theorem iblk1_apply (c : Dev nD) (t : Fin cfg0.N) (n j : Fin 1024) :
    (iblk m c 1 t : Vec Ideal S1024x1024 .bf16) (ix2 n j) = (V m c main_v27 : S1024x1024.Idx → EReal) (ix2 n j) := by
  obtain ⟨e0, e1⟩ := (idx_mat t).1
  unfold iblk
  rw [View.read_apply]
  show V m c main_v27 _ = _
  congr 1
  funext a
  apply Fin.ext
  match a with
  | ⟨0, _⟩ => show win0_1.index t (0 : Fin 2) * 1024 + 1 * n.val = n.val; rw [e0]; omega
  | ⟨1, _⟩ => show win0_1.index t (1 : Fin 2) * 1024 + 1 * j.val = j.val; rw [e1]; omega

private theorem iblk2_apply (c : Dev nD) (t : Fin cfg0.N) (l : Fin 3) (k g : Fin 256) :
    (iblk m c 2 t : Vec Ideal S3x256x256 .bf16) (ix3 l k g) = (V m c main_v28 : S3x256x256.Idx → EReal) (ix3 l k g) := by
  obtain ⟨e0, e1, e2⟩ := (idx_mat t).2.1
  unfold iblk
  rw [View.read_apply]
  show V m c main_v28 _ = _
  congr 1
  funext a
  apply Fin.ext
  match a with
  | ⟨0, _⟩ => show win0_2.index t (0 : Fin 3) * 3 + 1 * l.val = l.val; rw [e0]; omega
  | ⟨1, _⟩ => show win0_2.index t (1 : Fin 3) * 256 + 1 * k.val = k.val; rw [e1]; omega
  | ⟨2, _⟩ => show win0_2.index t (2 : Fin 3) * 256 + 1 * g.val = g.val; rw [e2]; omega

private theorem iblk3_apply (c : Dev nD) (t : Fin cfg0.N) (l : Fin 3) (k g : Fin 256) :
    (iblk m c 3 t : Vec Ideal S3x256x256 .bf16) (ix3 l k g) = (V m c main_v29 : S3x256x256.Idx → EReal) (ix3 l k g) := by
  obtain ⟨e0, e1, e2⟩ := (idx_mat t).2.2
  unfold iblk
  rw [View.read_apply]
  show V m c main_v29 _ = _
  congr 1
  funext a
  apply Fin.ext
  match a with
  | ⟨0, _⟩ => show win0_3.index t (0 : Fin 3) * 3 + 1 * l.val = l.val; rw [e0]; omega
  | ⟨1, _⟩ => show win0_3.index t (1 : Fin 3) * 256 + 1 * k.val = k.val; rw [e1]; omega
  | ⟨2, _⟩ => show win0_3.index t (2 : Fin 3) * 256 + 1 * g.val = g.val; rw [e2]; omega

private theorem iblk4_apply (c : Dev nD) (t : Fin cfg0.N) (l : Fin 3) (g : Fin 256) :
    (iblk m c 4 t : Vec Ideal S3x1x256 .f32) (ix3 l 0 g) = (V m c main_v30 : S3x1x256.Idx → EReal) (ix3 l 0 g) := by
  obtain ⟨e0, e1, e2⟩ := (idx_vec t).1
  unfold iblk
  rw [View.read_apply]
  show V m c main_v30 _ = _
  congr 1
  funext a
  apply Fin.ext
  match a with
  | ⟨0, _⟩ => show win0_4.index t (0 : Fin 3) * 3 + 1 * l.val = l.val; rw [e0]; omega
  | ⟨1, _⟩ => show win0_4.index t (1 : Fin 3) * 1 + 1 * 0 = 0; rw [e1]
  | ⟨2, _⟩ => show win0_4.index t (2 : Fin 3) * 256 + 1 * g.val = g.val; rw [e2]; omega

private theorem iblk5_apply (c : Dev nD) (t : Fin cfg0.N) (l : Fin 3) (g : Fin 256) :
    (iblk m c 5 t : Vec Ideal S3x1x256 .f32) (ix3 l 0 g) = (V m c main_v31 : S3x1x256.Idx → EReal) (ix3 l 0 g) := by
  obtain ⟨e0, e1, e2⟩ := (idx_vec t).2.1
  unfold iblk
  rw [View.read_apply]
  show V m c main_v31 _ = _
  congr 1
  funext a
  apply Fin.ext
  match a with
  | ⟨0, _⟩ => show win0_5.index t (0 : Fin 3) * 3 + 1 * l.val = l.val; rw [e0]; omega
  | ⟨1, _⟩ => show win0_5.index t (1 : Fin 3) * 1 + 1 * 0 = 0; rw [e1]
  | ⟨2, _⟩ => show win0_5.index t (2 : Fin 3) * 256 + 1 * g.val = g.val; rw [e2]; omega

private theorem iblk6_apply (c : Dev nD) (t : Fin cfg0.N) (l : Fin 3) (g : Fin 256) :
    (iblk m c 6 t : Vec Ideal S3x1x256 .f32) (ix3 l 0 g) = (V m c main_v32 : S3x1x256.Idx → EReal) (ix3 l 0 g) := by
  obtain ⟨e0, e1, e2⟩ := (idx_vec t).2.2.1
  unfold iblk
  rw [View.read_apply]
  show V m c main_v32 _ = _
  congr 1
  funext a
  apply Fin.ext
  match a with
  | ⟨0, _⟩ => show win0_6.index t (0 : Fin 3) * 3 + 1 * l.val = l.val; rw [e0]; omega
  | ⟨1, _⟩ => show win0_6.index t (1 : Fin 3) * 1 + 1 * 0 = 0; rw [e1]
  | ⟨2, _⟩ => show win0_6.index t (2 : Fin 3) * 256 + 1 * g.val = g.val; rw [e2]; omega

private theorem iblk7_apply (c : Dev nD) (t : Fin cfg0.N) (l : Fin 3) (g : Fin 256) :
    (iblk m c 7 t : Vec Ideal S3x1x256 .f32) (ix3 l 0 g) = (V m c main_v33 : S3x1x256.Idx → EReal) (ix3 l 0 g) := by
  obtain ⟨e0, e1, e2⟩ := (idx_vec t).2.2.2.1
  unfold iblk
  rw [View.read_apply]
  show V m c main_v33 _ = _
  congr 1
  funext a
  apply Fin.ext
  match a with
  | ⟨0, _⟩ => show win0_7.index t (0 : Fin 3) * 3 + 1 * l.val = l.val; rw [e0]; omega
  | ⟨1, _⟩ => show win0_7.index t (1 : Fin 3) * 1 + 1 * 0 = 0; rw [e1]
  | ⟨2, _⟩ => show win0_7.index t (2 : Fin 3) * 256 + 1 * g.val = g.val; rw [e2]; omega

private theorem iblk8_apply (c : Dev nD) (t : Fin cfg0.N) (l : Fin 3) (g : Fin 256) :
    (iblk m c 8 t : Vec Ideal S3x1x256 .f32) (ix3 l 0 g) = (V m c main_v34 : S3x1x256.Idx → EReal) (ix3 l 0 g) := by
  obtain ⟨e0, e1, e2⟩ := (idx_vec t).2.2.2.2.1
  unfold iblk
  rw [View.read_apply]
  show V m c main_v34 _ = _
  congr 1
  funext a
  apply Fin.ext
  match a with
  | ⟨0, _⟩ => show win0_8.index t (0 : Fin 3) * 3 + 1 * l.val = l.val; rw [e0]; omega
  | ⟨1, _⟩ => show win0_8.index t (1 : Fin 3) * 1 + 1 * 0 = 0; rw [e1]
  | ⟨2, _⟩ => show win0_8.index t (2 : Fin 3) * 256 + 1 * g.val = g.val; rw [e2]; omega

private theorem iblk9_apply (c : Dev nD) (t : Fin cfg0.N) (l : Fin 3) (g : Fin 256) :
    (iblk m c 9 t : Vec Ideal S3x1x256 .f32) (ix3 l 0 g) = (V m c main_v35 : S3x1x256.Idx → EReal) (ix3 l 0 g) := by
  obtain ⟨e0, e1, e2⟩ := (idx_vec t).2.2.2.2.2
  unfold iblk
  rw [View.read_apply]
  show V m c main_v35 _ = _
  congr 1
  funext a
  apply Fin.ext
  match a with
  | ⟨0, _⟩ => show win0_9.index t (0 : Fin 3) * 3 + 1 * l.val = l.val; rw [e0]; omega
  | ⟨1, _⟩ => show win0_9.index t (1 : Fin 3) * 1 + 1 * 0 = 0; rw [e1]
  | ⟨2, _⟩ => show win0_9.index t (2 : Fin 3) * 256 + 1 * g.val = g.val; rw [e2]; omega

/-! ## What a point writes back, and the array after the run -/

/-- A stack of equal operands is the same stack. -/
private theorem stackOf_congr {M M' : Feat → Feat} {W1 W1' W2 W2' : Fin 3 → Fin 256 → Fin 256 → EReal}
    {b1 b1' b2 b2' γ γ' β β' μ μ' v v' : Fin 3 → Fin 256 → EReal} {h h' : Feat}
    (hM : M = M') (h1 : W1 = W1') (hb1 : b1 = b1') (h2 : W2 = W2') (hb2 : b2 = b2') (hγ : γ = γ') (hβ : β = β')
    (hμ : μ = μ') (hv : v = v') (hh : h = h') :
    stackOf M W1 b1 W2 b2 γ β μ v h = stackOf M' W1' b1' W2' b2' γ' β' μ' v' h' := by
  subst hM h1 hb1 h2 hb2 hγ hβ hμ hv hh; rfl

/-- What point t leaves in the buffer at (l, 0, n, g) is the stack of the arguments at (l, t, n, g): the staged
    blocks are batch element t and the arrays the host operations wrote, which are the adjacency matrix and the
    arguments themselves. -/
private theorem point_eq (c : Dev nD) (t : Fin cfg0.N) (l : Fin 3) (n : Fin 1024) (g : Fin 256) (b : Fin 16) (hb : b.val = t.val) :
    out0_10 (iblk m c 0 t) (iblk m c 1 t) (iblk m c 2 t) (iblk m c 3 t) (iblk m c 4 t) (iblk m c 5 t) (iblk m c 6 t)
        (iblk m c 7 t) (iblk m c 8 t) (iblk m c 9 t) (ix4 l 0 n g)
      = GA m c (ix4 l b n g) := by
  refine (out_eq (iblk m c 0 t) (iblk m c 1 t) (iblk m c 2 t) (iblk m c 3 t) (iblk m c 4 t) (iblk m c 5 t) (iblk m c 6 t)
        (iblk m c 7 t) (iblk m c 8 t) (iblk m c 9 t) (ix4 l 0 n g)).trans ?_
  have hM : mixA (KLayer.amat (iblk m c 1 t))
      = mixA (adj (srcOf (m ((c : Thread nD τ).loc main_arg1))) (dstOf (m ((c : Thread nD τ).loc main_arg1)))) :=
    congrArg mixA (funext fun n => funext fun j => (iblk1_apply m c t n j).trans (KHost.V_adj m c n j))
  have h1 : (fun (l : Fin 3) (k g : Fin 256) => (iblk m c 2 t : Vec Ideal S3x256x256 .bf16) (ix3 l k g))
      = fun l k g => m ((c : Thread nD τ).loc main_arg2) (ix3 l k g) :=
    funext fun l => funext fun k => funext fun g => (iblk2_apply m c t l k g).trans (KHost.V_w1 m c l k g)
  have h2 : (fun (l : Fin 3) (k g : Fin 256) => (iblk m c 3 t : Vec Ideal S3x256x256 .bf16) (ix3 l k g))
      = fun l k g => m ((c : Thread nD τ).loc main_arg4) (ix3 l k g) :=
    funext fun l => funext fun k => funext fun g => (iblk3_apply m c t l k g).trans (KHost.V_w2 m c l k g)
  have hb1 : (fun (l : Fin 3) (g : Fin 256) => (iblk m c 4 t : Vec Ideal S3x1x256 .f32) (ix3 l 0 g))
      = fun l g => m ((c : Thread nD τ).loc main_arg3) (ix2 l g) :=
    funext fun l => funext fun g => (iblk4_apply m c t l g).trans (KHost.V_b1 m c l g)
  have hb2 : (fun (l : Fin 3) (g : Fin 256) => (iblk m c 5 t : Vec Ideal S3x1x256 .f32) (ix3 l 0 g))
      = fun l g => m ((c : Thread nD τ).loc main_arg5) (ix2 l g) :=
    funext fun l => funext fun g => (iblk5_apply m c t l g).trans (KHost.V_b2 m c l g)
  have hγ : (fun (l : Fin 3) (g : Fin 256) => (iblk m c 6 t : Vec Ideal S3x1x256 .f32) (ix3 l 0 g))
      = fun l g => m ((c : Thread nD τ).loc main_arg6) (ix2 l g) :=
    funext fun l => funext fun g => (iblk6_apply m c t l g).trans (KHost.V_gamma m c l g)
  have hβ : (fun (l : Fin 3) (g : Fin 256) => (iblk m c 7 t : Vec Ideal S3x1x256 .f32) (ix3 l 0 g))
      = fun l g => m ((c : Thread nD τ).loc main_arg7) (ix2 l g) :=
    funext fun l => funext fun g => (iblk7_apply m c t l g).trans (KHost.V_beta m c l g)
  have hμ : (fun (l : Fin 3) (g : Fin 256) => (iblk m c 8 t : Vec Ideal S3x1x256 .f32) (ix3 l 0 g))
      = fun l g => m ((c : Thread nD τ).loc main_arg8) (ix2 l g) :=
    funext fun l => funext fun g => (iblk8_apply m c t l g).trans (KHost.V_mean m c l g)
  have hv : (fun (l : Fin 3) (g : Fin 256) => (iblk m c 9 t : Vec Ideal S3x1x256 .f32) (ix3 l 0 g))
      = fun l g => m ((c : Thread nD τ).loc main_arg9) (ix2 l g) :=
    funext fun l => funext fun g => (iblk9_apply m c t l g).trans (KHost.V_var m c l g)
  have hh : KLayer.hfeat (iblk m c 0 t) = fun n f => m ((c : Thread nD τ).loc main_arg0) (ix3 b n f) :=
    funext fun n => funext fun f => iblk0_apply m c t n f b hb
  exact congrFun (congrFun (congrFun (stackOf_congr hM h1 hb1 h2 hb2 hγ hβ hμ hv hh) l) n) g

/-- Every index of the result is in the block of the point its batch coordinate names. -/
private theorem cover (i : S3x16x1024x256.Idx) :
    ∃ t : Fin cfg0.N, (cfg0.win 10).flush t = true ∧ i ∈ ((cfg0.win 10).blk t).view.set := by
  have hb : (i 1).val < 16 := (i 1).isLt
  have hN : (i 1).val < cfg0.N := Nat.lt_of_lt_of_eq hb N_0.symm
  obtain ⟨e0, e1, e2, e3⟩ := idx_out ⟨(i 1).val, hN⟩
  refine ⟨⟨(i 1).val, hN⟩, flush0_10 _, ?_⟩
  show i ∈ ((View.whole main_v36).slice (win0_10.rect ⟨(i 1).val, hN⟩)).set
  rw [View.set_slice_whole, Rect.mem_set_unit]
  intro a
  match a with
  | ⟨0, _⟩ =>
    show win0_10.index ⟨(i 1).val, hN⟩ (0 : Fin 4) * 3 ≤ (i 0).val ∧ (i 0).val < win0_10.index ⟨(i 1).val, hN⟩ (0 : Fin 4) * 3 + 3
    rw [e0]; have h : (i 0).val < 3 := (i 0).isLt; omega
  | ⟨1, _⟩ =>
    show win0_10.index ⟨(i 1).val, hN⟩ (1 : Fin 4) * 1 ≤ (i 1).val ∧ (i 1).val < win0_10.index ⟨(i 1).val, hN⟩ (1 : Fin 4) * 1 + 1
    rw [e1]; show (i 1).val * 1 ≤ (i 1).val ∧ (i 1).val < (i 1).val * 1 + 1; omega
  | ⟨2, _⟩ =>
    show win0_10.index ⟨(i 1).val, hN⟩ (2 : Fin 4) * 1024 ≤ (i 2).val ∧ (i 2).val < win0_10.index ⟨(i 1).val, hN⟩ (2 : Fin 4) * 1024 + 1024
    rw [e2]; have h : (i 2).val < 1024 := (i 2).isLt; omega
  | ⟨3, _⟩ =>
    show win0_10.index ⟨(i 1).val, hN⟩ (3 : Fin 4) * 256 ≤ (i 3).val ∧ (i 3).val < win0_10.index ⟨(i 1).val, hN⟩ (3 : Fin 4) * 256 + 256
    rw [e3]; have h : (i 3).val < 256 := (i 3).isLt; omega

/-- What point t writes back is block t of the stack. -/
theorem flushed_eq (c : Dev nD) (t : Fin cfg0.N) :
    (dats m 0 c).flushed 10 t = ((cfg0.win 10).blk t).view.read (Elt Ideal) (GA m c) := by
  rw [Cert.KernelIdeal.Value.flushed10]
  funext j
  obtain ⟨l, z, n, g, rfl⟩ : ∃ (l : Fin 3) (z : Fin 1) (n : Fin 1024) (g : Fin 256), j = ix4 l z n g :=
    ⟨j 0, j 1, j 2, j 3, eq_ix4 j⟩
  obtain rfl : z = 0 := Subsingleton.elim _ _
  have hN : t.val < 16 := Nat.lt_of_lt_of_eq t.isLt N_0
  obtain ⟨e0, e1, e2, e3⟩ := idx_out t
  show out0_10 (iblk m c 0 t) (iblk m c 1 t) (iblk m c 2 t) (iblk m c 3 t) (iblk m c 4 t) (iblk m c 5 t) (iblk m c 6 t)
        (iblk m c 7 t) (iblk m c 8 t) (iblk m c 9 t) (ix4 l 0 n g)
      = GA m c (((cfg0.win 10).blk t).view.emb (ix4 l 0 n g))
  rw [point_eq m c t l n g ⟨t.val, hN⟩ rfl]
  congr 1
  funext a
  apply Fin.ext
  match a with
  | ⟨0, _⟩ => show l.val = win0_10.index t (0 : Fin 4) * 3 + 1 * l.val; rw [e0]; omega
  | ⟨1, _⟩ => show t.val = win0_10.index t (1 : Fin 4) * 1 + 1 * 0; rw [e1]; omega
  | ⟨2, _⟩ => show n.val = win0_10.index t (2 : Fin 4) * 1024 + 1 * n.val; rw [e2]; omega
  | ⟨3, _⟩ => show g.val = win0_10.index t (3 : Fin 4) * 256 + 1 * g.val; rw [e3]; omega

/-- The array after the run is the stack. -/
theorem final (c : Dev nD) : (dats m 0 c).arrAt 10 cfg0.N = GA m c :=
  (dats m 0 c).arrAt_eq_of_cover 10 (GA m c) (fun t _ => flushed_eq m c t) cover

/-- The kernel's run ends with the result array at the stack (aggregation as the sum over arriving edges), the
    arguments unchanged — when every source is a node. -/
theorem kernel_run (hsrc : ∀ c : Dev nD, SrcInRange (srcOf (m ((c : Thread nD τ).loc main_arg1)))) :
    θ_run defs (onTc (τ := τ) (main (F := Ideal))) ⟨m, fun _ => 0, ρ⟩ fun r => ∀ c : Dev nD,
      r.2.mem ((c : Thread nD τ).loc main_v36)
        = Garr (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) := by
  refine (θ_run defs _ _).mono (fun r h c => ⟨?_, (h c).2⟩) (Cert.KernelIdeal.Value.run_blocks m ρ)
  rw [(h c).1, final m c]
  exact GarrA_eq_Garr _ _ _ _ _ _ _ _ _ _ (hsrc c)

end Cert.Gin.KBlock

end
-- ==== Proof.PreDecode.lean ====
/-
  What the precondition says about the edge list: every word of its source row lies in [-1024, 1024), so after
  wrapping a negative index every source is a node.
-/
import proofs.«402477_j13365938225809_3_alg».proof.Pre_finite_inputs
import proofs.«402477_j13365938225809_3_alg».proof.Proof.Gen.Pre_finite_inputs
import proofs.«402477_j13365938225809_3_alg».proof.Proof.Spec
import Idealize.ShloMosaic.Lib.ReduceAll
import Idealize.ShloMosaic.Lib.Pipeline.Value
import Idealize.ShloMosaic.Lib.StableHlo.Predicate

noncomputable section

namespace Cert.Gin

open Idealize.ShloMosaic Idealize.ShloMosaic.ValueIdx Cert.Pre_finite_inputs

/-- The scalar shape has one index. -/
private instance subsingleton_scalarIdx : Subsingleton S_.Idx := ⟨fun _ _ => funext fun d => d.elim0⟩

/-! ## Words: a signed comparison that came out 1 orders the signed values -/

private theorem cmpi_slt_iff (a b : BitVec 32) : IntOp.cmpi .slt a b = 1#1 ↔ a.toInt < b.toInt := by
  unfold IntOp.cmpi
  rw [StableHlo.Predicate.ofBool_eq_one_iff]
  simp only [BitVec.slt, decide_eq_true_eq]

private theorem cmpi_sge_iff (a b : BitVec 32) : IntOp.cmpi .sge a b = 1#1 ↔ b.toInt ≤ a.toInt := by
  unfold IntOp.cmpi
  rw [StableHlo.Predicate.ofBool_eq_one_iff]
  simp only [BitVec.sle, decide_eq_true_eq]

/-- A word in [-1024, 1024), wrapped, lies in [0, 1024): a negative one moves up by 1024 without leaving the 32-bit
    signed range, a non-negative one stays. -/
private theorem wrap_range (w : BitVec 32) (h0 : -1024 ≤ w.toInt) (h1 : w.toInt < 1024) :
    0 ≤ (wrap w).toInt ∧ (wrap w).toInt < 1024 := by
  have z : (0#32 : BitVec 32).toInt = 0 := by decide
  have k : (1024#32 : BitVec 32).toInt = 1024 := by decide
  unfold wrap
  by_cases hc : IntOp.cmpi .slt w 0#32 = 1#1
  · rw [hc, select_one]
    rw [cmpi_slt_iff, z] at hc
    unfold IntOp.addi
    rw [BitVec.toInt_add, k, Int.bmod_eq_of_le_mul_two (by omega) (by omega)]
    omega
  · rw [eq_zero_of_ne_one hc, select_zero]
    rw [cmpi_slt_iff, z] at hc
    omega

/-! ## Reads: row 0 of the edge list, flattened, at position e is the word (0, e) -/

private theorem row0_read (a1 : IVec S2x16384 32) (hs : S2x16384.Slices ![0, 0] S1x16384) (hc : S1x16384.ShapeCasts S16384)
    (e : Fin 16384) :
    shapeCast S16384 (extractStridedSlice S1x16384 ![0, 0] a1 hs) hc (ix1 e) = a1 (ix2 0 e) := by
  refine (shapeCast_apply _ hc (ix1 e) (ix2 (0 : Fin 1) e) ?_).trans ?_
  · rw [Shape.rowMajor_val_two, Shape.rowMajor_val_one]
    show 0 * 16384 + e.val = e.val
    omega
  · refine extractStridedSlice_apply _ _ hs _ (ix2 (0 : Fin 2) e) ?_
    intro a
    match a with
    | ⟨0, _⟩ => rfl
    | ⟨1, _⟩ => show e.val = 0 + e.val; omega

/-! ## The precondition's last conjunct, read at one edge -/

/-- The conjunction of all the checks is 1, so its last conjunct is: the all-reduction of
    (word ≥ -1024) ∧ (word < 1024) over row 0 is 1, so both comparisons are 1 at every edge. -/
private theorem words_of_pre (a0 : FVec Ideal S16x1024x256 .f32) (a1 : IVec S2x16384 32) (a2 : FVec Ideal S3x256x256 .f32)
    (a3 : FVec Ideal S3x256 .f32) (a4 : FVec Ideal S3x256x256 .f32) (a5 a6 a7 a8 a9 : FVec Ideal S3x256 .f32)
    (h : Cert.Pre_finite_inputs.fn (F := Ideal) a0 a1 a2 a3 a4 a5 a6 a7 a8 a9 = fun _ => 1#1) (e : Fin 16384) :
    -1024 ≤ (a1 (ix2 0 e)).toInt ∧ (a1 (ix2 0 e)).toInt < 1024 := by
  have h0 := congrFun h ix0
  unfold Cert.Pre_finite_inputs.fn Cert.Pre_finite_inputs.fn_part1 Cert.Pre_finite_inputs.fn_part2
    Cert.Pre_finite_inputs.fn_part3 at h0
  dsimp only at h0
  obtain ⟨-, h1⟩ := IntOp.andi_eq_one.1 h0
  have h2 := Host.reduce_andi_all _ _ _ _ ix0 h1 (ix1 e)
  obtain ⟨h3, h4⟩ := IntOp.andi_eq_one.1 h2
  change IntOp.cmpi .sge _ 4294966272#32 = 1#1 at h3
  change IntOp.cmpi .slt _ 1024#32 = 1#1 at h4
  rw [row0_read, cmpi_sge_iff] at h3
  rw [row0_read, cmpi_slt_iff] at h4
  have lo : (4294966272#32 : BitVec 32).toInt = -1024 := by decide
  have hi : (1024#32 : BitVec 32).toInt = 1024 := by decide
  rw [lo] at h3
  rw [hi] at h4
  exact ⟨h3, h4⟩

theorem srcInRange_of_pre (a0 : FVec Ideal S16x1024x256 .f32) (a1 : IVec S2x16384 32) (a2 : FVec Ideal S3x256x256 .f32)
    (a3 : FVec Ideal S3x256 .f32) (a4 : FVec Ideal S3x256x256 .f32) (a5 a6 a7 a8 a9 : FVec Ideal S3x256 .f32)
    (h : Cert.Pre_finite_inputs.fn (F := Ideal) a0 a1 a2 a3 a4 a5 a6 a7 a8 a9 = fun _ => 1#1) :
    SrcInRange (srcOf a1) := by
  intro e
  obtain ⟨h0, h1⟩ := words_of_pre a0 a1 a2 a3 a4 a5 a6 a7 a8 a9 h e
  exact wrap_range _ h0 h1

end Cert.Gin

end
-- ==== Proof.RefIndexing.lean ====
/-
  The reference's two index-driven operations read at an index. Its gather takes, for edge e, the whole
  [16, ·, 256] slab of the operand at the node the e-th start index names (clamped); its accumulating scatter adds,
  at node n, the updates of the edges whose index word is n.
-/
import proofs.«402477_j13365938225809_3_alg».proof.ReferenceIdeal
import proofs.«402477_j13365938225809_3_alg».proof.Proof.Gen.ReferenceIdeal
import proofs.«402477_j13365938225809_3_alg».proof.Proof.Spec
import Idealize.ShloMosaic.PureOps.Ideal

noncomputable section

namespace Cert.Gin.RefIx

open Idealize.ShloMosaic Idealize.ShloMosaic.ValueIdx Cert.ReferenceIdeal Cert.Gin

/-- The gather read at `(b, e, f)`. Axis by axis the operand index is start + batching coordinate + offset
    coordinate: on axes 0 and 2 (offset axes, not start-indexed) that is `0 + 0 + b` and `0 + 0 + f`; on axis 1
    (collapsed, start-indexed) it is the start index word at `(e, 0)`, read signed and clamped into `[0, 1023]`. -/
theorem gather_apply {α : Type} (X : S16x1024x256.Idx → α) (idx : IVec S16384x1 32) (b : Fin 16) (e : Fin 16384) (f : Fin 256) :
    Host.gather gather_S16x1024x256_S16384x1_S16x16384x256_02_1_n_n_1_1_161256 X idx (ix3 b e f)
      = X (ix3 b (node (idx (ix2 e 0))) f) := by
  unfold Host.gather
  congr 1
  funext a
  refine Fin.ext ?_
  match a with
  | ⟨0, _⟩ =>
    show gather_S16x1024x256_S16384x1_S16x16384x256_02_1_n_n_1_1_161256.start (ix3 b e f) idx 0 + gather_S16x1024x256_S16384x1_S16x16384x256_02_1_n_n_1_1_161256.batchCoord (ix3 b e f) 0 + gather_S16x1024x256_S16384x1_S16x16384x256_02_1_n_n_1_1_161256.offCoord (ix3 b e f) 0 = b.val
    rw [GatherDims.batchCoord_eq_zero _ _ _ List.not_mem_nil]
    unfold GatherDims.start
    rw [dif_neg (by decide)]
    unfold GatherDims.offCoord
    rw [dif_pos (by decide)]
    simp only [Nat.zero_add]
    rfl
  | ⟨1, _⟩ =>
    show gather_S16x1024x256_S16384x1_S16x16384x256_02_1_n_n_1_1_161256.start (ix3 b e f) idx 1 + gather_S16x1024x256_S16384x1_S16x16384x256_02_1_n_n_1_1_161256.batchCoord (ix3 b e f) 1 + gather_S16x1024x256_S16384x1_S16x16384x256_02_1_n_n_1_1_161256.offCoord (ix3 b e f) 1 = (node (idx (ix2 e 0))).val
    rw [GatherDims.batchCoord_eq_zero _ _ _ List.not_mem_nil,
      GatherDims.offCoord_eq_zero _ _ _ (by decide)]
    simp only [Nat.add_zero]
    unfold GatherDims.start
    rw [dif_pos (show (1 : Fin 3) ∈ gather_S16x1024x256_S16384x1_S16x16384x256_02_1_n_n_1_1_161256.startIndexMap from List.mem_singleton.mpr rfl)]
    -- the start index of result index (b, e, f) is read at (e, 0): e on the batch axis, 0 on the index vector's axis
    have hsi : gather_S16x1024x256_S16384x1_S16x16384x256_02_1_n_n_1_1_161256.siIdx (ix3 b e f) ⟨List.idxOf (1 : Fin 3) gather_S16x1024x256_S16384x1_S16x16384x256_02_1_n_n_1_1_161256.startIndexMap,
        List.idxOf_lt_length_iff.2 (List.mem_singleton.mpr rfl)⟩ = ix2 e 0 := by
      funext c; refine Fin.ext ?_
      match c with
      | ⟨0, _⟩ => rfl
      | ⟨1, _⟩ => rfl
    rw [hsi]
    rfl
  | ⟨2, _⟩ =>
    show gather_S16x1024x256_S16384x1_S16x16384x256_02_1_n_n_1_1_161256.start (ix3 b e f) idx 2 + gather_S16x1024x256_S16384x1_S16x16384x256_02_1_n_n_1_1_161256.batchCoord (ix3 b e f) 2 + gather_S16x1024x256_S16384x1_S16x16384x256_02_1_n_n_1_1_161256.offCoord (ix3 b e f) 2 = f.val
    rw [GatherDims.batchCoord_eq_zero _ _ _ List.not_mem_nil]
    unfold GatherDims.start
    rw [dif_neg (by decide)]
    unfold GatherDims.offCoord
    rw [dif_pos (by decide)]
    simp only [Nat.zero_add]
    rfl

/-- An update lands at operand index `i` exactly when, on every axis, start plus window coordinate is `i`'s coordinate. -/
private theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h
    split at h
    · rename_i hr
      have hi := Option.some.inj h
      intro a
      rw [← hi]
      show _ = (((d.start j idx a + (d.window j a : ℤ)).toNat : Nat) : ℤ)
      rw [Int.toNat_of_nonneg (hr a).1]
    · exact absurd h (by simp)
  · intro h
    have hr : ∀ a, 0 ≤ d.start j idx a + (d.window j a : ℤ) ∧ d.start j idx a + (d.window j a : ℤ) < s.size a := by
      intro a
      rw [h a]
      exact ⟨Int.natCast_nonneg _, by exact_mod_cast (i a).isLt⟩
    rw [dif_pos hr]
    congr 1
    funext a
    refine Fin.ext ?_
    show (d.start j idx a + (d.window j a : ℤ)).toNat = (i a).val
    rw [h a]
    exact Int.toNat_natCast _

/-- Axes 0 and 2 are not start-indexed: the window starts at 0 there. -/
private theorem start0 (idx : IVec S16384x1 32) (j : S16x16384x256.Idx) : scatter_S16x1024x256_S16384x1_S16x16384x256_02_1_1_1.start j idx 0 = 0 := by
  unfold ScatterDims.start
  rw [dif_neg (by decide)]

private theorem start2 (idx : IVec S16384x1 32) (j : S16x16384x256.Idx) : scatter_S16x1024x256_S16384x1_S16x16384x256_02_1_1_1.start j idx 2 = 0 := by
  unfold ScatterDims.start
  rw [dif_neg (by decide)]

/-- On axis 1 the window of update `(b, e, f)` starts at the index word at `(e, 0)`, read signed. -/
private theorem start1 (idx : IVec S16384x1 32) (b : Fin 16) (e : Fin 16384) (f : Fin 256) :
    scatter_S16x1024x256_S16384x1_S16x16384x256_02_1_1_1.start (ix3 b e f) idx 1 = (idx (ix2 e 0)).toInt := by
  unfold ScatterDims.start
  rw [dif_pos (show (1 : Fin 3) ∈ scatter_S16x1024x256_S16384x1_S16x16384x256_02_1_1_1.scatterDimsToOperandDims from List.mem_singleton.mpr rfl)]
  have hsi : scatter_S16x1024x256_S16384x1_S16x16384x256_02_1_1_1.siIdx (ix3 b e f) ⟨List.idxOf (1 : Fin 3) scatter_S16x1024x256_S16384x1_S16x16384x256_02_1_1_1.scatterDimsToOperandDims,
      List.idxOf_lt_length_iff.2 (List.mem_singleton.mpr rfl)⟩ = ix2 e 0 := by
    funext c; refine Fin.ext ?_
    match c with
    | ⟨0, _⟩ => rfl
    | ⟨1, _⟩ => rfl
  rw [hsi]

/-- The window coordinates of update `(b, e, f)`: `b` on axis 0, nothing on the inserted axis 1, `f` on axis 2. -/
private theorem window0 (b : Fin 16) (e : Fin 16384) (f : Fin 256) : scatter_S16x1024x256_S16384x1_S16x16384x256_02_1_1_1.window (ix3 b e f) 0 = b.val := by
  unfold ScatterDims.window
  rw [dif_pos (by decide)]
  rfl

private theorem window1 (j : S16x16384x256.Idx) : scatter_S16x1024x256_S16384x1_S16x16384x256_02_1_1_1.window j 1 = 0 := by
  unfold ScatterDims.window
  rw [dif_neg (by decide)]

private theorem window2 (b : Fin 16) (e : Fin 16384) (f : Fin 256) : scatter_S16x1024x256_S16384x1_S16x16384x256_02_1_1_1.window (ix3 b e f) 2 = f.val := by
  unfold ScatterDims.window
  rw [dif_pos (by decide)]
  rfl

/-- Update `(b', e, f')` lands at `(b, n, f)` exactly when `b' = b`, `f' = f` and the `e`-th index word is `n`. -/
private theorem lands_iff (idx : IVec S16384x1 32) (b' : Fin 16) (e : Fin 16384) (f' : Fin 256)
    (b : Fin 16) (n : Fin 1024) (f : Fin 256) :
    scatter_S16x1024x256_S16384x1_S16x16384x256_02_1_1_1.resultIdx? (ix3 b' e f') idx = some (ix3 b n f) ↔ b' = b ∧ (idx (ix2 e 0)).toInt = (n.val : ℤ) ∧ f' = f := by
  rw [resultIdx?_eq_some_iff]
  constructor
  · intro h
    have h0 := h 0
    have h1 := h 1
    have h2 := h 2
    rw [start0, window0] at h0
    rw [start1, window1] at h1
    rw [start2, window2] at h2
    refine ⟨Fin.ext ?_, ?_, Fin.ext ?_⟩
    · have : ((b'.val : ℤ)) = (b.val : ℤ) := by simpa using h0
      exact_mod_cast this
    · simpa using h1
    · have : ((f'.val : ℤ)) = (f.val : ℤ) := by simpa using h2
      exact_mod_cast this
  · rintro ⟨rfl, h1, rfl⟩ a
    match a with
    | ⟨0, _⟩ =>
      show scatter_S16x1024x256_S16384x1_S16x16384x256_02_1_1_1.start _ idx 0 + (scatter_S16x1024x256_S16384x1_S16x16384x256_02_1_1_1.window _ 0 : ℤ) = _
      rw [start0, window0]; simp
    | ⟨1, _⟩ =>
      show scatter_S16x1024x256_S16384x1_S16x16384x256_02_1_1_1.start _ idx 1 + (scatter_S16x1024x256_S16384x1_S16x16384x256_02_1_1_1.window _ 1 : ℤ) = _
      rw [start1, window1, h1]; simp
    | ⟨2, _⟩ =>
      show scatter_S16x1024x256_S16384x1_S16x16384x256_02_1_1_1.start _ idx 2 + (scatter_S16x1024x256_S16384x1_S16x16384x256_02_1_1_1.window _ 2 : ℤ) = _
      rw [start2, window2]; simp

/-- The accumulating scatter read at `(b, n, f)`: the updates landing there are exactly `(b, e, f)` over the edges `e`
    whose index word is `n`; `e ↦ (b, e, f)` is the bijection between the two index sets. -/
theorem scatterAdd_apply (X : FVec Ideal S16x1024x256 .f32) (idx : IVec S16384x1 32) (U : FVec Ideal S16x16384x256 .f32)
    (b : Fin 16) (n : Fin 1024) (f : Fin 256) :
    Host.scatterAdd (F := Ideal) scatter_S16x1024x256_S16384x1_S16x16384x256_02_1_1_1 X idx U (ix3 b n f)
      = X (ix3 b n f) + ∑ e ∈ Finset.univ.filter (fun e : Fin 16384 => (idx (ix2 e 0)).toInt = (n.val : ℤ)), U (ix3 b e f) := by
  simp only [Host.scatterAdd, Ideal.hostScatterAdd_def]
  unfold Ideal.hostScatterAdd
  refine congrArg (fun z => X (ix3 b n f) + z) ?_
  symm
  refine Finset.sum_nbij' (fun e : Fin 16384 => (ix3 b e f : S16x16384x256.Idx)) (fun j : S16x16384x256.Idx => (j 1 : Fin 16384)) ?_ ?_ ?_ ?_ ?_
  · intro e he
    rw [Finset.mem_filter] at he ⊢
    exact ⟨Finset.mem_univ _, (lands_iff idx b e f b n f).2 ⟨rfl, he.2, rfl⟩⟩
  · intro j hj
    have hj2 := (Finset.mem_filter.mp hj).2
    rw [eq_ix3 j] at hj2
    exact Finset.mem_filter.mpr ⟨Finset.mem_univ _, ((lands_iff idx _ _ _ b n f).1 hj2).2.1⟩
  · intro e _
    rfl
  · intro j hj
    rw [Finset.mem_filter] at hj
    have hj2 := hj.2
    rw [eq_ix3 j] at hj2
    obtain ⟨h0, _, h2⟩ := (lands_iff idx _ _ _ b n f).1 hj2
    show ix3 b (j 1) f = j
    rw [← h0, ← h2]
    exact (eq_ix3 j).symm
  · intro e _
    rfl

end Cert.Gin.RefIx

end
-- ==== Proof.RefLayer0.lean ====
/-
  Layer 0 of the reference, read at an index: the layer's operations, one after the other, applied to batch element b of the input array.
-/
import proofs.«402477_j13365938225809_3_alg».proof.Proof.Gen.ReferenceIdeal.Read
import proofs.«402477_j13365938225809_3_alg».proof.Proof.RefIndexing
import proofs.«402477_j13365938225809_3_alg».proof.Proof.Spec

noncomputable section

namespace Cert.Gin.Ref

open Idealize.ShloMosaic Idealize.ShloMosaic.ValueIdx Cert.ReferenceIdeal Cert.ReferenceIdeal.Read Cert.Gin

/-! ### The edge words

  Row 0 (sources) and row 1 (destinations) of the edge list, each word wrapped: a negative word counts from
  the end of the 1024 nodes. -/

/-- The gather's index word of edge e is the wrapped word of row 0. -/
private theorem src_word (x1 : IVec S2x16384 32) (e : Fin 16384) :
    val_main_v10 (F := Ideal) x1 (ix2 e 0) = srcOf x1 e := by
  have hi : idx_main_v0 (idx_main_v1 (idx_main_v10 (ix2 e 0))) = ix2 0 e :=
    funext fun a => Fin.ext (by
      match a with
      | ⟨0, _⟩ => rfl
      | ⟨1, _⟩ => exact Nat.mod_eq_of_lt e.isLt)
  rw [val_main_v10_apply, val_main_v9_apply, val_main_v6_apply, val_main_v8_apply, val_main_v5_apply, val_main_v7_apply,
    val_main_c_apply, val_main_c_0_apply, val_main_v1_apply, val_main_v0_apply, hi]
  rfl

/-- The scatter's index word of edge e is the wrapped word of row 1. -/
private theorem dst_word (x1 : IVec S2x16384 32) (e : Fin 16384) :
    val_main_v17 (F := Ideal) x1 (ix2 e 0) = dstOf x1 e := by
  have hi : idx_main_v2 (idx_main_v3 (idx_main_v17 (ix2 e 0))) = ix2 1 e :=
    funext fun a => Fin.ext (by
      match a with
      | ⟨0, _⟩ => rfl
      | ⟨1, _⟩ => exact Nat.mod_eq_of_lt e.isLt)
  rw [val_main_v17_apply, val_main_v16_apply, val_main_v13_apply, val_main_v15_apply, val_main_v12_apply, val_main_v14_apply,
    val_main_c_1_apply, val_main_c_2_apply, val_main_v3_apply, val_main_v2_apply, hi]
  rfl

/-! ### The aggregation -/

/-- Own features plus the gathered source rows, scatter-added into zeros at their destinations. -/
private theorem agg_eq (x0 : FVec Ideal S16x1024x256 .f32) (x1 : IVec S2x16384 32) (b : Fin 16) (n : Fin 1024) (f : Fin 256) :
    val_main_v19 (F := Ideal) x0 x1 (ix3 b n f) = mix (srcOf x1) (dstOf x1) (fun n f => x0 (ix3 b n f)) n f := by
  rw [val_main_v19_apply]
  unfold val_main_v18
  rw [RefIx.scatterAdd_apply, val_main_v4_apply, val_main_cst_apply]
  unfold val_main_v11 mix
  simp only [RefIx.gather_apply, src_word, dst_word, Ideal.addf_def, Ideal.ofBits_def, Ideal.ofBits_zero_f32, zero_add]

/-! ### Slices of the parameter arrays: layer 0 is row 0 of each -/

private theorem w1_read (x2 : FVec Ideal S3x256x256 .f32) (k g : Fin 256) :
    val_main_v21 (F := Ideal) x2 (ix2 k g) = x2 (ix3 0 k g) := by
  have hk := k.isLt
  have hg := g.isLt
  have hi : idx_main_v20 (idx_main_v21 (ix2 k g)) = ix3 0 k g :=
    funext fun a => Fin.ext (by
      match a with
      | ⟨0, _⟩ => rfl
      | ⟨1, _⟩ => show (k.val * 256 + g.val) / 256 % 256 = k.val; omega
      | ⟨2, _⟩ => show (k.val * 256 + g.val) % 256 = g.val; omega)
  rw [val_main_v21_apply, val_main_v20_apply, hi]

private theorem w2_read (x4 : FVec Ideal S3x256x256 .f32) (k g : Fin 256) :
    val_main_v30 (F := Ideal) x4 (ix2 k g) = x4 (ix3 0 k g) := by
  have hk := k.isLt
  have hg := g.isLt
  have hi : idx_main_v29 (idx_main_v30 (ix2 k g)) = ix3 0 k g :=
    funext fun a => Fin.ext (by
      match a with
      | ⟨0, _⟩ => rfl
      | ⟨1, _⟩ => show (k.val * 256 + g.val) / 256 % 256 = k.val; omega
      | ⟨2, _⟩ => show (k.val * 256 + g.val) % 256 = g.val; omega)
  rw [val_main_v30_apply, val_main_v29_apply, hi]

private theorem b1_read (x3 : FVec Ideal S3x256 .f32) (b : Fin 16) (n : Fin 1024) (g : Fin 256) :
    val_main_v26 (F := Ideal) x3 (ix3 b n g) = x3 (ix2 0 g) := by
  have hi : idx_main_v23 (idx_main_v24 (idx_main_v25 (idx_main_v26 (ix3 b n g)))) = ix2 0 g :=
    funext fun a => Fin.ext (by
      match a with
      | ⟨0, _⟩ => rfl
      | ⟨1, _⟩ => exact Nat.mod_eq_of_lt g.isLt)
  rw [val_main_v26_apply, val_main_v25_apply, val_main_v24_apply, val_main_v23_apply, hi]

private theorem b2_read (x5 : FVec Ideal S3x256 .f32) (b : Fin 16) (n : Fin 1024) (g : Fin 256) :
    val_main_v35 (F := Ideal) x5 (ix3 b n g) = x5 (ix2 0 g) := by
  have hi : idx_main_v32 (idx_main_v33 (idx_main_v34 (idx_main_v35 (ix3 b n g)))) = ix2 0 g :=
    funext fun a => Fin.ext (by
      match a with
      | ⟨0, _⟩ => rfl
      | ⟨1, _⟩ => exact Nat.mod_eq_of_lt g.isLt)
  rw [val_main_v35_apply, val_main_v34_apply, val_main_v33_apply, val_main_v32_apply, hi]

private theorem gamma_read (x6 : FVec Ideal S3x256 .f32) (g : Fin 256) :
    val_main_v38 (F := Ideal) x6 (ix1 g) = x6 (ix2 0 g) := by
  have hi : idx_main_v37 (idx_main_v38 (ix1 g)) = ix2 0 g :=
    funext fun a => Fin.ext (by
      match a with
      | ⟨0, _⟩ => rfl
      | ⟨1, _⟩ => exact Nat.mod_eq_of_lt g.isLt)
  rw [val_main_v38_apply, val_main_v37_apply, hi]

private theorem var_read (x9 : FVec Ideal S3x256 .f32) (g : Fin 256) :
    val_main_v40 (F := Ideal) x9 (ix1 g) = x9 (ix2 0 g) := by
  have hi : idx_main_v39 (idx_main_v40 (ix1 g)) = ix2 0 g :=
    funext fun a => Fin.ext (by
      match a with
      | ⟨0, _⟩ => rfl
      | ⟨1, _⟩ => exact Nat.mod_eq_of_lt g.isLt)
  rw [val_main_v40_apply, val_main_v39_apply, hi]

private theorem beta_read (x7 : FVec Ideal S3x256 .f32) (g : Fin 256) :
    val_main_v49 (F := Ideal) x7 (ix1 g) = x7 (ix2 0 g) := by
  have hi : idx_main_v48 (idx_main_v49 (ix1 g)) = ix2 0 g :=
    funext fun a => Fin.ext (by
      match a with
      | ⟨0, _⟩ => rfl
      | ⟨1, _⟩ => exact Nat.mod_eq_of_lt g.isLt)
  rw [val_main_v49_apply, val_main_v48_apply, hi]

private theorem mean_read (x8 : FVec Ideal S3x256 .f32) (g : Fin 256) :
    val_main_v51 (F := Ideal) x8 (ix1 g) = x8 (ix2 0 g) := by
  have hi : idx_main_v50 (idx_main_v51 (ix1 g)) = ix2 0 g :=
    funext fun a => Fin.ext (by
      match a with
      | ⟨0, _⟩ => rfl
      | ⟨1, _⟩ => exact Nat.mod_eq_of_lt g.isLt)
  rw [val_main_v51_apply, val_main_v50_apply, hi]

/-! ### The normalisation's scale and shift -/

/-- The scale word of feature g: gamma times the reciprocal square root of the variance plus epsilon. -/
private theorem scale_read (x6 x9 : FVec Ideal S3x256 .f32) (g : Fin 256) :
    val_main_v44 (F := Ideal) x6 x9 (ix1 g) = scaleOf (fun g => x6 (ix2 0 g)) (fun g => x9 (ix2 0 g)) g := by
  rw [val_main_v44_apply, val_main_v43_apply, val_main_v42_apply, val_main_v41_apply, val_main_cst_3_apply, gamma_read, var_read]
  unfold scaleOf
  simp only [Ideal.mulf_def, Ideal.hostUnary_rsqrt_def, Ideal.addf_def, Ideal.ofBits_def]

/-- The scale, broadcast along batch and node. -/
private theorem scale_bcast (x6 x9 : FVec Ideal S3x256 .f32) (b : Fin 16) (n : Fin 1024) (g : Fin 256) :
    val_main_v46 (F := Ideal) x6 x9 (ix3 b n g) = scaleOf (fun g => x6 (ix2 0 g)) (fun g => x9 (ix2 0 g)) g := by
  have hi : idx_main_v45 (idx_main_v46 (ix3 b n g)) = ix1 g :=
    funext fun a => Fin.ext (by
      match a with
      | ⟨0, _⟩ => rfl)
  rw [val_main_v46_apply, val_main_v45_apply, hi, scale_read]

/-- The shift beta - mean * scale, broadcast along batch and node. -/
private theorem shift_bcast (x6 x7 x8 x9 : FVec Ideal S3x256 .f32) (b : Fin 16) (n : Fin 1024) (g : Fin 256) :
    val_main_v55 (F := Ideal) x6 x7 x8 x9 (ix3 b n g)
      = x7 (ix2 0 g) - x8 (ix2 0 g) * scaleOf (fun g => x6 (ix2 0 g)) (fun g => x9 (ix2 0 g)) g := by
  have hi : idx_main_v54 (idx_main_v55 (ix3 b n g)) = ix1 g :=
    funext fun a => Fin.ext (by
      match a with
      | ⟨0, _⟩ => rfl)
  rw [val_main_v55_apply, val_main_v54_apply, hi, val_main_v53_apply, val_main_v52_apply, beta_read, mean_read, scale_read]
  simp only [Ideal.mulf_def, Ideal.subf_def]

/-! ### The two dense layers -/

private theorem lidx22 (b : Fin 16) (n : Fin 1024) (g k : Fin 256) : lidx_main_v22 (ix3 b n g) k = ix3 b n k :=
  funext fun a => Fin.ext (by
    match a with
    | ⟨0, _⟩ => rfl
    | ⟨1, _⟩ => rfl
    | ⟨2, _⟩ => rfl)

private theorem ridx22 (b : Fin 16) (n : Fin 1024) (g k : Fin 256) : ridx_main_v22 (ix3 b n g) k = ix2 k g :=
  funext fun a => Fin.ext (by
    match a with
    | ⟨0, _⟩ => rfl
    | ⟨1, _⟩ => rfl)

private theorem lidx31 (b : Fin 16) (n : Fin 1024) (g k : Fin 256) : lidx_main_v31 (ix3 b n g) k = ix3 b n k :=
  funext fun a => Fin.ext (by
    match a with
    | ⟨0, _⟩ => rfl
    | ⟨1, _⟩ => rfl
    | ⟨2, _⟩ => rfl)

private theorem ridx31 (b : Fin 16) (n : Fin 1024) (g k : Fin 256) : ridx_main_v31 (ix3 b n g) k = ix2 k g :=
  funext fun a => Fin.ext (by
    match a with
    | ⟨0, _⟩ => rfl
    | ⟨1, _⟩ => rfl)

/-- The first dense layer on the aggregated features. -/
private theorem dense1_eq (x0 : FVec Ideal S16x1024x256 .f32) (x1 : IVec S2x16384 32) (x2 : FVec Ideal S3x256x256 .f32)
    (x3 : FVec Ideal S3x256 .f32) (b : Fin 16) (n : Fin 1024) (g : Fin 256) :
    val_main_v27 (F := Ideal) x0 x1 x2 x3 (ix3 b n g)
      = dense (fun k g => x2 (ix3 0 k g)) (fun g => x3 (ix2 0 g))
          (mix (srcOf x1) (dstOf x1) (fun n f => x0 (ix3 b n f))) n g := by
  unfold dense
  rw [val_main_v27_apply, val_main_v22_apply, b1_read]
  simp only [lidx22, ridx22, w1_read, agg_eq, Ideal.addf_def]

/-- The rectifier after the first dense layer. -/
private theorem relu1_eq (x0 : FVec Ideal S16x1024x256 .f32) (x1 : IVec S2x16384 32) (x2 : FVec Ideal S3x256x256 .f32)
    (x3 : FVec Ideal S3x256 .f32) (b : Fin 16) (n : Fin 1024) (g : Fin 256) :
    val_main_v28 (F := Ideal) x0 x1 x2 x3 (ix3 b n g)
      = relu (dense (fun k g => x2 (ix3 0 k g)) (fun g => x3 (ix2 0 g))
          (mix (srcOf x1) (dstOf x1) (fun n f => x0 (ix3 b n f)))) n g := by
  unfold relu
  rw [val_main_v28_apply, val_main_call0_v0_apply, val_main_call0_cst_apply, dense1_eq]
  simp only [Ideal.maximumf_def, Ideal.ofBits_def, Ideal.ofBits_zero_f32]

/-- The second dense layer. -/
private theorem dense2_eq (x0 : FVec Ideal S16x1024x256 .f32) (x1 : IVec S2x16384 32) (x2 : FVec Ideal S3x256x256 .f32)
    (x3 : FVec Ideal S3x256 .f32) (x4 : FVec Ideal S3x256x256 .f32) (x5 : FVec Ideal S3x256 .f32)
    (b : Fin 16) (n : Fin 1024) (g : Fin 256) :
    val_main_v36 (F := Ideal) x0 x1 x2 x3 x4 x5 (ix3 b n g)
      = dense (fun k g => x4 (ix3 0 k g)) (fun g => x5 (ix2 0 g))
          (relu (dense (fun k g => x2 (ix3 0 k g)) (fun g => x3 (ix2 0 g))
            (mix (srcOf x1) (dstOf x1) (fun n f => x0 (ix3 b n f))))) n g := by
  unfold dense
  rw [val_main_v36_apply, val_main_v31_apply, b2_read]
  simp only [lidx31, ridx31, w2_read, relu1_eq, Ideal.addf_def]
  rfl

/-! ### The layer -/

theorem layer0_eq (x0 : FVec Ideal S16x1024x256 .f32) (x1 : IVec S2x16384 32) (x2 : FVec Ideal S3x256x256 .f32) (x3 : FVec Ideal S3x256 .f32) (x4 : FVec Ideal S3x256x256 .f32) (x5 x6 x7 x8 x9 : FVec Ideal S3x256 .f32) (b : Fin 16) (n : Fin 1024) (f : Fin 256) :
    val_main_v57 (F := Ideal) x0 x1 x2 x3 x4 x5 x6 x7 x8 x9 (ix3 b n f)
      = layerOf (mix (srcOf x1) (dstOf x1)) (fun k g => x2 (ix3 0 k g)) (fun g => x3 (ix2 0 g)) (fun k g => x4 (ix3 0 k g)) (fun g => x5 (ix2 0 g)) (fun g => x6 (ix2 0 g)) (fun g => x7 (ix2 0 g)) (fun g => x8 (ix2 0 g)) (fun g => x9 (ix2 0 g))
          (fun n f => x0 (ix3 b n f)) n f := by
  unfold layerOf normRelu
  rw [val_main_v57_apply, val_main_call1_v0_apply, val_main_call1_cst_apply, val_main_v56_apply, val_main_v47_apply,
    dense2_eq, scale_bcast, shift_bcast]
  simp only [Ideal.maximumf_def, Ideal.addf_def, Ideal.mulf_def, Ideal.ofBits_def, Ideal.ofBits_zero_f32]

end Cert.Gin.Ref

end
-- ==== Proof.RefLayer1.lean ====
/-
  Layer 1 of the reference, read at an index: the same operations with the second slices of the parameters, applied to layer 0's output.
-/
import proofs.«402477_j13365938225809_3_alg».proof.Proof.Gen.ReferenceIdeal.Read
import proofs.«402477_j13365938225809_3_alg».proof.Proof.RefIndexing
import proofs.«402477_j13365938225809_3_alg».proof.Proof.Spec

noncomputable section

namespace Cert.Gin.Ref

open Idealize.ShloMosaic Idealize.ShloMosaic.ValueIdx Cert.ReferenceIdeal Cert.ReferenceIdeal.Read Cert.Gin

/-! ## The index words -/

/-- Row 0 of the edge list, flattened, read at edge `e`. -/
private theorem row0_idx (e : Fin 16384) :
    idx_main_v0 (idx_main_v1 (idx_main_v64 (ix2 e (0 : Fin 1)))) = ix2 0 e :=
  funext fun a => Fin.ext (by
    match a with
    | ⟨0, _⟩ => rfl
    | ⟨1, _⟩ => exact Nat.mod_eq_of_lt e.isLt)

/-- Row 1 of the edge list, flattened, read at edge `e`. -/
private theorem row1_idx (e : Fin 16384) :
    idx_main_v2 (idx_main_v3 (idx_main_v71 (ix2 e (0 : Fin 1)))) = ix2 1 e :=
  funext fun a => Fin.ext (by
    match a with
    | ⟨0, _⟩ => rfl
    | ⟨1, _⟩ => exact Nat.mod_eq_of_lt e.isLt)

/-- The gather's start index of edge `e` is the wrapped source word. -/
private theorem srcWord (x1 : IVec S2x16384 32) (e : Fin 16384) :
    val_main_v64 (F := Ideal) x1 (ix2 e 0) = srcOf x1 e := by
  rw [val_main_v64_apply, val_main_v63_apply, val_main_v60_apply, val_main_v62_apply, val_main_v59_apply,
    val_main_v61_apply, val_main_c_5_apply, val_main_c_6_apply, val_main_v1_apply, val_main_v0_apply, row0_idx]
  rfl

/-- The scatter's index of edge `e` is the wrapped destination word. -/
private theorem dstWord (x1 : IVec S2x16384 32) (e : Fin 16384) :
    val_main_v71 (F := Ideal) x1 (ix2 e 0) = dstOf x1 e := by
  rw [val_main_v71_apply, val_main_v70_apply, val_main_v67_apply, val_main_v69_apply, val_main_v66_apply,
    val_main_v68_apply, val_main_c_7_apply, val_main_c_8_apply, val_main_v3_apply, val_main_v2_apply, row1_idx]
  rfl

/-! ## The aggregation -/

/-- Own features plus the features gathered along the arriving edges. -/
private theorem agg (x0 : FVec Ideal S16x1024x256 .f32) (x1 : IVec S2x16384 32) (x2 : FVec Ideal S3x256x256 .f32) (x3 : FVec Ideal S3x256 .f32) (x4 : FVec Ideal S3x256x256 .f32) (x5 x6 x7 x8 x9 : FVec Ideal S3x256 .f32) (b : Fin 16) (n : Fin 1024) (f : Fin 256) :
    val_main_v73 (F := Ideal) x0 x1 x2 x3 x4 x5 x6 x7 x8 x9 (ix3 b n f)
      = mix (srcOf x1) (dstOf x1) (fun n f => val_main_v57 (F := Ideal) x0 x1 x2 x3 x4 x5 x6 x7 x8 x9 (ix3 b n f)) n f := by
  rw [val_main_v73_apply]
  unfold val_main_v72 val_main_v65
  generalize val_main_v57 (F := Ideal) x0 x1 x2 x3 x4 x5 x6 x7 x8 x9 = X
  rw [RefIx.scatterAdd_apply]
  simp only [RefIx.gather_apply, srcWord, dstWord, val_main_v58_apply, val_main_cst_4_apply, Ideal.addf_def,
    Ideal.ofBits_def, Ideal.ofBits_zero_f32, zero_add]
  rfl

/-! ## The index maps of the parameter slices -/

private theorem lidx76 (b : Fin 16) (n : Fin 1024) (g k : Fin 256) : lidx_main_v76 (ix3 b n g) k = ix3 b n k :=
  funext fun a => by match a with | ⟨0, _⟩ => rfl | ⟨1, _⟩ => rfl | ⟨2, _⟩ => rfl

private theorem lidx85 (b : Fin 16) (n : Fin 1024) (g k : Fin 256) : lidx_main_v85 (ix3 b n g) k = ix3 b n k :=
  funext fun a => by match a with | ⟨0, _⟩ => rfl | ⟨1, _⟩ => rfl | ⟨2, _⟩ => rfl

/-- Slice 1 of a `[3, 256, 256]` parameter, flattened to `[256, 256]`, read at `(k, g)`. -/
private theorem w1_idx (b : Fin 16) (n : Fin 1024) (g k : Fin 256) :
    idx_main_v74 (idx_main_v75 (ridx_main_v76 (ix3 b n g) k)) = ix3 1 k g :=
  funext fun a => Fin.ext (by
    have hk : k.val < 256 := k.isLt
    have hg : g.val < 256 := g.isLt
    match a with
    | ⟨0, _⟩ => rfl
    | ⟨1, _⟩ => show (k.val * 256 + g.val) / 256 % 256 = k.val; omega
    | ⟨2, _⟩ => show (k.val * 256 + g.val) % 256 = g.val; omega)

private theorem w2_idx (b : Fin 16) (n : Fin 1024) (g k : Fin 256) :
    idx_main_v83 (idx_main_v84 (ridx_main_v85 (ix3 b n g) k)) = ix3 1 k g :=
  funext fun a => Fin.ext (by
    have hk : k.val < 256 := k.isLt
    have hg : g.val < 256 := g.isLt
    match a with
    | ⟨0, _⟩ => rfl
    | ⟨1, _⟩ => show (k.val * 256 + g.val) / 256 % 256 = k.val; omega
    | ⟨2, _⟩ => show (k.val * 256 + g.val) % 256 = g.val; omega)

/-- Slice 1 of a `[3, 256]` parameter, broadcast over batch and node, read at feature `g`. -/
private theorem b1_idx (b : Fin 16) (n : Fin 1024) (g : Fin 256) :
    idx_main_v77 (idx_main_v78 (idx_main_v79 (idx_main_v80 (ix3 b n g)))) = ix2 1 g :=
  funext fun a => Fin.ext (by
    match a with
    | ⟨0, _⟩ => rfl
    | ⟨1, _⟩ => exact Nat.mod_eq_of_lt g.isLt)

private theorem b2_idx (b : Fin 16) (n : Fin 1024) (g : Fin 256) :
    idx_main_v86 (idx_main_v87 (idx_main_v88 (idx_main_v89 (ix3 b n g)))) = ix2 1 g :=
  funext fun a => Fin.ext (by
    match a with
    | ⟨0, _⟩ => rfl
    | ⟨1, _⟩ => exact Nat.mod_eq_of_lt g.isLt)

private theorem vec_idx91 (g : Fin 256) : idx_main_v91 (idx_main_v92 (ix1 g)) = ix2 1 g :=
  funext fun a => Fin.ext (by
    match a with
    | ⟨0, _⟩ => rfl
    | ⟨1, _⟩ => exact Nat.mod_eq_of_lt g.isLt)

private theorem vec_idx93 (g : Fin 256) : idx_main_v93 (idx_main_v94 (ix1 g)) = ix2 1 g :=
  funext fun a => Fin.ext (by
    match a with
    | ⟨0, _⟩ => rfl
    | ⟨1, _⟩ => exact Nat.mod_eq_of_lt g.isLt)

private theorem vec_idx102 (g : Fin 256) : idx_main_v102 (idx_main_v103 (ix1 g)) = ix2 1 g :=
  funext fun a => Fin.ext (by
    match a with
    | ⟨0, _⟩ => rfl
    | ⟨1, _⟩ => exact Nat.mod_eq_of_lt g.isLt)

private theorem vec_idx104 (g : Fin 256) : idx_main_v104 (idx_main_v105 (ix1 g)) = ix2 1 g :=
  funext fun a => Fin.ext (by
    match a with
    | ⟨0, _⟩ => rfl
    | ⟨1, _⟩ => exact Nat.mod_eq_of_lt g.isLt)

private theorem bc_idx100 (b : Fin 16) (n : Fin 1024) (g : Fin 256) :
    idx_main_v99 (idx_main_v100 (ix3 b n g)) = ix1 g :=
  funext fun a => by match a with | ⟨0, _⟩ => rfl

private theorem bc_idx109 (b : Fin 16) (n : Fin 1024) (g : Fin 256) :
    idx_main_v108 (idx_main_v109 (ix3 b n g)) = ix1 g :=
  funext fun a => by match a with | ⟨0, _⟩ => rfl

/-! ## The two dense layers -/

private theorem dense1 (x0 : FVec Ideal S16x1024x256 .f32) (x1 : IVec S2x16384 32) (x2 : FVec Ideal S3x256x256 .f32) (x3 : FVec Ideal S3x256 .f32) (x4 : FVec Ideal S3x256x256 .f32) (x5 x6 x7 x8 x9 : FVec Ideal S3x256 .f32) (b : Fin 16) (n : Fin 1024) (g : Fin 256) :
    val_main_v81 (F := Ideal) x0 x1 x2 x3 x4 x5 x6 x7 x8 x9 (ix3 b n g)
      = dense (fun k g => x2 (ix3 1 k g)) (fun g => x3 (ix2 1 g))
          (fun n k => val_main_v73 (F := Ideal) x0 x1 x2 x3 x4 x5 x6 x7 x8 x9 (ix3 b n k)) n g := by
  rw [val_main_v81_apply, val_main_v76_apply, val_main_v80_apply, val_main_v79_apply, val_main_v78_apply,
    val_main_v77_apply, b1_idx]
  simp only [val_main_v75_apply, val_main_v74_apply, lidx76, w1_idx]
  rfl

private theorem relu1 (x0 : FVec Ideal S16x1024x256 .f32) (x1 : IVec S2x16384 32) (x2 : FVec Ideal S3x256x256 .f32) (x3 : FVec Ideal S3x256 .f32) (x4 : FVec Ideal S3x256x256 .f32) (x5 x6 x7 x8 x9 : FVec Ideal S3x256 .f32) (b : Fin 16) (n : Fin 1024) (g : Fin 256) :
    val_main_v82 (F := Ideal) x0 x1 x2 x3 x4 x5 x6 x7 x8 x9 (ix3 b n g) = relu (fun n g => val_main_v81 (F := Ideal) x0 x1 x2 x3 x4 x5 x6 x7 x8 x9 (ix3 b n g)) n g := by
  rw [val_main_v82_apply, val_main_call2_v0_apply, val_main_call2_cst_apply]
  simp only [Ideal.maximumf_def, Ideal.ofBits_def, Ideal.ofBits_zero_f32]
  rfl

private theorem dense2 (x0 : FVec Ideal S16x1024x256 .f32) (x1 : IVec S2x16384 32) (x2 : FVec Ideal S3x256x256 .f32) (x3 : FVec Ideal S3x256 .f32) (x4 : FVec Ideal S3x256x256 .f32) (x5 x6 x7 x8 x9 : FVec Ideal S3x256 .f32) (b : Fin 16) (n : Fin 1024) (g : Fin 256) :
    val_main_v90 (F := Ideal) x0 x1 x2 x3 x4 x5 x6 x7 x8 x9 (ix3 b n g)
      = dense (fun k g => x4 (ix3 1 k g)) (fun g => x5 (ix2 1 g))
          (fun n k => val_main_v82 (F := Ideal) x0 x1 x2 x3 x4 x5 x6 x7 x8 x9 (ix3 b n k)) n g := by
  rw [val_main_v90_apply, val_main_v85_apply, val_main_v89_apply, val_main_v88_apply, val_main_v87_apply,
    val_main_v86_apply, b2_idx]
  simp only [val_main_v84_apply, val_main_v83_apply, lidx85, w2_idx]
  rfl

/-! ## The normalisation -/

private theorem scale (x6 x9 : FVec Ideal S3x256 .f32) (g : Fin 256) :
    val_main_v98 (F := Ideal) x6 x9 (ix1 g) = scaleOf (fun g => x6 (ix2 1 g)) (fun g => x9 (ix2 1 g)) g := by
  rw [val_main_v98_apply, val_main_v92_apply, val_main_v91_apply, val_main_v97_apply, val_main_v96_apply,
    val_main_v94_apply, val_main_v93_apply, val_main_v95_apply, val_main_cst_9_apply, vec_idx91, vec_idx93]
  rfl

private theorem norm (x0 : FVec Ideal S16x1024x256 .f32) (x1 : IVec S2x16384 32) (x2 : FVec Ideal S3x256x256 .f32) (x3 : FVec Ideal S3x256 .f32) (x4 : FVec Ideal S3x256x256 .f32) (x5 x6 x7 x8 x9 : FVec Ideal S3x256 .f32) (b : Fin 16) (n : Fin 1024) (g : Fin 256) :
    val_main_v111 (F := Ideal) x0 x1 x2 x3 x4 x5 x6 x7 x8 x9 (ix3 b n g)
      = normRelu (fun g => x6 (ix2 1 g)) (fun g => x7 (ix2 1 g)) (fun g => x8 (ix2 1 g)) (fun g => x9 (ix2 1 g))
          (fun n g => val_main_v90 (F := Ideal) x0 x1 x2 x3 x4 x5 x6 x7 x8 x9 (ix3 b n g)) n g := by
  rw [val_main_v111_apply, val_main_call3_v0_apply, val_main_call3_cst_apply, val_main_v110_apply, val_main_v101_apply,
    val_main_v100_apply, val_main_v99_apply, bc_idx100, val_main_v109_apply, val_main_v108_apply, bc_idx109,
    val_main_v107_apply, val_main_v103_apply, val_main_v102_apply, vec_idx102, val_main_v106_apply, val_main_v105_apply,
    val_main_v104_apply, vec_idx104, scale]
  simp only [Ideal.maximumf_def, Ideal.addf_def, Ideal.mulf_def, Ideal.subf_def, Ideal.ofBits_def, Ideal.ofBits_zero_f32]
  rfl

/-! ## The layer -/

theorem layer1_eq (x0 : FVec Ideal S16x1024x256 .f32) (x1 : IVec S2x16384 32) (x2 : FVec Ideal S3x256x256 .f32) (x3 : FVec Ideal S3x256 .f32) (x4 : FVec Ideal S3x256x256 .f32) (x5 x6 x7 x8 x9 : FVec Ideal S3x256 .f32) (b : Fin 16) (n : Fin 1024) (f : Fin 256) :
    val_main_v111 (F := Ideal) x0 x1 x2 x3 x4 x5 x6 x7 x8 x9 (ix3 b n f)
      = layerOf (mix (srcOf x1) (dstOf x1)) (fun k g => x2 (ix3 1 k g)) (fun g => x3 (ix2 1 g)) (fun k g => x4 (ix3 1 k g)) (fun g => x5 (ix2 1 g)) (fun g => x6 (ix2 1 g)) (fun g => x7 (ix2 1 g)) (fun g => x8 (ix2 1 g)) (fun g => x9 (ix2 1 g))
          (fun n f => val_main_v57 (F := Ideal) x0 x1 x2 x3 x4 x5 x6 x7 x8 x9 (ix3 b n f)) n f := by
  have h73 : (fun n k => val_main_v73 (F := Ideal) x0 x1 x2 x3 x4 x5 x6 x7 x8 x9 (ix3 b n k))
      = mix (srcOf x1) (dstOf x1) (fun n f => val_main_v57 (F := Ideal) x0 x1 x2 x3 x4 x5 x6 x7 x8 x9 (ix3 b n f)) :=
    funext fun n => funext fun k => agg x0 x1 x2 x3 x4 x5 x6 x7 x8 x9 b n k
  have h81 : (fun n g => val_main_v81 (F := Ideal) x0 x1 x2 x3 x4 x5 x6 x7 x8 x9 (ix3 b n g))
      = dense (fun k g => x2 (ix3 1 k g)) (fun g => x3 (ix2 1 g))
          (mix (srcOf x1) (dstOf x1) (fun n f => val_main_v57 (F := Ideal) x0 x1 x2 x3 x4 x5 x6 x7 x8 x9 (ix3 b n f))) := by
    funext n g; rw [dense1, h73]
  have h82 : (fun n g => val_main_v82 (F := Ideal) x0 x1 x2 x3 x4 x5 x6 x7 x8 x9 (ix3 b n g))
      = relu (dense (fun k g => x2 (ix3 1 k g)) (fun g => x3 (ix2 1 g))
          (mix (srcOf x1) (dstOf x1) (fun n f => val_main_v57 (F := Ideal) x0 x1 x2 x3 x4 x5 x6 x7 x8 x9 (ix3 b n f)))) := by
    funext n g; rw [relu1, h81]
  have h90 : (fun n g => val_main_v90 (F := Ideal) x0 x1 x2 x3 x4 x5 x6 x7 x8 x9 (ix3 b n g))
      = dense (fun k g => x4 (ix3 1 k g)) (fun g => x5 (ix2 1 g))
          (relu (dense (fun k g => x2 (ix3 1 k g)) (fun g => x3 (ix2 1 g))
            (mix (srcOf x1) (dstOf x1) (fun n f => val_main_v57 (F := Ideal) x0 x1 x2 x3 x4 x5 x6 x7 x8 x9 (ix3 b n f))))) := by
    funext n g; rw [dense2, h82]
  rw [norm, h90]
  rfl

end Cert.Gin.Ref

end
-- ==== Proof.RefLayer2.lean ====
/-
  Layer 2 of the reference, read at an index: the same operations with the third slices of the parameters, applied to layer 1's output.
-/
import proofs.«402477_j13365938225809_3_alg».proof.Proof.Gen.ReferenceIdeal.Read
import proofs.«402477_j13365938225809_3_alg».proof.Proof.RefIndexing
import proofs.«402477_j13365938225809_3_alg».proof.Proof.Spec

noncomputable section

namespace Cert.Gin.Ref

open Idealize.ShloMosaic Idealize.ShloMosaic.ValueIdx Cert.ReferenceIdeal Cert.ReferenceIdeal.Read Cert.Gin

section Pieces

variable (x0 : FVec Ideal S16x1024x256 .f32) (x1 : IVec S2x16384 32) (x2 : FVec Ideal S3x256x256 .f32) (x3 : FVec Ideal S3x256 .f32) (x4 : FVec Ideal S3x256x256 .f32) (x5 x6 x7 x8 x9 : FVec Ideal S3x256 .f32)

/-! ### The index words: the edge rows, wrapped -/

/-- The gather's start index for edge e is the wrapped word of the source row. -/
private theorem l2_src_word (e : Fin 16384) :
    val_main_v118 (F := Ideal) x1 (ix2 e 0) = srcOf x1 e := by
  have hi : idx_main_v0 (idx_main_v1 (idx_main_v118 (ix2 e (0 : Fin 1)))) = ix2 (0 : Fin 2) e :=
    funext fun a => Fin.ext (by
      match a with
      | ⟨0, _⟩ => rfl
      | ⟨1, _⟩ => exact Nat.mod_eq_of_lt e.isLt)
  rw [val_main_v118_apply, val_main_v117_apply, val_main_v114_apply, val_main_v116_apply, val_main_v113_apply,
    val_main_v115_apply, val_main_c_11_apply, val_main_c_12_apply, val_main_v1_apply, val_main_v0_apply, hi]
  rfl

/-- The scatter's index for edge e is the wrapped word of the destination row. -/
private theorem l2_dst_word (e : Fin 16384) :
    val_main_v125 (F := Ideal) x1 (ix2 e 0) = dstOf x1 e := by
  have hi : idx_main_v2 (idx_main_v3 (idx_main_v125 (ix2 e (0 : Fin 1)))) = ix2 (1 : Fin 2) e :=
    funext fun a => Fin.ext (by
      match a with
      | ⟨0, _⟩ => rfl
      | ⟨1, _⟩ => exact Nat.mod_eq_of_lt e.isLt)
  rw [val_main_v125_apply, val_main_v124_apply, val_main_v121_apply, val_main_v123_apply, val_main_v120_apply,
    val_main_v122_apply, val_main_c_13_apply, val_main_c_14_apply, val_main_v3_apply, val_main_v2_apply, hi]
  rfl

/-! ### The aggregation: own features plus the gathered rows scattered into zeros -/

private theorem l2_agg (b : Fin 16) (n : Fin 1024) (f : Fin 256) :
    val_main_v127 (F := Ideal) x0 x1 x2 x3 x4 x5 x6 x7 x8 x9 (ix3 b n f)
      = mix (srcOf x1) (dstOf x1) (fun n f => val_main_v111 (F := Ideal) x0 x1 x2 x3 x4 x5 x6 x7 x8 x9 (ix3 b n f)) n f := by
  rw [val_main_v127_apply]
  unfold val_main_v126 val_main_v119
  generalize val_main_v111 (F := Ideal) x0 x1 x2 x3 x4 x5 x6 x7 x8 x9 = X
  rw [RefIx.scatterAdd_apply, val_main_v112_apply, val_main_cst_10_apply]
  simp only [RefIx.gather_apply, l2_src_word, l2_dst_word, Ideal.addf_def, Ideal.ofBits_def, Ideal.ofBits_zero_f32, zero_add]
  rfl

/-! ### The third slices of the parameters -/

/-- Entry (k, g) of the first weight matrix's third slice, as the contraction reads it. -/
private theorem l2_w1 (b : Fin 16) (n : Fin 1024) (g k : Fin 256) :
    val_main_v129 (F := Ideal) x2 (ridx_main_v130 (ix3 b n g) k) = x2 (ix3 2 k g) := by
  rw [val_main_v129_apply, val_main_v128_apply]
  refine congrArg x2 (funext fun a => Fin.ext ?_)
  have hk : k.val < 256 := k.isLt
  have hg : g.val < 256 := g.isLt
  match a with
  | ⟨0, _⟩ => rfl
  | ⟨1, _⟩ => show (k.val * 256 + g.val) / 256 % 256 = k.val; omega
  | ⟨2, _⟩ => show (k.val * 256 + g.val) % 256 = g.val; omega

/-- Entry (k, g) of the second weight matrix's third slice, as the contraction reads it. -/
private theorem l2_w2 (b : Fin 16) (n : Fin 1024) (g k : Fin 256) :
    val_main_v138 (F := Ideal) x4 (ridx_main_v139 (ix3 b n g) k) = x4 (ix3 2 k g) := by
  rw [val_main_v138_apply, val_main_v137_apply]
  refine congrArg x4 (funext fun a => Fin.ext ?_)
  have hk : k.val < 256 := k.isLt
  have hg : g.val < 256 := g.isLt
  match a with
  | ⟨0, _⟩ => rfl
  | ⟨1, _⟩ => show (k.val * 256 + g.val) / 256 % 256 = k.val; omega
  | ⟨2, _⟩ => show (k.val * 256 + g.val) % 256 = g.val; omega

/-- The first bias's third slice. -/
private theorem l2_b1 (g : Fin 256) : val_main_v132 (F := Ideal) x3 (ix1 g) = x3 (ix2 2 g) := by
  rw [val_main_v132_apply, val_main_v131_apply]
  refine congrArg x3 (funext fun a => Fin.ext ?_)
  match a with
  | ⟨0, _⟩ => rfl
  | ⟨1, _⟩ => exact Nat.mod_eq_of_lt g.isLt

/-- The second bias's third slice. -/
private theorem l2_b2 (g : Fin 256) : val_main_v141 (F := Ideal) x5 (ix1 g) = x5 (ix2 2 g) := by
  rw [val_main_v141_apply, val_main_v140_apply]
  refine congrArg x5 (funext fun a => Fin.ext ?_)
  match a with
  | ⟨0, _⟩ => rfl
  | ⟨1, _⟩ => exact Nat.mod_eq_of_lt g.isLt

/-- The scale parameter's third slice. -/
private theorem l2_gamma (g : Fin 256) : val_main_v146 (F := Ideal) x6 (ix1 g) = x6 (ix2 2 g) := by
  rw [val_main_v146_apply, val_main_v145_apply]
  refine congrArg x6 (funext fun a => Fin.ext ?_)
  match a with
  | ⟨0, _⟩ => rfl
  | ⟨1, _⟩ => exact Nat.mod_eq_of_lt g.isLt

/-- The variance's third slice. -/
private theorem l2_var (g : Fin 256) : val_main_v148 (F := Ideal) x9 (ix1 g) = x9 (ix2 2 g) := by
  rw [val_main_v148_apply, val_main_v147_apply]
  refine congrArg x9 (funext fun a => Fin.ext ?_)
  match a with
  | ⟨0, _⟩ => rfl
  | ⟨1, _⟩ => exact Nat.mod_eq_of_lt g.isLt

/-- The shift parameter's third slice. -/
private theorem l2_beta (g : Fin 256) : val_main_v157 (F := Ideal) x7 (ix1 g) = x7 (ix2 2 g) := by
  rw [val_main_v157_apply, val_main_v156_apply]
  refine congrArg x7 (funext fun a => Fin.ext ?_)
  match a with
  | ⟨0, _⟩ => rfl
  | ⟨1, _⟩ => exact Nat.mod_eq_of_lt g.isLt

/-- The mean's third slice. -/
private theorem l2_mean (g : Fin 256) : val_main_v159 (F := Ideal) x8 (ix1 g) = x8 (ix2 2 g) := by
  rw [val_main_v159_apply, val_main_v158_apply]
  refine congrArg x8 (funext fun a => Fin.ext ?_)
  match a with
  | ⟨0, _⟩ => rfl
  | ⟨1, _⟩ => exact Nat.mod_eq_of_lt g.isLt

/-! ### The first dense layer and its ReLU -/

private theorem l2_dense1 (b : Fin 16) (n : Fin 1024) (g : Fin 256) :
    val_main_v135 (F := Ideal) x0 x1 x2 x3 x4 x5 x6 x7 x8 x9 (ix3 b n g)
      = dense (fun k g => x2 (ix3 2 k g)) (fun g => x3 (ix2 2 g))
          (mix (srcOf x1) (dstOf x1) (fun n f => val_main_v111 (F := Ideal) x0 x1 x2 x3 x4 x5 x6 x7 x8 x9 (ix3 b n f))) n g := by
  have hb : idx_main_v133 (idx_main_v134 (ix3 b n g)) = ix1 g :=
    funext fun a => Fin.ext (by match a with | ⟨0, _⟩ => rfl)
  rw [val_main_v135_apply, val_main_v130_apply, val_main_v134_apply, val_main_v133_apply, hb, l2_b1]
  simp only [Ideal.addf_def]
  unfold dense
  refine congrArg (· + x3 (ix2 2 g)) (Finset.sum_congr rfl fun k _ => ?_)
  have hl : lidx_main_v130 (ix3 b n g) k = ix3 b n k :=
    funext fun a => Fin.ext (by match a with | ⟨0, _⟩ => rfl | ⟨1, _⟩ => rfl | ⟨2, _⟩ => rfl)
  rw [hl, l2_agg, l2_w1]

private theorem l2_relu1 (b : Fin 16) (n : Fin 1024) (g : Fin 256) :
    val_main_v136 (F := Ideal) x0 x1 x2 x3 x4 x5 x6 x7 x8 x9 (ix3 b n g)
      = relu (dense (fun k g => x2 (ix3 2 k g)) (fun g => x3 (ix2 2 g))
          (mix (srcOf x1) (dstOf x1) (fun n f => val_main_v111 (F := Ideal) x0 x1 x2 x3 x4 x5 x6 x7 x8 x9 (ix3 b n f)))) n g := by
  rw [val_main_v136_apply, val_main_call4_v0_apply, val_main_call4_cst_apply, l2_dense1]
  simp only [Ideal.maximumf_def, Ideal.ofBits_def, Ideal.ofBits_zero_f32]
  rfl

/-! ### The second dense layer -/

private theorem l2_dense2 (b : Fin 16) (n : Fin 1024) (g : Fin 256) :
    val_main_v144 (F := Ideal) x0 x1 x2 x3 x4 x5 x6 x7 x8 x9 (ix3 b n g)
      = dense (fun k g => x4 (ix3 2 k g)) (fun g => x5 (ix2 2 g))
          (relu (dense (fun k g => x2 (ix3 2 k g)) (fun g => x3 (ix2 2 g))
            (mix (srcOf x1) (dstOf x1) (fun n f => val_main_v111 (F := Ideal) x0 x1 x2 x3 x4 x5 x6 x7 x8 x9 (ix3 b n f))))) n g := by
  have hb : idx_main_v142 (idx_main_v143 (ix3 b n g)) = ix1 g :=
    funext fun a => Fin.ext (by match a with | ⟨0, _⟩ => rfl)
  rw [val_main_v144_apply, val_main_v139_apply, val_main_v143_apply, val_main_v142_apply, hb, l2_b2]
  simp only [Ideal.addf_def]
  unfold dense
  refine congrArg (· + x5 (ix2 2 g)) (Finset.sum_congr rfl fun k _ => ?_)
  have hl : lidx_main_v139 (ix3 b n g) k = ix3 b n k :=
    funext fun a => Fin.ext (by match a with | ⟨0, _⟩ => rfl | ⟨1, _⟩ => rfl | ⟨2, _⟩ => rfl)
  rw [hl, l2_relu1, l2_w2]
  rfl

/-! ### The normalisation's scale and shift -/

private theorem l2_scale (g : Fin 256) :
    val_main_v152 (F := Ideal) x6 x9 (ix1 g) = scaleOf (fun g => x6 (ix2 2 g)) (fun g => x9 (ix2 2 g)) g := by
  rw [val_main_v152_apply, val_main_v151_apply, val_main_v150_apply, val_main_v149_apply, val_main_cst_15_apply,
    l2_gamma, l2_var]
  simp only [Ideal.mulf_def, Ideal.addf_def, Ideal.hostUnary_rsqrt_def, Ideal.ofBits_def]
  rfl

private theorem l2_shift (g : Fin 256) :
    val_main_v161 (F := Ideal) x6 x7 x8 x9 (ix1 g)
      = x7 (ix2 2 g) - x8 (ix2 2 g) * scaleOf (fun g => x6 (ix2 2 g)) (fun g => x9 (ix2 2 g)) g := by
  rw [val_main_v161_apply, val_main_v160_apply, l2_scale, l2_beta, l2_mean]
  simp only [Ideal.mulf_def, Ideal.subf_def]

end Pieces

/-! ### The layer -/

theorem layer2_eq (x0 : FVec Ideal S16x1024x256 .f32) (x1 : IVec S2x16384 32) (x2 : FVec Ideal S3x256x256 .f32) (x3 : FVec Ideal S3x256 .f32) (x4 : FVec Ideal S3x256x256 .f32) (x5 x6 x7 x8 x9 : FVec Ideal S3x256 .f32) (b : Fin 16) (n : Fin 1024) (f : Fin 256) :
    val_main_v165 (F := Ideal) x0 x1 x2 x3 x4 x5 x6 x7 x8 x9 (ix3 b n f)
      = layerOf (mix (srcOf x1) (dstOf x1)) (fun k g => x2 (ix3 2 k g)) (fun g => x3 (ix2 2 g)) (fun k g => x4 (ix3 2 k g)) (fun g => x5 (ix2 2 g)) (fun g => x6 (ix2 2 g)) (fun g => x7 (ix2 2 g)) (fun g => x8 (ix2 2 g)) (fun g => x9 (ix2 2 g))
          (fun n f => val_main_v111 (F := Ideal) x0 x1 x2 x3 x4 x5 x6 x7 x8 x9 (ix3 b n f)) n f := by
  have hs : idx_main_v153 (idx_main_v154 (ix3 b n f)) = ix1 f :=
    funext fun a => Fin.ext (by match a with | ⟨0, _⟩ => rfl)
  have ht : idx_main_v162 (idx_main_v163 (ix3 b n f)) = ix1 f :=
    funext fun a => Fin.ext (by match a with | ⟨0, _⟩ => rfl)
  rw [val_main_v165_apply, val_main_call5_v0_apply, val_main_call5_cst_apply, val_main_v164_apply, val_main_v155_apply,
    val_main_v154_apply, val_main_v153_apply, hs, l2_scale, val_main_v163_apply, val_main_v162_apply, ht, l2_shift, l2_dense2]
  simp only [Ideal.maximumf_def, Ideal.addf_def, Ideal.mulf_def, Ideal.ofBits_def, Ideal.ofBits_zero_f32]
  rfl

end Cert.Gin.Ref

end
-- ==== Proof.RefValue.lean ====
/-
  The reference's result is the stack: its three layer outputs, each given a leading unit axis and joined along it.
  Layer l's output at batch element b is the l-fold composition of the layer on batch element b of the input
  (RefLayer0–2 read one layer each over the previous layer's output).
-/
import proofs.«402477_j13365938225809_3_alg».proof.Proof.Gen.ReferenceIdeal.Read
import proofs.«402477_j13365938225809_3_alg».proof.Proof.RefLayer0
import proofs.«402477_j13365938225809_3_alg».proof.Proof.RefLayer1
import proofs.«402477_j13365938225809_3_alg».proof.Proof.RefLayer2
import proofs.«402477_j13365938225809_3_alg».proof.Proof.Spec
import Idealize.ShloMosaic.Lib.Pipeline.Value

noncomputable section

namespace Cert.Gin.Ref

open Idealize.ShloMosaic Idealize.ShloMosaic.ValueIdx Cert.ReferenceIdeal Cert.ReferenceIdeal.Read Cert.Gin

variable (x0 : FVec Ideal S16x1024x256 .f32) (x1 : IVec S2x16384 32) (x2 : FVec Ideal S3x256x256 .f32) (x3 : FVec Ideal S3x256 .f32) (x4 : FVec Ideal S3x256x256 .f32) (x5 x6 x7 x8 x9 : FVec Ideal S3x256 .f32)

/-- The first layer's output on batch element b, as a function of node and feature. -/
theorem out0_eq (b : Fin 16) :
    (fun n f => val_main_v57 (F := Ideal) x0 x1 x2 x3 x4 x5 x6 x7 x8 x9 (ix3 b n f)) = (layerOf (mix (srcOf x1) (dstOf x1)) (fun k g => x2 (ix3 0 k g)) (fun g => x3 (ix2 0 g)) (fun k g => x4 (ix3 0 k g)) (fun g => x5 (ix2 0 g)) (fun g => x6 (ix2 0 g)) (fun g => x7 (ix2 0 g)) (fun g => x8 (ix2 0 g)) (fun g => x9 (ix2 0 g)) (fun n f => x0 (ix3 b n f))) :=
  funext fun n => funext fun f => layer0_eq x0 x1 x2 x3 x4 x5 x6 x7 x8 x9 b n f

/-- The second layer's output: the layer on the first's. -/
theorem out1_eq (b : Fin 16) :
    (fun n f => val_main_v111 (F := Ideal) x0 x1 x2 x3 x4 x5 x6 x7 x8 x9 (ix3 b n f)) = (layerOf (mix (srcOf x1) (dstOf x1)) (fun k g => x2 (ix3 1 k g)) (fun g => x3 (ix2 1 g)) (fun k g => x4 (ix3 1 k g)) (fun g => x5 (ix2 1 g)) (fun g => x6 (ix2 1 g)) (fun g => x7 (ix2 1 g)) (fun g => x8 (ix2 1 g)) (fun g => x9 (ix2 1 g)) (layerOf (mix (srcOf x1) (dstOf x1)) (fun k g => x2 (ix3 0 k g)) (fun g => x3 (ix2 0 g)) (fun k g => x4 (ix3 0 k g)) (fun g => x5 (ix2 0 g)) (fun g => x6 (ix2 0 g)) (fun g => x7 (ix2 0 g)) (fun g => x8 (ix2 0 g)) (fun g => x9 (ix2 0 g)) (fun n f => x0 (ix3 b n f)))) := by
  funext n f
  rw [layer1_eq, out0_eq]

/-- The third layer's output: the layer on the second's. -/
theorem out2_eq (b : Fin 16) :
    (fun n f => val_main_v165 (F := Ideal) x0 x1 x2 x3 x4 x5 x6 x7 x8 x9 (ix3 b n f)) = (layerOf (mix (srcOf x1) (dstOf x1)) (fun k g => x2 (ix3 2 k g)) (fun g => x3 (ix2 2 g)) (fun k g => x4 (ix3 2 k g)) (fun g => x5 (ix2 2 g)) (fun g => x6 (ix2 2 g)) (fun g => x7 (ix2 2 g)) (fun g => x8 (ix2 2 g)) (fun g => x9 (ix2 2 g)) (layerOf (mix (srcOf x1) (dstOf x1)) (fun k g => x2 (ix3 1 k g)) (fun g => x3 (ix2 1 g)) (fun k g => x4 (ix3 1 k g)) (fun g => x5 (ix2 1 g)) (fun g => x6 (ix2 1 g)) (fun g => x7 (ix2 1 g)) (fun g => x8 (ix2 1 g)) (fun g => x9 (ix2 1 g)) (layerOf (mix (srcOf x1) (dstOf x1)) (fun k g => x2 (ix3 0 k g)) (fun g => x3 (ix2 0 g)) (fun k g => x4 (ix3 0 k g)) (fun g => x5 (ix2 0 g)) (fun g => x6 (ix2 0 g)) (fun g => x7 (ix2 0 g)) (fun g => x8 (ix2 0 g)) (fun g => x9 (ix2 0 g)) (fun n f => x0 (ix3 b n f))))) := by
  funext n f
  rw [layer2_eq, out1_eq]

/-- A layer output with a leading unit axis, read at (0, b, n, f). -/
theorem idx166 (b : Fin 16) (n : Fin 1024) (f : Fin 256) : idx_main_v166 (ix4 0 b n f) = ix3 b n f :=
  funext fun a => Fin.ext (by match a with | ⟨0, _⟩ => rfl | ⟨1, _⟩ => rfl | ⟨2, _⟩ => rfl)
theorem idx167 (b : Fin 16) (n : Fin 1024) (f : Fin 256) : idx_main_v167 (ix4 0 b n f) = ix3 b n f :=
  funext fun a => Fin.ext (by match a with | ⟨0, _⟩ => rfl | ⟨1, _⟩ => rfl | ⟨2, _⟩ => rfl)
theorem idx168 (b : Fin 16) (n : Fin 1024) (f : Fin 256) : idx_main_v168 (ix4 0 b n f) = ix3 b n f :=
  funext fun a => Fin.ext (by match a with | ⟨0, _⟩ => rfl | ⟨1, _⟩ => rfl | ⟨2, _⟩ => rfl)

/-- Three arrays with a leading unit axis joined along it: entry (l, b, n, f) of the join is entry (0, b, n, f) of the
    l-th array. -/
theorem join3_apply {α : Type} (y0 y1 y2 : S1x16x1024x256.Idx → α)
    (h : Shape.Concatenates (([⟨S1x16x1024x256, y0⟩, ⟨S1x16x1024x256, y1⟩, ⟨S1x16x1024x256, y2⟩] :
      List ((s : Shape) × (s.Idx → α))).map (·.1)) S3x16x1024x256 0)
    (b : Fin 16) (n : Fin 1024) (f : Fin 256) :
    concatenate S3x16x1024x256 0 [⟨S1x16x1024x256, y0⟩, ⟨S1x16x1024x256, y1⟩, ⟨S1x16x1024x256, y2⟩] h (ix4 (0 : Fin 3) b n f) = y0 (ix4 0 b n f)
    ∧ concatenate S3x16x1024x256 0 [⟨S1x16x1024x256, y0⟩, ⟨S1x16x1024x256, y1⟩, ⟨S1x16x1024x256, y2⟩] h (ix4 (1 : Fin 3) b n f) = y1 (ix4 0 b n f)
    ∧ concatenate S3x16x1024x256 0 [⟨S1x16x1024x256, y0⟩, ⟨S1x16x1024x256, y1⟩, ⟨S1x16x1024x256, y2⟩] h (ix4 (2 : Fin 3) b n f) = y2 (ix4 0 b n f) := by
  have hi : ∀ (k : Fin 3) (bb : Fin S1x16x1024x256.rank), bb.cast (rfl : S1x16x1024x256.rank = S3x16x1024x256.rank) ≠ (0 : Fin 4) →
      ((ix4 (0 : Fin 1) b n f : S1x16x1024x256.Idx) bb).val = ((ix4 k b n f : S3x16x1024x256.Idx) (bb.cast rfl)).val := by
    intro k bb hb
    match bb with
    | ⟨0, _⟩ => exact absurd rfl hb
    | ⟨1, _⟩ => rfl
    | ⟨2, _⟩ => rfl
    | ⟨3, _⟩ => rfl
  refine ⟨?_, ?_, ?_⟩
  · exact concatenate_apply_piece (t := S3x16x1024x256) (0 : Fin 4) [⟨S1x16x1024x256, y0⟩, ⟨S1x16x1024x256, y1⟩, ⟨S1x16x1024x256, y2⟩] h
      (ix4 (0 : Fin 3) b n f : S3x16x1024x256.Idx) 0 (by simp) S1x16x1024x256 y0 rfl rfl 0 (by rfl)
      (ix4 (0 : Fin 1) b n f : S1x16x1024x256.Idx) (hi 0) (by rfl)
  · exact concatenate_apply_piece (t := S3x16x1024x256) (0 : Fin 4) [⟨S1x16x1024x256, y0⟩, ⟨S1x16x1024x256, y1⟩, ⟨S1x16x1024x256, y2⟩] h
      (ix4 (1 : Fin 3) b n f : S3x16x1024x256.Idx) 1 (by simp) S1x16x1024x256 y1 rfl rfl 1 (by rfl)
      (ix4 (0 : Fin 1) b n f : S1x16x1024x256.Idx) (hi 1) (by rfl)
  · exact concatenate_apply_piece (t := S3x16x1024x256) (0 : Fin 4) [⟨S1x16x1024x256, y0⟩, ⟨S1x16x1024x256, y1⟩, ⟨S1x16x1024x256, y2⟩] h
      (ix4 (2 : Fin 3) b n f : S3x16x1024x256.Idx) 2 (by simp) S1x16x1024x256 y2 rfl rfl 2 (by rfl)
      (ix4 (0 : Fin 1) b n f : S1x16x1024x256.Idx) (hi 2) (by rfl)

theorem ref_is_G :
    val_main_v169 (F := Ideal) x0 x1 x2 x3 x4 x5 x6 x7 x8 x9 = Garr x0 x1 x2 x3 x4 x5 x6 x7 x8 x9 := by
  funext i
  obtain ⟨l, b, n, f, rfl⟩ : ∃ (l : Fin 3) (b : Fin 16) (n : Fin 1024) (f : Fin 256), i = ix4 l b n f :=
    ⟨i 0, i 1, i 2, i 3, eq_ix4 i⟩
  unfold val_main_v169
  obtain ⟨j0, j1, j2⟩ := join3_apply (val_main_v166 (F := Ideal) x0 x1 x2 x3 x4 x5 x6 x7 x8 x9) (val_main_v167 (F := Ideal) x0 x1 x2 x3 x4 x5 x6 x7 x8 x9)
    (val_main_v168 (F := Ideal) x0 x1 x2 x3 x4 x5 x6 x7 x8 x9) Cert.ReferenceIdeal.Facts₀.concatenates_S1x16x1024x256_S1x16x1024x256_S1x16x1024x256_S3x16x1024x256_d0 b n f
  match l with
  | ⟨0, _⟩ =>
    refine j0.trans ?_
    rw [val_main_v166_apply, idx166]
    exact congrFun (congrFun (out0_eq x0 x1 x2 x3 x4 x5 x6 x7 x8 x9 b) n) f
  | ⟨1, _⟩ =>
    refine j1.trans ?_
    rw [val_main_v167_apply, idx167]
    exact congrFun (congrFun (out1_eq x0 x1 x2 x3 x4 x5 x6 x7 x8 x9 b) n) f
  | ⟨2, _⟩ =>
    refine j2.trans ?_
    rw [val_main_v168_apply, idx168]
    exact congrFun (congrFun (out2_eq x0 x1 x2 x3 x4 x5 x6 x7 x8 x9 b) n) f

end Cert.Gin.Ref

end
-- ==== Proof.lean ====
/-
  The certificate: a three-layer graph-isomorphism network, the kernel with its neighbour aggregation as a product
  with a dense adjacency matrix (built once on the host by a scatter of ones, plus the identity), the reference
  with a gather of source rows and a scatter-add at destination rows, equal as extended reals.

  The two programs agree when every source index of the edge list is a node (after a negative index is wrapped): the
  reference's gather CLAMPS a source outside the node range onto the nearest node, while the kernel's scatter into
  the adjacency matrix DROPS such an edge; a destination outside the range is dropped by both. The precondition
  therefore carries, beside the finiteness of the float inputs, that the source row lies in [-1024, 1024).

  * frames: the kernel's two are generated; the reference's is its generated run with the result dropped.
  * preserves: the idealisation rewrote nothing.
  * algebraic: the kernel's result array is the three-layer stack of its argument arrays with the aggregation as
    the adjacency product (KBlock, over KLayer's arithmetic and KHost's reading of the host-built arrays), which is
    the stack with the aggregation as the sum over arriving edges when every source is a node (AggLaw, PreDecode);
    the reference's result is that stack (RefValue over RefLayer0–2 and RefIndexing).
-/
import proofs.«402477_j13365938225809_3_alg».proof.Defs
import proofs.«402477_j13365938225809_3_alg».proof.Proof.Gen.Kernel
import proofs.«402477_j13365938225809_3_alg».proof.Proof.Gen.Kernel.Frame
import proofs.«402477_j13365938225809_3_alg».proof.Proof.Gen.KernelIdeal
import proofs.«402477_j13365938225809_3_alg».proof.Proof.Gen.KernelIdeal.Frame
import proofs.«402477_j13365938225809_3_alg».proof.Proof.Gen.KernelIdeal.Value
import proofs.«402477_j13365938225809_3_alg».proof.Proof.Gen.ReferenceIdeal
import proofs.«402477_j13365938225809_3_alg».proof.Proof.Gen.ReferenceIdeal.Run
import proofs.«402477_j13365938225809_3_alg».proof.Proof.Gen.ReferenceIdeal.Read
import proofs.«402477_j13365938225809_3_alg».proof.Proof.Gen.Pre_finite_inputs
import proofs.«402477_j13365938225809_3_alg».proof.Proof.KBlock
import proofs.«402477_j13365938225809_3_alg».proof.Proof.PreDecode
import proofs.«402477_j13365938225809_3_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the stack of the (agreeing) argument arrays. -/
theorem algebraic : Cert.algebraic_KernelIdeal_ReferenceIdeal := by
  intro m ρ m' ρ' hpre hagree
  have hsrc : ∀ c : Dev Cert.KernelIdeal.nD,
      Cert.Gin.SrcInRange (Cert.Gin.srcOf (m ((c.tc : Thread Cert.KernelIdeal.nD Cert.KernelIdeal.τ).loc Cert.KernelIdeal.main_arg1))) :=
    fun c => Cert.Gin.srcInRange_of_pre _ _ _ _ _ _ _ _ _ _ (hpre c)
  refine ⟨_, Cert.Gin.KBlock.kernel_run m ρ hsrc, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v169_eq, Cert.Gin.Ref.ref_is_G]
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
